-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x300 : Shape := ⟨2, ![131072, 300]⟩
abbrev S131072x15 : Shape := ⟨2, ![131072, 15]⟩
abbrev S8x1 : Shape := ⟨2, ![8, 1]⟩
abbrev S1 : Shape := ⟨1, ![1]⟩
abbrev S600x300 : Shape := ⟨2, ![600, 300]⟩
abbrev S300 : Shape := ⟨1, ![300]⟩
abbrev S300x1 : Shape := ⟨2, ![300, 1]⟩
abbrev S_ : Shape := ⟨0, ![]⟩

class Facts : Prop where
  bcast_S_S131072x300 : S_.BroadcastsInDim S131072x300 (![] : Fin 0 → Fin S131072x300.rank)
  reducesTo_S131072x300_S_d0_1 : S131072x300.ReducesTo [0, 1] S_
  h_S_ : 0 < S_.numel
  bcast_S_S131072x15 : S_.BroadcastsInDim S131072x15 (![] : Fin 0 → Fin S131072x15.rank)
  reducesTo_S131072x15_S_d0_1 : S131072x15.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S600x300 : S_.BroadcastsInDim S600x300 (![] : Fin 0 → Fin S600x300.rank)
  reducesTo_S600x300_S_d0_1 : S600x300.ReducesTo [0, 1] S_
  bcast_S_S300 : S_.BroadcastsInDim S300 (![] : Fin 0 → Fin S300.rank)
  reducesTo_S300_S_d0 : S300.ReducesTo [0] S_
  bcast_S_S300x1 : S_.BroadcastsInDim S300x1 (![] : Fin 0 → Fin S300x1.rank)
  reducesTo_S300x1_S_d0_1 : S300x1.ReducesTo [0, 1] S_

variable [Facts]

def fn_part2 {F : FTy → Type} [FloatOps F] (main_arg7 : FVec F S300x1 .f32) (main_arg8 : FVec F S1 .f32) (main_v33 : IVec S_ 1) : IVec S_ 1 :=
  let main_v34 : FVec F S300x1 .f32 := Host.absf main_arg7
  let main_cst_12 : FVec F S_ .f32 := constant S_ .f32 0x7F800000#32
  let main_v35 : FVec F S300x1 .f32 := broadcastInDim S300x1 ![] bcast_S_S300x1 main_cst_12
  let main_v36 : IVec S300x1 1 := cmpf .olt main_v34 main_v35
  let main_c_13 : IVec S_ 1 := constantI S_ 1 1#1
  let main_v37 : IVec S_ 1 := (fun x v => Host.reduce IntOp.andi x v reducesTo_S300x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1 .f32) (main_arg5 : FVec F S600x300 .f32) (main_arg6 : FVec F S300 .f32) (main_arg7 : FVec F S300x1 .f32) (main_arg8 : FVec F S1 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S600x300 .f32 := Host.absf main_arg5
  let main_cst_8 : FVec F S_ .f32 := constant S_ .f32 0x7F800000#32
  let main_v25 : FVec F S600x300 .f32 := broadcastInDim S600x300 ![] bcast_S_S600x300 main_cst_8
  let main_v26 : IVec S600x300 1 := cmpf .olt main_v24 main_v25
  let main_c_9 : IVec S_ 1 := constantI S_ 1 1#1
  let main_v27 : IVec S_ 1 := (fun x v => Host.reduce IntOp.andi x v reducesTo_S600x300_S_d0_1 h_S_) main_v26 main_c_9
  let main_v28 : IVec S_ 1 := andi main_v23 main_v27
  let main_v29 : FVec F S300 .f32 := Host.absf main_arg6
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg7 main_arg8 main_v33

def fn {F : FTy → Type} [FloatOps F] (main_arg0 : FVec F S131072x300 .f32) (main_arg1 : FVec F S131072x300 .f32) (main_arg2 : FVec F S131072x15 .f32) (main_arg3 : FVec F S8x1 .f32) (main_arg4 : FVec F S1 .f32) (main_arg5 : FVec F S600x300 .f32) (main_arg6 : FVec F S300 .f32) (main_arg7 : FVec F S300x1 .f32) (main_arg8 : FVec F S1 .f32) : IVec S_ 1 :=
  let main_v0 : FVec F S131072x300 .f32 := Host.absf main_arg0
  let main_cst : FVec F S_ .f32 := constant S_ .f32 0x7F800000#32
  let main_v1 : FVec F S131072x300 .f32 := broadcastInDim S131072x300 ![] bcast_S_S131072x300 main_cst
  let main_v2 : IVec S131072x300 1 := cmpf .olt main_v0 main_v1
  let main_c : IVec S_ 1 := constantI S_ 1 1#1
  let main_v3 : IVec S_ 1 := (fun x v => Host.reduce IntOp.andi x v reducesTo_S131072x300_S_d0_1 h_S_) main_v2 main_c
  let main_v4 : FVec F S131072x300 .f32 := Host.absf main_arg1
  let main_cst_0 : FVec F S_ .f32 := constant S_ .f32 0x7F800000#32
  let main_v5 : FVec F S131072x300 .f32 := broadcastInDim S131072x300 ![] bcast_S_S131072x300 main_cst_0
  let main_v6 : IVec S131072x300 1 := cmpf .olt main_v4 main_v5
  let main_c_1 : IVec S_ 1 := constantI S_ 1 1#1
  let main_v7 : IVec S_ 1 := (fun x v => Host.reduce IntOp.andi x v reducesTo_S131072x300_S_d0_1 h_S_) main_v6 main_c_1
  let main_v8 : IVec S_ 1 := andi main_v3 main_v7
  let main_v9 : FVec F S131072x15 .f32 := Host.absf main_arg2
  let main_cst_2 : FVec F S_ .f32 := constant S_ .f32 0x7F800000#32
  let main_v10 : FVec F S131072x15 .f32 := broadcastInDim S131072x15 ![] bcast_S_S131072x15 main_cst_2
  let main_v11 : IVec S131072x15 1 := cmpf .olt main_v9 main_v10
  let main_c_3 : IVec S_ 1 := constantI S_ 1 1#1
  let main_v12 : IVec S_ 1 := (fun x v => Host.reduce IntOp.andi x v reducesTo_S131072x15_S_d0_1 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg4 main_arg5 main_arg6 main_arg7 main_arg8 main_v13 main_v16
-- ==== Kernel.lean ====
abbrev S131072x300 : Shape := ⟨2, ![131072, 300]⟩
abbrev S131072x15 : Shape := ⟨2, ![131072, 15]⟩
abbrev S8x1 : Shape := ⟨2, ![8, 1]⟩
abbrev S1 : Shape := ⟨1, ![1]⟩
abbrev S600x300 : Shape := ⟨2, ![600, 300]⟩
abbrev S300 : Shape := ⟨1, ![300]⟩
abbrev S300x1 : Shape := ⟨2, ![300, 1]⟩
abbrev S1x300 : Shape := ⟨2, ![1, 300]⟩
abbrev S1x1 : Shape := ⟨2, ![1, 1]⟩
abbrev S131072x1 : Shape := ⟨2, ![131072, 1]⟩
abbrev S1024x300 : Shape := ⟨2, ![1024, 300]⟩
abbrev S1024x15 : Shape := ⟨2, ![1024, 15]⟩
abbrev S1024x1 : Shape := ⟨2, ![1024, 1]⟩
abbrev S1024x4 : Shape := ⟨2, ![1024, 4]⟩
abbrev S300x300 : Shape := ⟨2, ![300, 300]⟩
abbrev S_ : Shape := ⟨0, ![]⟩

abbrev nBuf : Space → Nat
  | .hbm => 23
  | .vmem => 23
  | .smem => 0
  | _ => 0

abbrev bufTy : (tb : Table) → Fin (tcTables nBuf tb) → BufTy
  | .hbm, ⟨0, _⟩ => ⟨S131072x300, .f32⟩
  | .hbm, ⟨1, _⟩ => ⟨S131072x300, .f32⟩
  | .hbm, ⟨2, _⟩ => ⟨S131072x15, .f32⟩
  | .hbm, ⟨3, _⟩ => ⟨S8x1, .f32⟩
  | .hbm, ⟨4, _⟩ => ⟨S1, .f32⟩
  | .hbm, ⟨5, _⟩ => ⟨S600x300, .f32⟩
  | .hbm, ⟨6, _⟩ => ⟨S300, .f32⟩
  | .hbm, ⟨7, _⟩ => ⟨S300x1, .f32⟩
  | .hbm, ⟨8, _⟩ => ⟨S1, .f32⟩
  | .hbm, ⟨9, _⟩ => ⟨S600x300, .bf16⟩
  | .hbm, ⟨10, _⟩ => ⟨S300x1, .bf16⟩
  | .hbm, ⟨11, _⟩ => ⟨S1x300, .f32⟩
  | .hbm, ⟨12, _⟩ => ⟨S1x1, .f32⟩
  | .hbm, ⟨13, _⟩ => ⟨S1x1, .f32⟩
  | .hbm, ⟨14, _⟩ => ⟨S131072x1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x300, .f32⟩
  | .local _ .vmem, ⟨1, _⟩ => ⟨S1024x300, .f32⟩
  | .local _ .vmem, ⟨2, _⟩ => ⟨S1024x300, .f32⟩
  | .local _ .vmem, ⟨3, _⟩ => ⟨S1024x300, .f32⟩
  | .local _ .vmem, ⟨4, _⟩ => ⟨S1024x15, .f32⟩
  | .local _ .vmem, ⟨5, _⟩ => ⟨S1024x15, .f32⟩
  | .local _ .vmem, ⟨6, _⟩ => ⟨S600x300, .bf16⟩
  | .local _ .vmem, ⟨7, _⟩ => ⟨S1x300, .f32⟩
  | .local _ .vmem, ⟨8, _⟩ => ⟨S300x1, .bf16⟩
  | .local _ .vmem, ⟨9, _⟩ => ⟨S1x1, .f32⟩
  | .local _ .vmem, ⟨10, _⟩ => ⟨S8x1, .f32⟩
  | .local _ .vmem, ⟨11, _⟩ => ⟨S1x1, .f32⟩
  | .local _ .vmem, ⟨12, _⟩ => ⟨S1024x1, .f32⟩
  | .local _ .vmem, ⟨13, _⟩ => ⟨S1024x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S1x1, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | _, _ => ⟨S131072x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v189 : BitVec 1 := Scalar.cmpi .eq arg0 c127_i32
  let v190 : BitVec 32 := Scalar.extui v189
  let c0_i32_71 : BitVec 32 := 0#32
  let v191 : BitVec 1 := Scalar.cmpi .ne v190 c0_i32_71
  v191

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x15 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S600x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  bitsLt_bf16_f32 : FTy.bits .bf16 < FTy.bits .f32
  shapeCasts_S300_S1x300 : S300.ShapeCasts S1x300
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x15_S1024x15_0_0 : ∀ a, (![0, 0] : Fin 2 → Nat) a + S1024x15.size a ≤ S1024x15.size a
  h_S1024x15 : 0 < S1024x15.numel
  slices_S1024x15_o0_5_S1024x4 : S1024x15.Slices ![0, 5] S1024x4
  slices_S1024x15_o0_10_S1024x4 : S1024x15.Slices ![0, 10] S1024x4
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  inb_S8x1_S1x1_0_0 : ∀ a, (![0, 0] : Fin 2 → Nat) a + S1x1.size a ≤ S8x1.size a
  inpos_S1x1_p0_0 : ∀ a, (![0, 0] : Fin 2 → Nat) a < S1x1.size a
  inb_S8x1_S1x1_1_0 : ∀ a, (![1, 0] : Fin 2 → Nat) a + S1x1.size a ≤ S8x1.size a
  inb_S8x1_S1x1_2_0 : ∀ a, (![2, 0] : Fin 2 → Nat) a + S1x1.size a ≤ S8x1.size a
  inb_S8x1_S1x1_3_0 : ∀ a, (![3, 0] : Fin 2 → Nat) a + S1x1.size a ≤ S8x1.size a
  inb_S8x1_S1x1_4_0 : ∀ a, (![4, 0] : Fin 2 → Nat) a + S1x1.size a ≤ S8x1.size a
  inb_S8x1_S1x1_5_0 : ∀ a, (![5, 0] : Fin 2 → Nat) a + S1x1.size a ≤ S8x1.size a
  inb_S8x1_S1x1_6_0 : ∀ a, (![6, 0] : Fin 2 → Nat) a + S1x1.size a ≤ S8x1.size a
  inb_S8x1_S1x1_7_0 : ∀ a, (![7, 0] : Fin 2 → Nat) a + S1x1.size a ≤ S8x1.size a
  slices_S1024x15_o0_4_S1024x1 : S1024x15.Slices ![0, 4] S1024x1
  natLt_1_32 : 1 < 32
  inb_S1024x300_S1024x300_0_0 : ∀ a, (![0, 0] : Fin 2 → Nat) a + S1024x300.size a ≤ S1024x300.size a
  h_S1024x300 : 0 < S1024x300.numel
  inb_S600x300_S600x300_0_0 : ∀ a, (![0, 0] : Fin 2 → Nat) a + S600x300.size a ≤ S600x300.size a
  h_S600x300 : 0 < S600x300.numel
  shapeCasts_S600x300_S600x300 : S600x300.ShapeCasts S600x300
  slices_S600x300_o0_0_S300x300 : S600x300.Slices ![0, 0] S300x300
  slices_S600x300_o300_0_S300x300 : S600x300.Slices ![300, 0] S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S1024x300 : S1x300.Broadcasts S1024x300
  inb_S300x1_S300x1_0_0 : ∀ a, (![0, 0] : Fin 2 → Nat) a + S300x1.size a ≤ S300x1.size a
  h_S300x1 : 0 < S300x1.numel
  shapeCasts_S300x1_S300x1 : S300x1.ShapeCasts S300x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  reduces_S1024x1_S1 : S1024x1.Reduces [0] S1
  shapeCasts_S1x1_S_ : S1x1.ShapeCasts S_
  dot_S1024x300_S300x300_S1024x300_1_0_0_1_n_n_wf : DotDims.WF S1024x300 S300x300 S1024x300 [1] [0] [0] [1] [] []
  dot_S1024x300_S300x1_S1024x1_1_0_0_1_n_n_wf : DotDims.WF S1024x300 S300x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x300.size a ≤ S131072x300.size a
  hwx0_0 : ∀ i : grid0.Coords, EltTy.bits .f32 = 32 ∨ (Rect.block (s := S131072x300) S1024x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x300.size a ≤ S131072x300.size a
  hwx0_1 : ∀ i : grid0.Coords, EltTy.bits .f32 = 32 ∨ (Rect.block (s := S131072x300) S1024x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x15.size a ≤ S131072x15.size a
  hwx0_2 : ∀ i : grid0.Coords, EltTy.bits .f32 = 32 ∨ (Rect.block (s := S131072x15) S1024x15.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600x300.size a ≤ S600x300.size a
  hwx0_3 : ∀ i : grid0.Coords, EltTy.bits .bf16 = 32 ∨ (Rect.block (s := S600x300) S600x300.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x1.size a ≤ S300x1.size a
  hwx0_5 : ∀ i : grid0.Coords, EltTy.bits .bf16 = 32 ∨ (Rect.block (s := S300x1) S300x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S131072x1.size a
  hwx0_9 : ∀ i : grid0.Coords, EltTy.bits .f32 = 32 ∨ (Rect.block (s := S131072x1) S1024x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)

variable [Facts₀]

def dot_S1024x300_S300x300_S1024x300_1_0_0_1_n_n : DotDims S1024x300 S300x300 S1024x300 where
  lhsContracting := [1]
  rhsContracting := [0]
  lhsNonContracting := [0]
  rhsNonContracting := [1]
  lhsBatch := []
  rhsBatch := []
  wf := dot_S1024x300_S300x300_S1024x300_1_0_0_1_n_n_wf
def dot_S1024x300_S300x1_S1024x1_1_0_0_1_n_n : DotDims S1024x300 S300x1 S1024x1 where
  lhsContracting := [1]
  rhsContracting := [0]
  lhsNonContracting := [0]
  rhsNonContracting := [1]
  lhsBatch := []
  rhsBatch := []
  wf := dot_S1024x300_S300x1_S1024x1_1_0_0_1_n_n_wf

abbrev win0_0 : Pipeline.Window sig grid0 :=
  Pipeline.Window.ofSpec (Memref.whole main_arg0) S1024x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x15.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S600x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S300x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S1024x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S1x1.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5_2) S1x1.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5_3) S1x1.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5_4) S1x1.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | 13 => fun i => !(k0_cond2 i == 1#1) | ⟨_ + 14, h⟩ => absurd h (Nat.not_lt.2 (Nat.le_add_left _ _))

class Facts : Prop extends Facts₀ where

variable [Facts]
-- ==== ReferenceIdeal.lean ====
abbrev S131072x300 : Shape := ⟨2, ![131072, 300]⟩
abbrev S131072x15 : Shape := ⟨2, ![131072, 15]⟩
abbrev S8x1 : Shape := ⟨2, ![8, 1]⟩
abbrev S1 : Shape := ⟨1, ![1]⟩
abbrev S600x300 : Shape := ⟨2, ![600, 300]⟩
abbrev S300 : Shape := ⟨1, ![300]⟩
abbrev S300x1 : Shape := ⟨2, ![300, 1]⟩
abbrev S131072x4 : Shape := ⟨2, ![131072, 4]⟩
abbrev S131072x1 : Shape := ⟨2, ![131072, 1]⟩
abbrev S131072 : Shape := ⟨1, ![131072]⟩
abbrev S131072x600 : Shape := ⟨2, ![131072, 600]⟩
abbrev S131072x8 : Shape := ⟨2, ![131072, 8]⟩
abbrev S_ : Shape := ⟨0, ![]⟩
abbrev S1x300 : Shape := ⟨2, ![1, 300]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S131072x300, .f32⟩
  | 1 => ⟨S131072x300, .f32⟩
  | 2 => ⟨S131072x15, .f32⟩
  | 3 => ⟨S8x1, .f32⟩
  | 4 => ⟨S1, .f32⟩
  | 5 => ⟨S600x300, .f32⟩
  | 6 => ⟨S300, .f32⟩
  | 7 => ⟨S300x1, .f32⟩
  | 8 => ⟨S1, .f32⟩
  | 9 => ⟨S131072x4, .f32⟩
  | 10 => ⟨S131072x4, .f32⟩
  | 11 => ⟨S131072x1, .f32⟩
  | 12 => ⟨S131072, .f32⟩
  | 13 => ⟨S131072x1, .f32⟩
  | 14 => ⟨S131072, .f32⟩
  | 15 => ⟨S131072, .f32⟩
  | 16 => ⟨S131072x1, .f32⟩
  | 17 => ⟨S131072, .f32⟩
  | 18 => ⟨S131072x1, .f32⟩
  | 19 => ⟨S131072, .f32⟩
  | 20 => ⟨S131072, .f32⟩
  | 21 => ⟨S131072x1, .f32⟩
  | 22 => ⟨S131072, .f32⟩
  | 23 => ⟨S131072x1, .f32⟩
  | 24 => ⟨S131072, .f32⟩
  | 25 => ⟨S131072, .f32⟩
  | 26 => ⟨S131072x1, .f32⟩
  | 27 => ⟨S131072, .f32⟩
  | 28 => ⟨S131072x1, .f32⟩
  | 29 => ⟨S131072, .f32⟩
  | 30 => ⟨S131072, .f32⟩
  | 31 => ⟨S131072x1, .f32⟩
  | 32 => ⟨S131072, .f32⟩
  | 33 => ⟨S131072x1, .f32⟩
  | 34 => ⟨S131072, .f32⟩
  | 35 => ⟨S131072, .f32⟩
  | 36 => ⟨S131072, .f32⟩
  | 37 => ⟨S131072x1, .f32⟩
  | 38 => ⟨S131072, .f32⟩
  | 39 => ⟨S131072x1, .f32⟩
  | 40 => ⟨S131072, .f32⟩
  | 41 => ⟨S131072, .f32⟩
  | 42 => ⟨S131072, .f32⟩
  | 43 => ⟨S131072, .f32⟩
  | 44 => ⟨S131072, .f32⟩
  | 45 => ⟨S131072, .f32⟩
  | 46 => ⟨S131072, .f32⟩
  | 47 => ⟨S131072x1, .f32⟩
  | 48 => ⟨S131072x1, .f32⟩
  | 49 => ⟨S131072x1, .f32⟩
  | 50 => ⟨S131072x1, .f32⟩
  | 51 => ⟨S131072x4, .f32⟩
  | 52 => ⟨S131072x1, .f32⟩
  | 53 => ⟨S131072, .f32⟩
  | 54 => ⟨S131072x1, .f32⟩
  | 55 => ⟨S131072, .f32⟩
  | 56 => ⟨S131072, .f32⟩
  | 57 => ⟨S131072, .f32⟩
  | 58 => ⟨S131072x1, .f32⟩
  | 59 => ⟨S131072, .f32⟩
  | 60 => ⟨S131072x1, .f32⟩
  | 61 => ⟨S131072, .f32⟩
  | 62 => ⟨S131072, .f32⟩
  | 63 => ⟨S131072, .f32⟩
  | 64 => ⟨S131072, .f32⟩
  | 65 => ⟨S131072, .f32⟩
  | 66 => ⟨S131072, .f32⟩
  | 67 => ⟨S131072, .f32⟩
  | 68 => ⟨S131072x1, .f32⟩
  | 69 => ⟨S131072x1, .f32⟩
  | 70 => ⟨S131072x1, .f32⟩
  | 71 => ⟨S131072x1, .f32⟩
  | 72 => ⟨S131072x4, .f32⟩
  | 73 => ⟨S131072x600, .f32⟩
  | 74 => ⟨S131072x8, .f32⟩
  | 75 => ⟨S_, .f32⟩
  | 76 => ⟨S131072x600, .f32⟩
  | 77 => ⟨S131072x600, .f32⟩
  | 78 => ⟨S131072x300, .f32⟩
  | 79 => ⟨S1x300, .f32⟩
  | 80 => ⟨S131072x300, .f32⟩
  | 81 => ⟨S131072x300, .f32⟩
  | 82 => ⟨S_, .f32⟩
  | 83 => ⟨S131072x300, .f32⟩
  | 84 => ⟨S131072x300, .f32⟩
  | 85 => ⟨S131072x1, .f32⟩
  | 86 => ⟨S1x1, .f32⟩
  | 87 => ⟨S131072x1, .f32⟩
  | 88 => ⟨S131072x1, .f32⟩
  | 89 => ⟨S131072x1, .f32⟩
  | 90 => ⟨S1x1, .f32⟩
  | 91 => ⟨S131072x1, .f32⟩
  | 92 => ⟨S131072x1, .f32⟩
  | 93 => ⟨S131072x1, .f32⟩
  | 94 => ⟨S131072x1, .f32⟩
  | 95 => ⟨S131072x1, .f32⟩
  | 96 => ⟨S_, .f32⟩
  | 97 => ⟨S131072x1, .f32⟩
  | 98 => ⟨S131072x1, .f32⟩
  | 99 => ⟨S_, .f32⟩
  | 100 => ⟨S131072x1, .f32⟩
  | 101 => ⟨S131072x1, .f32⟩
  | 102 => ⟨S131072x1, .f32⟩
  | 103 => ⟨S131072, .f32⟩
  | 104 => ⟨S_, .f32⟩
  | 105 => ⟨S131072, .f32⟩
  | 106 => ⟨S131072, .i1⟩
  | 107 => ⟨S131072, .f32⟩
  | 108 => ⟨S131072, .f32⟩
  | 109 => ⟨S_, .f32⟩
  | 110 => ⟨S_, .f32⟩
  | 111 => ⟨S_, .f32⟩
  | 112 => ⟨S131072, .f32⟩
  | 113 => ⟨S131072, .f32⟩
  | 114 => ⟨S_, .f32⟩
  | 115 => ⟨S131072, .f32⟩
  | 116 => ⟨S131072, .f32⟩
  | 117 => ⟨S131072, .f32⟩
  | 118 => ⟨S_, .f32⟩
  | 119 => ⟨S_, .f32⟩
  | 120 => ⟨S131072, .f32⟩
  | 121 => ⟨S131072, .f32⟩
  | 122 => ⟨S_, .f32⟩
  | 123 => ⟨S131072, .f32⟩
  | 124 => ⟨S131072, .f32⟩
  | 125 => ⟨S_, .f32⟩
  | 126 => ⟨S_, .f32⟩
  | 127 => ⟨S_, .f32⟩
  | _ => ⟨S131072x300, .f32⟩

abbrev hbmTy0_1 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S131072, .f32⟩
  | 6 => ⟨S_, .f32⟩
  | 7 => ⟨S_, .f32⟩
  | 8 => ⟨S131072, .f32⟩
  | 9 => ⟨S131072, .f32⟩
  | 10 => ⟨S131072, .f32⟩
  | 11 => ⟨S_, .f32⟩
  | 12 => ⟨S131072, .f32⟩
  | 13 => ⟨S131072, .f32⟩
  | 14 => ⟨S131072, .f32⟩
  | 15 => ⟨S131072, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S131072, .f32⟩
  | 23 => ⟨S131072, .i1⟩
  | 24 => ⟨S131072, .i1⟩
  | 25 => ⟨S131072, .f32⟩
  | 26 => ⟨S_, .f32⟩
  | 27 => ⟨S_, .f32⟩
  | 28 => ⟨S131072, .f32⟩
  | 29 => ⟨S_, .f32⟩
  | 30 => ⟨S_, .f32⟩
  | 31 => ⟨S_, .f32⟩
  | 32 => ⟨S131072, .f32⟩
  | 33 => ⟨S131072, .i1⟩
  | 34 => ⟨S131072, .i1⟩
  | 35 => ⟨S131072, .f32⟩
  | 36 => ⟨S_, .f32⟩
  | 37 => ⟨S_, .f32⟩
  | 38 => ⟨S_, .f32⟩
  | 39 => ⟨S131072, .f32⟩
  | 40 => ⟨S131072, .i1⟩
  | 41 => ⟨S131072, .i1⟩
  | 42 => ⟨S131072, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | _ => ⟨S131072x300, .f32⟩

abbrev hbmTy (i : Nat) : BufTy := match i / 128 with
  | 0 => hbmTy0_0 i
  | 1 => hbmTy0_1 i
  | _ => ⟨S131072x300, .f32⟩

abbrev bufTy : (tb : Table) → Fin (tcTables nBuf tb) → BufTy
  | .hbm, ⟨i, _⟩ => hbmTy i
  | _, _ => ⟨S131072x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_call0_cst : Ref sig .tc := ⟨.hbm, 75, rfl⟩
abbrev main_call0_v0 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_call1_cst : Ref sig .tc := ⟨.hbm, 82, rfl⟩
abbrev main_call1_v0 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst : Ref sig .tc := ⟨.hbm, 96, rfl⟩
abbrev main_v83 : Ref sig .tc := ⟨.hbm, 97, rfl⟩
abbrev main_v84 : Ref sig .tc := ⟨.hbm, 98, rfl⟩
abbrev main_cst_0 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_1 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_2 : Ref sig .tc := ⟨.hbm, 109, rfl⟩
abbrev main_cst_3 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_v93 : Ref sig .tc := ⟨.hbm, 116, rfl⟩
abbrev main_v94 : Ref sig .tc := ⟨.hbm, 117, rfl⟩
abbrev main_cst_4 : Ref sig .tc := ⟨.hbm, 118, rfl⟩
abbrev main_call3_v0 : Ref sig .tc := ⟨.hbm, 119, rfl⟩
abbrev main_call3_v1 : Ref sig .tc := ⟨.hbm, 120, rfl⟩
abbrev main_v95 : Ref sig .tc := ⟨.hbm, 121, rfl⟩
abbrev main_cst_5 : Ref sig .tc := ⟨.hbm, 122, rfl⟩
abbrev main_v96 : Ref sig .tc := ⟨.hbm, 123, rfl⟩
abbrev main_v97 : Ref sig .tc := ⟨.hbm, 124, rfl⟩
abbrev main_cst_6 : Ref sig .tc := ⟨.hbm, 125, rfl⟩
abbrev main_cst_7 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_v98 : Ref sig .tc := ⟨.hbm, 132, rfl⟩
abbrev main_v99 : Ref sig .tc := ⟨.hbm, 133, rfl⟩
abbrev main_cst_8 : Ref sig .tc := ⟨.hbm, 134, rfl⟩
abbrev main_call5_v0 : Ref sig .tc := ⟨.hbm, 135, rfl⟩
abbrev main_call5_v1 : Ref sig .tc := ⟨.hbm, 136, rfl⟩
abbrev main_v100 : Ref sig .tc := ⟨.hbm, 137, rfl⟩
abbrev main_v101 : Ref sig .tc := ⟨.hbm, 138, rfl⟩
abbrev main_cst_9 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_10 : Ref sig .tc := ⟨.hbm, 144, rfl⟩
abbrev main_v106 : Ref sig .tc := ⟨.hbm, 145, rfl⟩
abbrev main_cst_11 : Ref sig .tc := ⟨.hbm, 146, rfl⟩
abbrev main_v107 : Ref sig .tc := ⟨.hbm, 147, rfl⟩
abbrev main_v108 : Ref sig .tc := ⟨.hbm, 148, rfl⟩
abbrev main_cst_12 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_13 : Ref sig .tc := ⟨.hbm, 154, rfl⟩
abbrev main_v113 : Ref sig .tc := ⟨.hbm, 155, rfl⟩
abbrev main_v114 : Ref sig .tc := ⟨.hbm, 156, rfl⟩
abbrev main_cst_14 : Ref sig .tc := ⟨.hbm, 157, rfl⟩
abbrev main_v115 : Ref sig .tc := ⟨.hbm, 158, rfl⟩
abbrev main_cst_15 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_16 : Ref sig .tc := ⟨.hbm, 164, rfl⟩
abbrev main_v120 : Ref sig .tc := ⟨.hbm, 165, rfl⟩
abbrev main_cst_17 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_18 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩

abbrev nD : Nat := 1
abbrev τ : Topo := Topo.v7x

variable {F : FTy → Type} [FloatOps F]

class Facts₀ : Prop where
  slices_S131072x15_S131072x4_0_5 : S131072x15.Slices ![0, 5] S131072x4
  slices_S131072x15_S131072x4_0_10 : S131072x15.Slices ![0, 10] S131072x4
  slices_S131072x4_S131072x1_0_2 : S131072x4.Slices ![0, 2] S131072x1
  shapeCasts_S131072x1_S131072 : S131072x1.ShapeCasts S131072
  slices_S131072x4_S131072x1_0_0 : S131072x4.Slices ![0, 0] S131072x1
  slices_S131072x4_S131072x1_0_3 : S131072x4.Slices ![0, 3] S131072x1
  slices_S131072x4_S131072x1_0_1 : S131072x4.Slices ![0, 1] S131072x1
  bcast_S131072_S131072x1_0 : S131072.BroadcastsInDim S131072x1 (![0] : Fin 1 → Fin S131072x1.rank)
  concatenates_S131072x1_S131072x1_S131072x1_S131072x1_S131072x4_d1 : Shape.Concatenates [S131072x1, S131072x1, S131072x1, S131072x1] S131072x4 1
  concatenates_S131072x300_S131072x300_S131072x600_d1 : Shape.Concatenates [S131072x300, S131072x300] S131072x600 1
  concatenates_S131072x4_S131072x4_S131072x8_d1 : Shape.Concatenates [S131072x4, S131072x4] S131072x8 1
  bcast_S_S131072x600 : S_.BroadcastsInDim S131072x600 (![] : Fin 0 → Fin S131072x600.rank)
  bcast_S300_S1x300_1 : S300.BroadcastsInDim S1x300 (![1] : Fin 1 → Fin S1x300.rank)
  bcast_S1x300_S131072x300_0_1 : S1x300.BroadcastsInDim S131072x300 (![0, 1] : Fin 2 → Fin S131072x300.rank)
  bcast_S_S131072x300 : S_.BroadcastsInDim S131072x300 (![] : Fin 0 → Fin S131072x300.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  slices_S131072x15_S131072x1_0_4 : S131072x15.Slices ![0, 4] S131072x1
  bcast_S_S131072 : S_.BroadcastsInDim S131072 (![] : Fin 0 → Fin S131072.rank)
  reducesTo_S131072_S_d0 : S131072.ReducesTo [0] S_
  h_S_ : 0 < S_.numel
  dot_S131072x600_S600x300_S131072x300_1_0_0_1_n_n_wf : DotDims.WF S131072x600 S600x300 S131072x300 [1] [0] [0] [1] [] []
  dot_S131072x300_S300x1_S131072x1_1_0_0_1_n_n_wf : DotDims.WF S131072x300 S300x1 S131072x1 [1] [0] [0] [1] [] []
  dot_S131072x8_S8x1_S131072x1_1_0_0_1_n_n_wf : DotDims.WF S131072x8 S8x1 S131072x1 [1] [0] [0] [1] [] []

variable [Facts₀]

def dot_S131072x600_S600x300_S131072x300_1_0_0_1_n_n : DotDims S131072x600 S600x300 S131072x300 where
  lhsContracting := [1]
  rhsContracting := [0]
  lhsNonContracting := [0]
  rhsNonContracting := [1]
  lhsBatch := []
  rhsBatch := []
  wf := dot_S131072x600_S600x300_S131072x300_1_0_0_1_n_n_wf
def dot_S131072x300_S300x1_S131072x1_1_0_0_1_n_n : DotDims S131072x300 S300x1 S131072x1 where
  lhsContracting := [1]
  rhsContracting := [0]
  lhsNonContracting := [0]
  rhsNonContracting := [1]
  lhsBatch := []
  rhsBatch := []
  wf := dot_S131072x300_S300x1_S131072x1_1_0_0_1_n_n_wf
def dot_S131072x8_S8x1_S131072x1_1_0_0_1_n_n : DotDims S131072x8 S8x1 S131072x1 where
  lhsContracting := [1]
  rhsContracting := [0]
  lhsNonContracting := [0]
  rhsNonContracting := [1]
  lhsBatch := []
  rhsBatch := []
  wf := dot_S131072x8_S8x1_S131072x1_1_0_0_1_n_n_wf

class Facts : Prop extends Facts₀ where

variable [Facts]
-- ==== Proof.KPoint.lean ====
/-
  What the kernel's body leaves at one grid point, as pure functions of the point's input blocks (and of what the five
  one-word accumulators held before it), at any float instance: the box-score column, the score column, the five
  accumulator updates and the four quotients the last point stores. Each is the composition of the body's printed
  payloads that the body's run finds; naming them here lets the case analysis, the reading at an index and the induction
  over the grid share one vocabulary.
-/
import proofs.«166331_j32547262169374_1_alg».proof.Proof.Gen.KernelIdeal.Skeleton
import Idealize.ShloMosaic.Lib.Pipeline.FrameBody

noncomputable section

namespace Cert.KernelIdeal.KV

open Idealize.ShloMosaic Idealize.SL.Sem Cert.KernelIdeal Cert.KernelIdeal.Gen

variable {F : FTy → Type} [FloatOps F]

/-- Weight `k` of the eight box weights, as the one-word vector the body loads. -/
abbrev wt0 (x7 : Vec F S8x1 .f32) : Vec F S1x1 .f32 := View.ld x7 (Rect.unit (s := S8x1) ![0, 0] S1x1.size inb_S8x1_S1x1_0_0)
abbrev wt1 (x7 : Vec F S8x1 .f32) : Vec F S1x1 .f32 := View.ld x7 (Rect.unit (s := S8x1) ![1, 0] S1x1.size inb_S8x1_S1x1_1_0)
abbrev wt2 (x7 : Vec F S8x1 .f32) : Vec F S1x1 .f32 := View.ld x7 (Rect.unit (s := S8x1) ![2, 0] S1x1.size inb_S8x1_S1x1_2_0)
abbrev wt3 (x7 : Vec F S8x1 .f32) : Vec F S1x1 .f32 := View.ld x7 (Rect.unit (s := S8x1) ![3, 0] S1x1.size inb_S8x1_S1x1_3_0)
abbrev wt4 (x7 : Vec F S8x1 .f32) : Vec F S1x1 .f32 := View.ld x7 (Rect.unit (s := S8x1) ![4, 0] S1x1.size inb_S8x1_S1x1_4_0)
abbrev wt5 (x7 : Vec F S8x1 .f32) : Vec F S1x1 .f32 := View.ld x7 (Rect.unit (s := S8x1) ![5, 0] S1x1.size inb_S8x1_S1x1_5_0)
abbrev wt6 (x7 : Vec F S8x1 .f32) : Vec F S1x1 .f32 := View.ld x7 (Rect.unit (s := S8x1) ![6, 0] S1x1.size inb_S8x1_S1x1_6_0)
abbrev wt7 (x7 : Vec F S8x1 .f32) : Vec F S1x1 .f32 := View.ld x7 (Rect.unit (s := S8x1) ![7, 0] S1x1.size inb_S8x1_S1x1_7_0)

/-- The block's box scores: eight weighted features and the bias, a column of 1024. -/
def boxCol (x2 : Vec F S1024x15 .f32) (x7 : Vec F S8x1 .f32) (x8 : Vec F S1x1 .f32) : FVec F S1024x1 .f32 :=
  k0_pay36 (k0_pay23 x2) (k0_pay24 x2) (k0_pay25 x2) (k0_pay26 x2) (k0_pay27 x2) (k0_pay28 x2) (k0_pay29 x2) (k0_pay30 x2)
    (k0_pay31 (wt0 x7)) (k0_pay32 (wt1 x7)) (k0_pay33 (wt2 x7)) (k0_pay34 (wt3 x7)) (k0_pay35 (wt4 x7))
    (wt5 x7) (wt6 x7) (wt7 x7) x8

section point

variable (x0 x1 : Vec F S1024x300 .f32) (x2 : Vec F S1024x15 .f32) (x3 : Vec F S600x300 .bf16) (x4 : Vec F S1x300 .f32)
  (x5 : Vec F S300x1 .bf16) (x6 : Vec F S1x1 .f32) (x7 : Vec F S8x1 .f32) (x8 : Vec F S1x1 .f32)

/-- The block's scores, a column of 1024: what the point stores into its output block. -/
def scoreCol : FVec F S1024x1 .f32 :=
  k0_pay40 (boxCol x2 x7 x8) (k0_pay38 x0) (k0_pay39 x1) x3 x4 x5 x6

/-- The block's labels. -/
def labCol : FVec F S1024x1 .f32 := k0_pay37 x2

/-- The loss accumulator after the point, from what it held before. -/
def lossAcc (xs0 : Vec F S1x1 .f32) : FVec F S1x1 .f32 :=
  k0_pay47 (labCol x2) (k0_pay41 (boxCol x2 x7 x8) (k0_pay38 x0) (k0_pay39 x1) x3 x4 x5 x6)
    (k0_pay42 (boxCol x2 x7 x8) (k0_pay38 x0) (k0_pay39 x1) x3 x4 x5 x6) xs0

/-- The count of rows of nonzero label after the point. -/
def posAcc (xs1 : Vec F S1x1 .f32) : FVec F S1x1 .f32 := k0_pay48 (labCol x2) xs1

/-- The count of rows of label zero after the point. -/
def negAcc (xs2 : Vec F S1x1 .f32) : FVec F S1x1 .f32 := k0_pay1 xs2 (k0_pay49 (labCol x2))

/-- The count of rows of label zero scored at least one half, after the point. -/
def negHitAcc (xs3 : Vec F S1x1 .f32) : FVec F S1x1 .f32 :=
  k0_pay2 (k0_pay45 (labCol x2) (scoreCol x0 x1 x2 x3 x4 x5 x6 x7 x8)) xs3

/-- The count of rows of nonzero label scored below one half, after the point. -/
def posHitAcc (xs4 : Vec F S1x1 .f32) : FVec F S1x1 .f32 :=
  k0_pay3 (k0_pay46 (labCol x2) (scoreCol x0 x1 x2 x3 x4 x5 x6 x7 x8)) xs4

end point

/-- The zero word the first point resets each accumulator to. -/
abbrev zeroWord : FVec F S1x1 .f32 := broadcast S1x1 (Scalar.ofBits .f32 0x00000000#32)

end Cert.KernelIdeal.KV

end
-- ==== Proof.KPieces.lean ====
/-
  What each case of the body leaves in each buffer, read back as values. The body's run finds, for every output block
  and every accumulator, the list of stores that cover it; here each such list is read back as ONE function of the
  point's input blocks: the score column for the output block, the accumulator's update for each of the five one-word
  accumulators (from the zero word at the first point, where the reset is read back before the update; from what the
  point before left at the others), and at the last point the four quotients of the accumulators just updated.
-/
import proofs.«166331_j32547262169374_1_alg».proof.Proof.KernelIdealFrameData
import proofs.«166331_j32547262169374_1_alg».proof.Proof.KPoint
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.KV
open Cert.KernelIdeal Cert.KernelIdeal.Gen Cert.KernelIdeal.GenP

variable {F : FTy → Type} [FloatOps F]
variable (c : Dev nD) (i : grid0.Coords) (arg1 : Memref sig .tc .vmem S1024x300 .f32) (harg1 : arg1.IsWhole) (arg2 : Memref sig .tc .vmem S1024x300 .f32) (harg2 : arg2.IsWhole) (arg3 : Memref sig .tc .vmem S1024x15 .f32) (harg3 : arg3.IsWhole) (arg4 : Memref sig .tc .vmem S600x300 .bf16) (harg4 : arg4.IsWhole) (arg5 : Memref sig .tc .vmem S1x300 .f32) (harg5 : arg5.IsWhole) (arg6 : Memref sig .tc .vmem S300x1 .bf16) (harg6 : arg6.IsWhole) (arg7 : Memref sig .tc .vmem S1x1 .f32) (harg7 : arg7.IsWhole) (arg8 : Memref sig .tc .vmem S8x1 .f32) (harg8 : arg8.IsWhole) (arg9 : Memref sig .tc .vmem S1x1 .f32) (harg9 : arg9.IsWhole) (arg10 : Memref sig .tc .vmem S1024x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole)
variable (x0 : Vec F S1024x300 .f32) (x1 : Vec F S1024x300 .f32) (x2 : Vec F S1024x15 .f32) (x3 : Vec F S600x300 .bf16) (x4 : Vec F S1x300 .f32) (x5 : Vec F S300x1 .bf16) (x6 : Vec F S1x1 .f32) (x7 : Vec F S8x1 .f32) (x8 : Vec F S1x1 .f32) (xs0 : Vec F S1x1 .f32) (xs1 : Vec F S1x1 .f32) (xs2 : Vec F S1x1 .f32) (xs3 : Vec F S1x1 .f32) (xs4 : Vec F S1x1 .f32)

/-- The two zero offsets of a whole-buffer rectangle, as the constant function. -/
theorem hz : (![0, 0] : Fin 2 → Nat) = fun _ => 0 := funext fun a => by fin_cases a <;> rfl

/-! ## The first point (the accumulators reset, then updated) -/

theorem out_A_9 (hc0 : cond0_0 i) (hc1 : ¬cond0_1 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 = scoreCol x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_A_0 (hc0 : cond0_0 i) (hc1 : ¬cond0_1 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 = lossAcc x0 x1 x2 x3 x4 x5 x6 x7 x8 k0_pay8 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_A_1 (hc0 : cond0_0 i) (hc1 : ¬cond0_1 i) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 = posAcc x2 k0_pay9 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_A_2 (hc0 : cond0_0 i) (hc1 : ¬cond0_1 i) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 = negAcc x2 k0_pay10 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_A_3 (hc0 : cond0_0 i) (hc1 : ¬cond0_1 i) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 = negHitAcc x0 x1 x2 x3 x4 x5 x6 x7 x8 k0_pay11 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_A_4 (hc0 : cond0_0 i) (hc1 : ¬cond0_1 i) : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 = posHitAcc x0 x1 x2 x3 x4 x5 x6 x7 x8 k0_pay12 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

/-! ## The middle points -/

theorem out_B_9 (hc0 : ¬cond0_0 i) (hc1 : ¬cond0_1 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = scoreCol x0 x1 x2 x3 x4 x5 x6 x7 x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_B_0 (hc0 : ¬cond0_0 i) (hc1 : ¬cond0_1 i) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = lossAcc x0 x1 x2 x3 x4 x5 x6 x7 x8 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_B_1 (hc0 : ¬cond0_0 i) (hc1 : ¬cond0_1 i) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = posAcc x2 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_B_2 (hc0 : ¬cond0_0 i) (hc1 : ¬cond0_1 i) : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = negAcc x2 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_B_3 (hc0 : ¬cond0_0 i) (hc1 : ¬cond0_1 i) : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = negHitAcc x0 x1 x2 x3 x4 x5 x6 x7 x8 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_B_4 (hc0 : ¬cond0_0 i) (hc1 : ¬cond0_1 i) : sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = posHitAcc x0 x1 x2 x3 x4 x5 x6 x7 x8 xs4 := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

/-! ## The last point (the accumulators updated, then the four quotients stored) -/

theorem out_C_9 (hc0 : ¬cond0_0 i) (hc1 : cond0_1 i) : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = scoreCol x0 x1 x2 x3 x4 x5 x6 x7 x8 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_C_0 (hc0 : ¬cond0_0 i) (hc1 : cond0_1 i) : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = lossAcc x0 x1 x2 x3 x4 x5 x6 x7 x8 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_C_1 (hc0 : ¬cond0_0 i) (hc1 : cond0_1 i) : sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = posAcc x2 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_C_2 (hc0 : ¬cond0_0 i) (hc1 : cond0_1 i) : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = negAcc x2 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_C_3 (hc0 : ¬cond0_0 i) (hc1 : cond0_1 i) : sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = negHitAcc x0 x1 x2 x3 x4 x5 x6 x7 x8 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem sout_C_4 (hc0 : ¬cond0_0 i) (hc1 : cond0_1 i) : sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = posHitAcc x0 x1 x2 x3 x4 x5 x6 x7 x8 xs4 := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem out_C_10 (hc0 : ¬cond0_0 i) (hc1 : cond0_1 i) : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = k0_pay4 (lossAcc x0 x1 x2 x3 x4 x5 x6 x7 x8 xs0) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem out_C_11 (hc0 : ¬cond0_0 i) (hc1 : cond0_1 i) : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = k0_pay5 (negHitAcc x0 x1 x2 x3 x4 x5 x6 x7 x8 xs3) (posAcc x2 xs1) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem out_C_12 (hc0 : ¬cond0_0 i) (hc1 : cond0_1 i) : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = k0_pay6 (posHitAcc x0 x1 x2 x3 x4 x5 x6 x7 x8 xs4) (negAcc x2 xs2) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

theorem out_C_13 (hc0 : ¬cond0_0 i) (hc1 : cond0_1 i) : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4 = k0_pay7 (negHitAcc x0 x1 x2 x3 x4 x5 x6 x7 x8 xs3) (posHitAcc x0 x1 x2 x3 x4 x5 x6 x7 x8 xs4) (posAcc x2 xs1) (negAcc x2 xs2) := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg15.read_unread, harg16.read_unread, harg17.read_unread, harg18.read_unread, harg19.read_unread, View.ld_unit_zero (S := S1024x300) hz, View.ld_unit_zero (S := S1024x15) hz, View.ld_unit_zero (S := S600x300) hz, View.ld_unit_zero (S := S1x300) hz, View.ld_unit_zero (S := S300x1) hz, View.ld_unit_zero (S := S1x1) hz, View.readCov_unit_zero (S := S1x1) _ hz]
  rfl

end Cert.KernelIdeal.KV

end
-- ==== Proof.KChain.lean ====
/-
  The grid as a recursion. At every point the output block is the score column of the point's input blocks, and the
  five one-word accumulators are each the update, by the point's blocks, of what the point before left (of the zero word
  at the first point); at the last point the four one-word results are the quotients of the accumulators just updated.
  So what the run's proof data records point by point is a plain recursion over the points, stated here at any float
  instance and proved by induction on the point, never by enumerating the grid.
-/
import proofs.«166331_j32547262169374_1_alg».proof.Proof.KPieces

set_option maxRecDepth 16384

noncomputable section
open Idealize.ShloMosaic Idealize.ShloMosaic.TcCoe Idealize.SL.Sem
open Idealize.ShloMosaic.Pipeline (Dat)

namespace Cert.KernelIdeal.KV
open Cert.KernelIdeal Cert.KernelIdeal.Gen Cert.KernelIdeal.GenP

variable {F : FTy → Type} [FloatOps F]
variable (m : (ℓ : Loc nD τ sig) → Buf (Elt F) ℓ)

/-! ## The point's input blocks, at their literal types -/

abbrev b0 (c : Dev nD) (t : Fin cfg0.N) : Vec F S1024x300 .f32 := iblk m c 0 t
abbrev b1 (c : Dev nD) (t : Fin cfg0.N) : Vec F S1024x300 .f32 := iblk m c 1 t
abbrev b2 (c : Dev nD) (t : Fin cfg0.N) : Vec F S1024x15 .f32 := iblk m c 2 t
abbrev b3 (c : Dev nD) (t : Fin cfg0.N) : Vec F S600x300 .bf16 := iblk m c 3 t
abbrev b4 (c : Dev nD) (t : Fin cfg0.N) : Vec F S1x300 .f32 := iblk m c 4 t
abbrev b5 (c : Dev nD) (t : Fin cfg0.N) : Vec F S300x1 .bf16 := iblk m c 5 t
abbrev b6 (c : Dev nD) (t : Fin cfg0.N) : Vec F S1x1 .f32 := iblk m c 6 t
abbrev b7 (c : Dev nD) (t : Fin cfg0.N) : Vec F S8x1 .f32 := iblk m c 7 t
abbrev b8 (c : Dev nD) (t : Fin cfg0.N) : Vec F S1x1 .f32 := iblk m c 8 t

/-! ## One point, by its case -/

/-- The first point: the accumulators are the updates of the zero word. -/
theorem tail_A (c : Dev nD) (t : Fin cfg0.N) (h0 : t.val % 128 = 0) (h1 : ¬t.val % 128 = 127) :
    (outsAt0 m c t.val t.isLt).2.2.2.2.2 = (lossAcc (b0 m c t) (b1 m c t) (b2 m c t) (b3 m c t) (b4 m c t) (b5 m c t) (b6 m c t) (b7 m c t) (b8 m c t) k0_pay8, posAcc (b2 m c t) k0_pay9, negAcc (b2 m c t) k0_pay10, negHitAcc (b0 m c t) (b1 m c t) (b2 m c t) (b3 m c t) (b4 m c t) (b5 m c t) (b6 m c t) (b7 m c t) (b8 m c t) k0_pay11, posHitAcc (b0 m c t) (b1 m c t) (b2 m c t) (b3 m c t) (b4 m c t) (b5 m c t) (b6 m c t) (b7 m c t) (b8 m c t) k0_pay12) := by
  rw [outsAt0_A m c t h0 h1]
  dsimp only
  rw [sout_A_0, sout_A_1, sout_A_2, sout_A_3, sout_A_4]

/-- A middle point: the accumulators are the updates of what the point before left. -/
theorem tail_B (c : Dev nD) (t : Fin cfg0.N) (h0 : ¬t.val % 128 = 0) (h1 : ¬t.val % 128 = 127) :
    (outsAt0 m c t.val t.isLt).2.2.2.2.2 = (lossAcc (b0 m c t) (b1 m c t) (b2 m c t) (b3 m c t) (b4 m c t) (b5 m c t) (b6 m c t) (b7 m c t) (b8 m c t) (outsAt0 m c (t.val - 1) (Nat.lt_of_le_of_lt (Nat.sub_le _ _) t.isLt)).2.2.2.2.2.1, posAcc (b2 m c t) (outsAt0 m c (t.val - 1) (Nat.lt_of_le_of_lt (Nat.sub_le _ _) t.isLt)).2.2.2.2.2.2.1, negAcc (b2 m c t) (outsAt0 m c (t.val - 1) (Nat.lt_of_le_of_lt (Nat.sub_le _ _) t.isLt)).2.2.2.2.2.2.2.1, negHitAcc (b0 m c t) (b1 m c t) (b2 m c t) (b3 m c t) (b4 m c t) (b5 m c t) (b6 m c t) (b7 m c t) (b8 m c t) (outsAt0 m c (t.val - 1) (Nat.lt_of_le_of_lt (Nat.sub_le _ _) t.isLt)).2.2.2.2.2.2.2.2.1, posHitAcc (b0 m c t) (b1 m c t) (b2 m c t) (b3 m c t) (b4 m c t) (b5 m c t) (b6 m c t) (b7 m c t) (b8 m c t) (outsAt0 m c (t.val - 1) (Nat.lt_of_le_of_lt (Nat.sub_le _ _) t.isLt)).2.2.2.2.2.2.2.2.2) := by
  rw [outsAt0_B m c t h0 h1]
  dsimp only
  rw [sout_B_0, sout_B_1, sout_B_2, sout_B_3, sout_B_4]

/-- The last point: the same updates. -/
theorem tail_C (c : Dev nD) (t : Fin cfg0.N) (h0 : ¬t.val % 128 = 0) (h1 : t.val % 128 = 127) :
    (outsAt0 m c t.val t.isLt).2.2.2.2.2 = (lossAcc (b0 m c t) (b1 m c t) (b2 m c t) (b3 m c t) (b4 m c t) (b5 m c t) (b6 m c t) (b7 m c t) (b8 m c t) (outsAt0 m c (t.val - 1) (Nat.lt_of_le_of_lt (Nat.sub_le _ _) t.isLt)).2.2.2.2.2.1, posAcc (b2 m c t) (outsAt0 m c (t.val - 1) (Nat.lt_of_le_of_lt (Nat.sub_le _ _) t.isLt)).2.2.2.2.2.2.1, negAcc (b2 m c t) (outsAt0 m c (t.val - 1) (Nat.lt_of_le_of_lt (Nat.sub_le _ _) t.isLt)).2.2.2.2.2.2.2.1, negHitAcc (b0 m c t) (b1 m c t) (b2 m c t) (b3 m c t) (b4 m c t) (b5 m c t) (b6 m c t) (b7 m c t) (b8 m c t) (outsAt0 m c (t.val - 1) (Nat.lt_of_le_of_lt (Nat.sub_le _ _) t.isLt)).2.2.2.2.2.2.2.2.1, posHitAcc (b0 m c t) (b1 m c t) (b2 m c t) (b3 m c t) (b4 m c t) (b5 m c t) (b6 m c t) (b7 m c t) (b8 m c t) (outsAt0 m c (t.val - 1) (Nat.lt_of_le_of_lt (Nat.sub_le _ _) t.isLt)).2.2.2.2.2.2.2.2.2) := by
  rw [outsAt0_C m c t h0 h1]
  dsimp only
  rw [sout_C_0, sout_C_1, sout_C_2, sout_C_3, sout_C_4]

/-- At every point the output block is the score column of the point's input blocks. -/
theorem head9 (c : Dev nD) (t : Fin cfg0.N) :
    (outsAt0 m c t.val t.isLt).1 = scoreCol (b0 m c t) (b1 m c t) (b2 m c t) (b3 m c t) (b4 m c t) (b5 m c t) (b6 m c t) (b7 m c t) (b8 m c t) := by
  have hN : t.val < 128 := lt_of_lt_of_eq t.isLt (show cfg0.N = 128 from N_0)
  by_cases h0 : t.val % 128 = 0
  · have h1 : ¬t.val % 128 = 127 := by omega
    rw [outsAt0_A m c t h0 h1]; dsimp only; rw [out_A_9]
  · by_cases h1 : t.val % 128 = 127
    · rw [outsAt0_C m c t h0 h1]; dsimp only; rw [out_C_9]
    · rw [outsAt0_B m c t h0 h1]; dsimp only; rw [out_B_9]

/-- At the last point the four one-word results are the quotients of the accumulators as that point leaves them. -/
theorem finals (c : Dev nD) (t : Fin cfg0.N) (h0 : ¬t.val % 128 = 0) (h1 : t.val % 128 = 127) :
    (outsAt0 m c t.val t.isLt).2.1 = k0_pay4 (outsAt0 m c t.val t.isLt).2.2.2.2.2.1
    ∧ (outsAt0 m c t.val t.isLt).2.2.1 = k0_pay5 (outsAt0 m c t.val t.isLt).2.2.2.2.2.2.2.2.1 (outsAt0 m c t.val t.isLt).2.2.2.2.2.2.1
    ∧ (outsAt0 m c t.val t.isLt).2.2.2.1 = k0_pay6 (outsAt0 m c t.val t.isLt).2.2.2.2.2.2.2.2.2 (outsAt0 m c t.val t.isLt).2.2.2.2.2.2.2.1
    ∧ (outsAt0 m c t.val t.isLt).2.2.2.2.1 = k0_pay7 (outsAt0 m c t.val t.isLt).2.2.2.2.2.2.2.2.1 (outsAt0 m c t.val t.isLt).2.2.2.2.2.2.2.2.2
        (outsAt0 m c t.val t.isLt).2.2.2.2.2.2.1 (outsAt0 m c t.val t.isLt).2.2.2.2.2.2.2.1 := by
  rw [outsAt0_C m c t h0 h1]
  dsimp only
  rw [out_C_10, out_C_11, out_C_12, out_C_13, sout_C_0, sout_C_1, sout_C_2, sout_C_3, sout_C_4]
  exact ⟨rfl, rfl, rfl, rfl⟩

/-! ## The recursion over the points -/

/-- The five accumulators after point `n`: from the zero word at the first point, each point's update of the one before. -/
def accs (c : Dev nD) : (n : ℕ) → n < cfg0.N →
    Vec F S1x1 .f32 × Vec F S1x1 .f32 × Vec F S1x1 .f32 × Vec F S1x1 .f32 × Vec F S1x1 .f32
  | 0, h => let t : Fin cfg0.N := ⟨0, h⟩
    (lossAcc (b0 m c t) (b1 m c t) (b2 m c t) (b3 m c t) (b4 m c t) (b5 m c t) (b6 m c t) (b7 m c t) (b8 m c t) k0_pay8, posAcc (b2 m c t) k0_pay9, negAcc (b2 m c t) k0_pay10, negHitAcc (b0 m c t) (b1 m c t) (b2 m c t) (b3 m c t) (b4 m c t) (b5 m c t) (b6 m c t) (b7 m c t) (b8 m c t) k0_pay11, posHitAcc (b0 m c t) (b1 m c t) (b2 m c t) (b3 m c t) (b4 m c t) (b5 m c t) (b6 m c t) (b7 m c t) (b8 m c t) k0_pay12)
  | n + 1, h => let t : Fin cfg0.N := ⟨n + 1, h⟩
    let p := accs c n (Nat.lt_of_succ_lt h)
    (lossAcc (b0 m c t) (b1 m c t) (b2 m c t) (b3 m c t) (b4 m c t) (b5 m c t) (b6 m c t) (b7 m c t) (b8 m c t) p.1, posAcc (b2 m c t) p.2.1, negAcc (b2 m c t) p.2.2.1, negHitAcc (b0 m c t) (b1 m c t) (b2 m c t) (b3 m c t) (b4 m c t) (b5 m c t) (b6 m c t) (b7 m c t) (b8 m c t) p.2.2.2.1, posHitAcc (b0 m c t) (b1 m c t) (b2 m c t) (b3 m c t) (b4 m c t) (b5 m c t) (b6 m c t) (b7 m c t) (b8 m c t) p.2.2.2.2)

/-- What the run records of the accumulators after each point is that recursion. -/
theorem tail_eq (c : Dev nD) : ∀ (n : ℕ) (h : n < cfg0.N), (outsAt0 m c n h).2.2.2.2.2 = accs m c n h
  | 0, h => tail_A m c ⟨0, h⟩ rfl (by dsimp only; omega)
  | n + 1, h => by
    have hN : n + 1 < 128 := lt_of_lt_of_eq h (show cfg0.N = 128 from N_0)
    have h0 : ¬(⟨n + 1, h⟩ : Fin cfg0.N).val % 128 = 0 := by dsimp only; omega
    have ih := tail_eq c n (Nat.lt_of_succ_lt h)
    have key : (outsAt0 m c (n + 1) h).2.2.2.2.2
        = (let t : Fin cfg0.N := ⟨n + 1, h⟩
           let p := (outsAt0 m c n (Nat.lt_of_succ_lt h)).2.2.2.2.2
           (lossAcc (b0 m c t) (b1 m c t) (b2 m c t) (b3 m c t) (b4 m c t) (b5 m c t) (b6 m c t) (b7 m c t) (b8 m c t) p.1, posAcc (b2 m c t) p.2.1, negAcc (b2 m c t) p.2.2.1, negHitAcc (b0 m c t) (b1 m c t) (b2 m c t) (b3 m c t) (b4 m c t) (b5 m c t) (b6 m c t) (b7 m c t) (b8 m c t) p.2.2.2.1, posHitAcc (b0 m c t) (b1 m c t) (b2 m c t) (b3 m c t) (b4 m c t) (b5 m c t) (b6 m c t) (b7 m c t) (b8 m c t) p.2.2.2.2)) := by
      by_cases h1 : (⟨n + 1, h⟩ : Fin cfg0.N).val % 128 = 127
      · exact tail_C m c ⟨n + 1, h⟩ h0 h1
      · exact tail_B m c ⟨n + 1, h⟩ h0 h1
    rw [key, ih]
    rfl

end Cert.KernelIdeal.KV

end
-- ==== Proof.KBlocks.lean ====
/-
  Where the kernel's input blocks sit in the program's arrays. Window 0, 1 and 2 (the two language arrays and the
  box array) move down the rows with the grid: block `t` is rows `1024 t … 1024 t + 1023`. The six weight windows never
  move: their one block is the whole array. The arrays the weight windows stage are the arguments themselves or the
  host's re-layings of them before the call (a change of float format, which is the identity over the extended reals;
  a vector recast to one row; a one-element vector recast to a one-by-one matrix).
-/
import proofs.«166331_j32547262169374_1_alg».proof.Proof.KChain
import Idealize.ShloMosaic.Lib.ValueIdx
import Idealize.ShloMosaic.Lib.ValueLayout
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen Cert.KernelIdeal.GenP

variable {F : FTy → Type} [FloatOps F]
variable (m : (ℓ : Loc nD τ sig) → Buf (Elt F) ℓ)

/-- The windows' block indices, decided once over the grid: the three row windows and the score window are at block
    `(t, 0)` at point `t`, the six weight windows at block `(0, 0)`. -/
theorem idx_facts : ∀ t : Fin cfg0.N,
    win0_0.index t 0 = t.val ∧ win0_0.index t 1 = 0 ∧ win0_1.index t 0 = t.val ∧ win0_1.index t 1 = 0 ∧ win0_2.index t 0 = t.val ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_8.index t 0 = 0 ∧ win0_8.index t 1 = 0 ∧ win0_9.index t 0 = t.val ∧ win0_9.index t 1 = 0 :=
  (by decide +kernel : ∀ t : Fin grid0.N, _)

/-- Block `t` of window 0: rows `1024 t … 1024 t + 1023` of its array. -/
theorem blk0_apply (c : Dev nD) (t : Fin cfg0.N) (p : Fin 1024) (k : Fin 300) (r : Fin 131072) (hr : r.val = 1024 * t.val + p.val) :
    b0 m c t (ix2 p k) = V m c main_arg0 (ix2 r k) := by
  unfold b0 iblk
  rw [View.read_apply]
  show V m c main_arg0 _ = V m c main_arg0 _
  congr 1
  funext a
  apply Fin.ext
  match a with
  | ⟨0, _⟩ => show win0_0.index t 0 * 1024 + 1 * p.val = r.val; rw [(idx_facts t).1, hr]; omega
  | ⟨1, _⟩ => show win0_0.index t 1 * 300 + 1 * k.val = k.val; rw [(idx_facts t).2.1]; omega

/-- Block `t` of window 1: rows `1024 t … 1024 t + 1023` of its array. -/
theorem blk1_apply (c : Dev nD) (t : Fin cfg0.N) (p : Fin 1024) (k : Fin 300) (r : Fin 131072) (hr : r.val = 1024 * t.val + p.val) :
    b1 m c t (ix2 p k) = V m c main_arg1 (ix2 r k) := by
  unfold b1 iblk
  rw [View.read_apply]
  show V m c main_arg1 _ = V m c main_arg1 _
  congr 1
  funext a
  apply Fin.ext
  match a with
  | ⟨0, _⟩ => show win0_1.index t 0 * 1024 + 1 * p.val = r.val; rw [(idx_facts t).2.2.1, hr]; omega
  | ⟨1, _⟩ => show win0_1.index t 1 * 300 + 1 * k.val = k.val; rw [(idx_facts t).2.2.2.1]; omega

/-- Block `t` of window 2: rows `1024 t … 1024 t + 1023` of its array. -/
theorem blk2_apply (c : Dev nD) (t : Fin cfg0.N) (p : Fin 1024) (k : Fin 15) (r : Fin 131072) (hr : r.val = 1024 * t.val + p.val) :
    b2 m c t (ix2 p k) = V m c main_arg2 (ix2 r k) := by
  unfold b2 iblk
  rw [View.read_apply]
  show V m c main_arg2 _ = V m c main_arg2 _
  congr 1
  funext a
  apply Fin.ext
  match a with
  | ⟨0, _⟩ => show win0_2.index t 0 * 1024 + 1 * p.val = r.val; rw [(idx_facts t).2.2.2.2.1, hr]; omega
  | ⟨1, _⟩ => show win0_2.index t 1 * 15 + 1 * k.val = k.val; rw [(idx_facts t).2.2.2.2.2.1]; omega

/-- Window 3's one block is its whole array, at every point. -/
theorem blk3_apply (c : Dev nD) (t : Fin cfg0.N) (p : Fin 600) (k : Fin 300) :
    b3 m c t (ix2 p k) = V m c main_v0 (ix2 p k) := by
  unfold b3 iblk
  rw [View.read_apply]
  show V m c main_v0 _ = V m c main_v0 _
  congr 1
  funext a
  apply Fin.ext
  match a with
  | ⟨0, _⟩ => show win0_3.index t 0 * 600 + 1 * p.val = p.val; rw [(idx_facts t).2.2.2.2.2.2.1]; omega
  | ⟨1, _⟩ => show win0_3.index t 1 * 300 + 1 * k.val = k.val; rw [(idx_facts t).2.2.2.2.2.2.2.1]; omega

/-- Window 4's one block is its whole array, at every point. -/
theorem blk4_apply (c : Dev nD) (t : Fin cfg0.N) (p : Fin 1) (k : Fin 300) :
    b4 m c t (ix2 p k) = V m c main_v2 (ix2 p k) := by
  unfold b4 iblk
  rw [View.read_apply]
  show V m c main_v2 _ = V m c main_v2 _
  congr 1
  funext a
  apply Fin.ext
  match a with
  | ⟨0, _⟩ => show win0_4.index t 0 * 1 + 1 * p.val = p.val; rw [(idx_facts t).2.2.2.2.2.2.2.2.1]; omega
  | ⟨1, _⟩ => show win0_4.index t 1 * 300 + 1 * k.val = k.val; rw [(idx_facts t).2.2.2.2.2.2.2.2.2.1]; omega

/-- Window 5's one block is its whole array, at every point. -/
theorem blk5_apply (c : Dev nD) (t : Fin cfg0.N) (p : Fin 300) (k : Fin 1) :
    b5 m c t (ix2 p k) = V m c main_v1 (ix2 p k) := by
  unfold b5 iblk
  rw [View.read_apply]
  show V m c main_v1 _ = V m c main_v1 _
  congr 1
  funext a
  apply Fin.ext
  match a with
  | ⟨0, _⟩ => show win0_5.index t 0 * 300 + 1 * p.val = p.val; rw [(idx_facts t).2.2.2.2.2.2.2.2.2.2.1]; omega
  | ⟨1, _⟩ => show win0_5.index t 1 * 1 + 1 * k.val = k.val; rw [(idx_facts t).2.2.2.2.2.2.2.2.2.2.2.1]; omega

/-- Window 6's one block is its whole array, at every point. -/
theorem blk6_apply (c : Dev nD) (t : Fin cfg0.N) (p : Fin 1) (k : Fin 1) :
    b6 m c t (ix2 p k) = V m c main_v3 (ix2 p k) := by
  unfold b6 iblk
  rw [View.read_apply]
  show V m c main_v3 _ = V m c main_v3 _
  congr 1
  funext a
  apply Fin.ext
  match a with
  | ⟨0, _⟩ => show win0_6.index t 0 * 1 + 1 * p.val = p.val; rw [(idx_facts t).2.2.2.2.2.2.2.2.2.2.2.2.1]; omega
  | ⟨1, _⟩ => show win0_6.index t 1 * 1 + 1 * k.val = k.val; rw [(idx_facts t).2.2.2.2.2.2.2.2.2.2.2.2.2.1]; omega

/-- Window 7's one block is its whole array, at every point. -/
theorem blk7_apply (c : Dev nD) (t : Fin cfg0.N) (p : Fin 8) (k : Fin 1) :
    b7 m c t (ix2 p k) = V m c main_arg3 (ix2 p k) := by
  unfold b7 iblk
  rw [View.read_apply]
  show V m c main_arg3 _ = V m c main_arg3 _
  congr 1
  funext a
  apply Fin.ext
  match a with
  | ⟨0, _⟩ => show win0_7.index t 0 * 8 + 1 * p.val = p.val; rw [(idx_facts t).2.2.2.2.2.2.2.2.2.2.2.2.2.2.1]; omega
  | ⟨1, _⟩ => show win0_7.index t 1 * 1 + 1 * k.val = k.val; rw [(idx_facts t).2.2.2.2.2.2.2.2.2.2.2.2.2.2.2.1]; omega

/-- Window 8's one block is its whole array, at every point. -/
theorem blk8_apply (c : Dev nD) (t : Fin cfg0.N) (p : Fin 1) (k : Fin 1) :
    b8 m c t (ix2 p k) = V m c main_v4 (ix2 p k) := by
  unfold b8 iblk
  rw [View.read_apply]
  show V m c main_v4 _ = V m c main_v4 _
  congr 1
  funext a
  apply Fin.ext
  match a with
  | ⟨0, _⟩ => show win0_8.index t 0 * 1 + 1 * p.val = p.val; rw [(idx_facts t).2.2.2.2.2.2.2.2.2.2.2.2.2.2.2.2.1]; omega
  | ⟨1, _⟩ => show win0_8.index t 1 * 1 + 1 * k.val = k.val; rw [(idx_facts t).2.2.2.2.2.2.2.2.2.2.2.2.2.2.2.2.2.1]; omega

end Cert.KernelIdeal.KV

end
-- ==== Proof.KArrays.lean ====
/-
  What the arrays the kernel's windows stage hold when the region starts, in terms of the program's arguments: the three
  row arrays and the box weights are arguments; the two product weights are arguments changed to a narrower float format
  by the host; the two biases and the box bias are arguments recast by the host (a vector to one row, a one-element vector
  to a one-by-one matrix).
-/
import proofs.«166331_j32547262169374_1_alg».proof.Proof.KBlocks

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen Cert.KernelIdeal.GenP

variable {F : FTy → Type} [FloatOps F]
variable (m : (ℓ : Loc nD τ sig) → Buf (Elt F) ℓ)

theorem V_v0 (c : Dev nD) : V m c main_v0 = truncf .bf16 (m ((c : Thread nD τ).loc main_arg5)) bitsLt_bf16_f32 := by
  show StableHlo.after hostOps0 (fun b => m (c, b)) (Proc.devRef .tc main_v0) = _
  after_results

theorem V_v1 (c : Dev nD) : V m c main_v1 = truncf .bf16 (m ((c : Thread nD τ).loc main_arg7)) bitsLt_bf16_f32 := by
  show StableHlo.after hostOps0 (fun b => m (c, b)) (Proc.devRef .tc main_v1) = _
  after_results

theorem V_v2 (c : Dev nD) : V m c main_v2 = shapeCast S1x300 (m ((c : Thread nD τ).loc main_arg6)) shapeCasts_S300_S1x300 := by
  show StableHlo.after hostOps0 (fun b => m (c, b)) (Proc.devRef .tc main_v2) = _
  after_results
  rfl

theorem V_v3 (c : Dev nD) : V m c main_v3 = shapeCast S1x1 (m ((c : Thread nD τ).loc main_arg8)) shapeCasts_S1_S1x1 := by
  show StableHlo.after hostOps0 (fun b => m (c, b)) (Proc.devRef .tc main_v3) = _
  after_results
  rfl

theorem V_v4 (c : Dev nD) : V m c main_v4 = shapeCast S1x1 (m ((c : Thread nD τ).loc main_arg4)) shapeCasts_S1_S1x1 := by
  show StableHlo.after hostOps0 (fun b => m (c, b)) (Proc.devRef .tc main_v4) = _
  after_results
  rfl

end Cert.KernelIdeal.KV

end
-- ==== Proof.Consts.lean ====
/-
  The float literals both programs spell, as the extended reals their bit patterns denote.
  Only three facts about them are ever used: the zero word is 0, the row count 131072.0 is the
  real number 131072 (so dividing by it is multiplying by a real), and the clamp floor -100.0 is
  a real number (so a maximum against it is never -∞).
-/
import Idealize.ShloMosaic.PureOps.Ideal

noncomputable section

namespace Cert.Rela.Consts

open Idealize.ShloMosaic

/-- The word of +0.0 denotes 0. -/
theorem zero_eq : Ideal.ofBits .f32 0x00000000#32 = 0 := by
  simp [Ideal.ofBits, Ideal.ieee]

/-- The word of 131072.0 (2^17) denotes the real 131072. -/
theorem rows_eq : Ideal.ofBits .f32 0x48000000#32 = ((131072 : ℝ) : EReal) := by
  simp [Ideal.ofBits, Ideal.ieee, -EReal.coe_mul]; norm_num

/-- The word of -100.0 denotes the real -100. -/
theorem floor_eq : Ideal.ofBits .f32 0xC2C80000#32 = ((-100 : ℝ) : EReal) := by
  simp [Ideal.ofBits, Ideal.ieee, -EReal.coe_mul]; norm_num

/-- The clamp floor is not -∞. -/
theorem floor_ne_bot : Ideal.ofBits .f32 0xC2C80000#32 ≠ ⊥ := by
  rw [floor_eq]; exact EReal.coe_ne_bot _

end Cert.Rela.Consts

end
-- ==== Proof.Spec.lean ====
/-
  What both programs compute, row by row, over the extended reals.

  A row carries two vectors of 300 numbers (the subject's and the object's language vectors) and fifteen box numbers.
  Its score is the logistic of   (sum_j relu(sum_k relu(x0 k) w1[k,j] + sum_k relu(x1 k) w1[300+k,j] + b1 j) w2 j + b2)
  plus eight box features (four quotients and four logarithms of quotients of side lengths) weighted by eight numbers,
  plus a bias.  Its label is 1 when box number 4 is positive, else 0.  The loss is the mean over the rows of
  -(label * L(s) + (1 - label) * L(1 - s)) with L(u) = max(log(min(1, max(tiny, u))), -100), and four counts over the rows
  (rows of label zero; the others; rows of label zero with score at least one half; rows of nonzero label with score below
  one half) give three quotients.

  The whole-array functions at the end are what each program's five results are shown to hold; the last section has the
  two facts about sums that join the kernel's order of operations to the reference's.
-/
import Idealize.ShloMosaic.PureOps.Ideal
import Idealize.ShloMosaic.Lib.ValueIdx
import Mathlib.Algebra.BigOperators.Fin
import proofs.«166331_j32547262169374_1_alg».proof.Proof.Consts

noncomputable section

namespace Cert.Rela

open Idealize.ShloMosaic Idealize.ShloMosaic.ValueIdx

/-! ## The literals, by their words (each side spells the same words) -/

abbrev z0 : EReal := Ideal.ofBits .f32 0x00000000#32
abbrev one : EReal := Ideal.ofBits .f32 0x3F800000#32
abbrev tiny : EReal := Ideal.ofBits .f32 0x2B8CBCCC#32
abbrev floor : EReal := Ideal.ofBits .f32 0xC2C80000#32
abbrev half : EReal := Ideal.ofBits .f32 0x3F000000#32
abbrev rows : EReal := Ideal.ofBits .f32 0x48000000#32

/-! ## One row -/

/-- The eight box features of a row's fifteen numbers: numbers 5..8 are the subject's box (x1, y1, x2, y2), numbers
    10..13 the object's. -/
def feat (b : Fin 15 → EReal) : Fin 8 → EReal :=
  ![Ideal.div (b 5 - b 10) (b 7 - b 5),
    Ideal.div (b 6 - b 11) (b 8 - b 6),
    Ideal.log (Ideal.div (b 7 - b 5) (b 12 - b 10)),
    Ideal.log (Ideal.div (b 8 - b 6) (b 13 - b 11)),
    Ideal.div (b 10 - b 5) (b 12 - b 10),
    Ideal.div (b 11 - b 6) (b 13 - b 11),
    Ideal.log (Ideal.div (b 12 - b 10) (b 7 - b 5)),
    Ideal.log (Ideal.div (b 13 - b 11) (b 8 - b 6))]

/-- The box score: the weighted features added first to last, then the bias. -/
def box (b : Fin 15 → EReal) (w : Fin 8 → EReal) (w0 : EReal) : EReal :=
  feat b 0 * w 0 + feat b 1 * w 1 + feat b 2 * w 2 + feat b 3 * w 3 + feat b 4 * w 4 + feat b 5 * w 5
    + feat b 6 * w 6 + feat b 7 * w 7 + w0

theorem box_eq_sum (b : Fin 15 → EReal) (w : Fin 8 → EReal) (w0 : EReal) :
    box b w w0 = (∑ k : Fin 8, feat b k * w k) + w0 := by
  rw [Fin.sum_univ_eight]; rfl

/-- The rectifier, against the zero word. -/
def relu (x : EReal) : EReal := max x z0

/-- Hidden unit `j`: the 600-term product split in its two halves of 300. -/
def hidden (x0 x1 : Fin 300 → EReal) (w1 : Fin 600 → Fin 300 → EReal) (b1 : Fin 300 → EReal) (j : Fin 300) : EReal :=
  relu ((∑ k : Fin 300, relu (x0 k) * w1 (Fin.castAdd 300 k) j + ∑ k : Fin 300, relu (x1 k) * w1 (Fin.natAdd 300 k) j) + b1 j)

/-- The same with the 600 terms in one sum over the joined vector. -/
theorem hidden_eq_joined (x0 x1 : Fin 300 → EReal) (w1 : Fin 600 → Fin 300 → EReal) (b1 : Fin 300 → EReal) (j : Fin 300)
    (x : Fin 600 → EReal) (hl : ∀ k : Fin 300, x (Fin.castAdd 300 k) = x0 k) (hr : ∀ k : Fin 300, x (Fin.natAdd 300 k) = x1 k) :
    hidden x0 x1 w1 b1 j = relu ((∑ k : Fin 600, relu (x k) * w1 k j) + b1 j) := by
  unfold hidden
  rw [show (∑ k : Fin 600, relu (x k) * w1 k j) = ∑ k : Fin (300 + 300), relu (x k) * w1 k j from rfl, Fin.sum_univ_add]
  simp only [hl, hr]

/-- The language score. -/
def lan (x0 x1 : Fin 300 → EReal) (w1 : Fin 600 → Fin 300 → EReal) (b1 : Fin 300 → EReal) (w2 : Fin 300 → EReal) (b2 : EReal) : EReal :=
  (∑ j : Fin 300, hidden x0 x1 w1 b1 j * w2 j) + b2

/-- The row's score. -/
def score (x0 x1 : Fin 300 → EReal) (b : Fin 15 → EReal) (w : Fin 8 → EReal) (w0 : EReal)
    (w1 : Fin 600 → Fin 300 → EReal) (b1 : Fin 300 → EReal) (w2 : Fin 300 → EReal) (b2 : EReal) : EReal :=
  Ideal.logistic (lan x0 x1 w1 b1 w2 b2 + box b w w0)

/-- A one-bit word as a number. -/
def cnt (v : BitVec 1) : EReal := ((v.toNat : ℝ) : EReal)

/-- The row's label: 1 when box number 4 is positive, else 0. -/
def lab (b : Fin 15 → EReal) : EReal := cnt (Ideal.cmp .ogt (b 4) z0)

/-- The clamped logarithm: max(log(min(1, max(tiny, u))), -100). -/
def clog (u : EReal) : EReal := max (Ideal.log (min one (max tiny u))) floor

/-- The row's cross-entropy term, before its sign is changed. -/
def term (b : Fin 15 → EReal) (s : EReal) : EReal := lab b * clog s + (one - lab b) * clog (one - s)

/-- The label is zero. -/
def isNeg (b : Fin 15 → EReal) : BitVec 1 := Ideal.cmp .oeq (lab b) z0
/-- The label is not zero. -/
def isPos (b : Fin 15 → EReal) : BitVec 1 := isNeg b ^^^ 1#1
/-- The label is zero and the score is at least one half. -/
def negHit (b : Fin 15 → EReal) (s : EReal) : BitVec 1 := isNeg b &&& Ideal.cmp .oge s half
/-- The label is not zero and the score is below one half. -/
def posHit (b : Fin 15 → EReal) (s : EReal) : BitVec 1 := isPos b &&& Ideal.cmp .olt s half

/-! ## The arrays -/

abbrev SRx300 : Shape := ⟨2, ![131072, 300]⟩
abbrev SRx15 : Shape := ⟨2, ![131072, 15]⟩
abbrev SRx1 : Shape := ⟨2, ![131072, 1]⟩
abbrev S8x1 : Shape := ⟨2, ![8, 1]⟩
abbrev S1 : Shape := ⟨1, ![1]⟩
abbrev S600x300 : Shape := ⟨2, ![600, 300]⟩
abbrev S300 : Shape := ⟨1, ![300]⟩
abbrev S300x1 : Shape := ⟨2, ![300, 1]⟩
abbrev S_ : Shape := ⟨0, ![]⟩

section arrays

variable (X0 X1 : SRx300.Idx → EReal) (X2 : SRx15.Idx → EReal) (W3 : S8x1.Idx → EReal) (B4 : S1.Idx → EReal)
  (W5 : S600x300.Idx → EReal) (B6 : S300.Idx → EReal) (W7 : S300x1.Idx → EReal) (B8 : S1.Idx → EReal)

/-- Row `r`'s fifteen box numbers. -/
def boxRow (r : Fin 131072) : Fin 15 → EReal := fun k => X2 (ix2 r k)

/-- Row `r`'s score, from the argument arrays. -/
def scoreAt (r : Fin 131072) : EReal :=
  score (fun k => X0 (ix2 r k)) (fun k => X1 (ix2 r k)) (boxRow X2 r) (fun k => W3 (ix2 k 0)) (B4 (ix1 0))
    (fun k j => W5 (ix2 k j)) (fun j => B6 (ix1 j)) (fun j => W7 (ix2 j 0)) (B8 (ix1 0))

/-- The scores, a column. -/
def scoresG : SRx1.Idx → EReal := fun i => scoreAt X0 X1 X2 W3 B4 W5 B6 W7 B8 (i 0)

/-- Row `r`'s cross-entropy term. -/
def termAt (r : Fin 131072) : EReal := term (boxRow X2 r) (scoreAt X0 X1 X2 W3 B4 W5 B6 W7 B8 r)

/-- The loss: the sign-changed terms summed, over the row count. -/
def lossG : S_.Idx → EReal := fun _ => Ideal.div (∑ r : Fin 131072, (z0 - termAt X0 X1 X2 W3 B4 W5 B6 W7 B8 r)) rows

/-- The four counts. -/
def nPos : EReal := ∑ r : Fin 131072, cnt (isPos (boxRow X2 r))
def nNeg : EReal := ∑ r : Fin 131072, cnt (isNeg (boxRow X2 r))
def nNegHit : EReal := ∑ r : Fin 131072, cnt (negHit (boxRow X2 r) (scoreAt X0 X1 X2 W3 B4 W5 B6 W7 B8 r))
def nPosHit : EReal := ∑ r : Fin 131072, cnt (posHit (boxRow X2 r) (scoreAt X0 X1 X2 W3 B4 W5 B6 W7 B8 r))

/-- The three quotients. -/
def rposG : S_.Idx → EReal := fun _ => Ideal.div (nNegHit X0 X1 X2 W3 B4 W5 B6 W7 B8) (nPos X2)
def rnegG : S_.Idx → EReal := fun _ => Ideal.div (nPosHit X0 X1 X2 W3 B4 W5 B6 W7 B8) (nNeg X2)
def rallG : S_.Idx → EReal := fun _ =>
  Ideal.div (nNegHit X0 X1 X2 W3 B4 W5 B6 W7 B8 + nPosHit X0 X1 X2 W3 B4 W5 B6 W7 B8) (nPos X2 + nNeg X2)

end arrays

/-! ## Two facts about sums of extended reals -/

/-- A one-bit word counts as 0 or 1. -/
theorem cnt_cases (v : BitVec 1) : cnt v = 0 ∨ cnt v = 1 := by
  have h : v = 0#1 ∨ v = 1#1 := by
    have := v.isLt
    rcases Nat.lt_or_ge v.toNat 1 with h | h
    · left; apply BitVec.eq_of_toNat_eq; simp; omega
    · right; apply BitVec.eq_of_toNat_eq; simp; omega
  rcases h with rfl | rfl
  · left; simp [cnt]
  · right; simp [cnt]

/-- The clamped logarithm is never -∞: it is a maximum against the real number -100. -/
theorem clog_ne_bot (u : EReal) : clog u ≠ ⊥ := by
  unfold clog
  intro h
  have := le_max_right (Ideal.log (min one (max tiny u))) floor
  rw [h, le_bot_iff] at this
  exact Consts.floor_ne_bot this

/-- A row's term is never -∞: it is one of the two clamped logarithms (plus zero), the label being 0 or 1. -/
theorem term_ne_bot (b : Fin 15 → EReal) (s : EReal) : term b s ≠ ⊥ := by
  unfold term lab
  have h1 : one = 1 := by
    show Ideal.ofBits .f32 0x3F800000#32 = 1
    simp [Ideal.ofBits, Ideal.ieee, -EReal.coe_mul]; norm_num
  rcases cnt_cases (Ideal.cmp .ogt (b 4) z0) with h | h
  · rw [h, h1, zero_mul, zero_add, sub_zero, one_mul]; exact clog_ne_bot _
  · rw [h, h1, one_mul, sub_self_one, zero_mul, add_zero]; exact clog_ne_bot _
where
  sub_self_one : (1 : EReal) - 1 = 0 := by
    rw [show (1 : EReal) = ((1 : ℝ) : EReal) from rfl, ← EReal.coe_sub]; simp

/-- Changing the sign term by term, when no term is -∞, changes the sign of the sum. -/
theorem sum_zero_sub {ι : Type*} (s : Finset ι) (f : ι → EReal) (hf : ∀ i ∈ s, f i ≠ ⊥) :
    ∑ i ∈ s, (z0 - f i) = -(∑ i ∈ s, f i) ∧ (∑ i ∈ s, f i) ≠ ⊥ := by
  classical
  induction s using Finset.induction_on with
  | empty => simp
  | insert a s ha ih =>
    obtain ⟨ih1, ih2⟩ := ih (fun i hi => hf i (Finset.mem_insert_of_mem hi))
    have hfa := hf a (Finset.mem_insert_self a s)
    rw [Finset.sum_insert ha, Finset.sum_insert ha, ih1]
    refine ⟨?_, ?_⟩
    · rw [show z0 = 0 from Consts.zero_eq, zero_sub, EReal.neg_add (Or.inl hfa) (Or.inr ih2)]
      rfl
    · intro h
      rcases EReal.add_eq_bot_iff.mp h with h | h
      · exact hfa h
      · exact ih2 h

/-- The loss in the reference's order: the mean of the terms, then the sign. -/
theorem div_rows_neg (x : EReal) : Ideal.div (-x) rows = -(Ideal.div x rows) := by
  rw [show rows = ((131072 : ℝ) : EReal) from Consts.rows_eq, Ideal.div_coe (by norm_num), Ideal.div_coe (by norm_num),
    EReal.neg_mul]

/-- The kernel's loss (signs changed, summed, divided) is the reference's (summed, divided, sign changed). -/
theorem loss_joined (f : Fin 131072 → EReal) (hf : ∀ r, f r ≠ ⊥) :
    Ideal.div (∑ r : Fin 131072, (z0 - f r)) rows = -(Ideal.div (∑ r : Fin 131072, f r) rows) := by
  rw [(sum_zero_sub Finset.univ f (fun i _ => hf i)).1, div_rows_neg]

end Cert.Rela

end
-- ==== Proof.KPayScore.lean ====
/-
  The kernel's box-score column and score column read at one row of the block, over the extended reals.

  Row `p` of the box-score column is the row-level box score of the block's fifteen box numbers at that row: the eight
  features are quotients and logarithms of quotients of differences of columns 5..8 and 10..13 (each column a slice of a
  slice, so column `c` of the four from `o` on is column `o + c`), each times one word of the weight column, added first
  to last, plus the bias word.

  Row `p` of the score column is the logistic of the language score plus the box score: the weight block's rows 0..299 and
  300..599 are its two halves (row `k` of the second half is row `300 + k`), each matrix product into a zero accumulator is
  the sum over the shared axis, the bias row is the same for every row, and rounding to the narrower format changes
  nothing here.
-/
import proofs.«166331_j32547262169374_1_alg».proof.Proof.KPoint
import proofs.«166331_j32547262169374_1_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.KV
open Idealize.ShloMosaic Idealize.ShloMosaic.ValueIdx Idealize.SL.Sem Cert.KernelIdeal Cert.KernelIdeal.Gen
variable (x0 x1 : Vec Ideal S1024x300 .f32) (x2 : Vec Ideal S1024x15 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32)

namespace Score

/-! ## The box score at a row -/

/-- Column `c` of the four columns from `o` on is column `o + c` of the fifteen. -/
theorem col_of (v : Vec Ideal S1024x15 .f32) (o c : Nat) (h1 : S1024x15.Slices ![0, o] S1024x4)
    (h2 : S1024x4.Slices ![0, c] S1024x1) (p : Fin 1024) (q : Fin 15) (hq : q.val = o + c) (hc : c < 4) :
    extractStridedSlice S1024x1 ![0, c] (extractStridedSlice S1024x4 ![0, o] v h1) h2 (ix2 p 0) = v (ix2 p q) := by
  refine (slice2_axis1_apply c _ h2 p 0 ⟨c, hc⟩ (by simp)).trans ?_
  exact slice2_axis1_apply o v h1 p ⟨c, hc⟩ q (by simpa using hq)

section box

variable (v : Vec Ideal S1024x15 .f32) (p : Fin 1024)

theorem c5 : k0_pay15 v (ix2 p 0) = v (ix2 p 5) :=
  col_of v 5 0 slices_S1024x15_o0_5_S1024x4 slices_S1024x4_o0_0_S1024x1 p 5 rfl (by decide)
theorem c6 : k0_pay16 v (ix2 p 0) = v (ix2 p 6) :=
  col_of v 5 1 slices_S1024x15_o0_5_S1024x4 slices_S1024x4_o0_1_S1024x1 p 6 rfl (by decide)
theorem c10 : k0_pay17 v (ix2 p 0) = v (ix2 p 10) :=
  col_of v 10 0 slices_S1024x15_o0_10_S1024x4 slices_S1024x4_o0_0_S1024x1 p 10 rfl (by decide)
theorem c11 : k0_pay18 v (ix2 p 0) = v (ix2 p 11) :=
  col_of v 10 1 slices_S1024x15_o0_10_S1024x4 slices_S1024x4_o0_1_S1024x1 p 11 rfl (by decide)

/-- The subject's width. -/
theorem d19 : k0_pay19 v (ix2 p 0) = v (ix2 p 7) - v (ix2 p 5) :=
  congrArg₂ (· - ·) (col_of v 5 2 slices_S1024x15_o0_5_S1024x4 slices_S1024x4_o0_2_S1024x1 p 7 rfl (by decide)) (c5 v p)
/-- The subject's height. -/
theorem d20 : k0_pay20 v (ix2 p 0) = v (ix2 p 8) - v (ix2 p 6) :=
  congrArg₂ (· - ·) (col_of v 5 3 slices_S1024x15_o0_5_S1024x4 slices_S1024x4_o0_3_S1024x1 p 8 rfl (by decide)) (c6 v p)
/-- The object's width. -/
theorem d21 : k0_pay21 v (ix2 p 0) = v (ix2 p 12) - v (ix2 p 10) :=
  congrArg₂ (· - ·) (col_of v 10 2 slices_S1024x15_o0_10_S1024x4 slices_S1024x4_o0_2_S1024x1 p 12 rfl (by decide)) (c10 v p)
/-- The object's height. -/
theorem d22 : k0_pay22 v (ix2 p 0) = v (ix2 p 13) - v (ix2 p 11) :=
  congrArg₂ (· - ·) (col_of v 10 3 slices_S1024x15_o0_10_S1024x4 slices_S1024x4_o0_3_S1024x1 p 13 rfl (by decide)) (c11 v p)

theorem f0 : k0_pay23 v (ix2 p 0) = Cert.Rela.feat (fun k => v (ix2 p k)) 0 :=
  congrArg₂ Ideal.div (congrArg₂ (· - ·) (c5 v p) (c10 v p)) (d19 v p)
theorem f1 : k0_pay24 v (ix2 p 0) = Cert.Rela.feat (fun k => v (ix2 p k)) 1 :=
  congrArg₂ Ideal.div (congrArg₂ (· - ·) (c6 v p) (c11 v p)) (d20 v p)
theorem f2 : k0_pay25 v (ix2 p 0) = Cert.Rela.feat (fun k => v (ix2 p k)) 2 :=
  congrArg Ideal.log (congrArg₂ Ideal.div (d19 v p) (d21 v p))
theorem f3 : k0_pay26 v (ix2 p 0) = Cert.Rela.feat (fun k => v (ix2 p k)) 3 :=
  congrArg Ideal.log (congrArg₂ Ideal.div (d20 v p) (d22 v p))
theorem f4 : k0_pay27 v (ix2 p 0) = Cert.Rela.feat (fun k => v (ix2 p k)) 4 :=
  congrArg₂ Ideal.div (congrArg₂ (· - ·) (c10 v p) (c5 v p)) (d21 v p)
theorem f5 : k0_pay28 v (ix2 p 0) = Cert.Rela.feat (fun k => v (ix2 p k)) 5 :=
  congrArg₂ Ideal.div (congrArg₂ (· - ·) (c11 v p) (c6 v p)) (d22 v p)
theorem f6 : k0_pay29 v (ix2 p 0) = Cert.Rela.feat (fun k => v (ix2 p k)) 6 :=
  congrArg Ideal.log (congrArg₂ Ideal.div (d21 v p) (d19 v p))
theorem f7 : k0_pay30 v (ix2 p 0) = Cert.Rela.feat (fun k => v (ix2 p k)) 7 :=
  congrArg Ideal.log (congrArg₂ Ideal.div (d22 v p) (d20 v p))

end box

/-- The one word a unit rectangle at row `k` of the weight column loads. -/
theorem wt_read (w : Vec Ideal S8x1 .f32) (off : Fin 2 → Nat) (inb : ∀ a, off a + S1x1.size a ≤ S8x1.size a) (k : Fin 8)
    (h0 : off 0 = k.val) (h1 : off 1 = 0) :
    extractAt ![0, 0] (View.ld w (Rect.unit (s := S8x1) off S1x1.size inb)) inpos_S1x1_p0_0 = w (ix2 k 0) := by
  unfold extractAt
  refine congrArg w (funext fun a => Fin.ext ?_)
  match a with
  | ⟨0, _⟩ => show off 0 + 1 * 0 = k.val; omega
  | ⟨1, _⟩ => show off 1 + 1 * 0 = 0; omega

/-- The one word of a one-word vector. -/
theorem one_read (w : Vec Ideal S1x1 .f32) : extractAt ![0, 0] w inpos_S1x1_p0_0 = w (ix2 0 0) := by
  unfold extractAt
  refine congrArg w (funext fun a => Fin.ext ?_)
  match a with
  | ⟨0, _⟩ => rfl
  | ⟨1, _⟩ => rfl

/-! ## The two matrix products at an index -/

theorem lhs_mmA_0 (i : S1024x300.Idx) (q : dot_S1024x300_S300x300_S1024x300_1_0_0_1_n_n.contr.Idx) :
    (dot_S1024x300_S300x300_S1024x300_1_0_0_1_n_n.lhsIdx i q 0).val = (i 0).val := by
  unfold DotDims.lhsIdx
  rw [dif_neg (show ¬(0 : Fin S1024x300.rank) ∈ dot_S1024x300_S300x300_S1024x300_1_0_0_1_n_n.lhsBatch by decide), dif_pos (show (0 : Fin S1024x300.rank) ∈ dot_S1024x300_S300x300_S1024x300_1_0_0_1_n_n.lhsNonContracting by decide)]
  rfl
theorem lhs_mmA_1 (i : S1024x300.Idx) (q : dot_S1024x300_S300x300_S1024x300_1_0_0_1_n_n.contr.Idx) :
    (dot_S1024x300_S300x300_S1024x300_1_0_0_1_n_n.lhsIdx i q 1).val = (q ⟨0, by decide⟩).val :=
  dot_S1024x300_S300x300_S1024x300_1_0_0_1_n_n.lhsIdx_val_of_single rfl i q
theorem rhs_mmA_0 (i : S1024x300.Idx) (q : dot_S1024x300_S300x300_S1024x300_1_0_0_1_n_n.contr.Idx) :
    (dot_S1024x300_S300x300_S1024x300_1_0_0_1_n_n.rhsIdx i q 0).val = (q ⟨0, by decide⟩).val :=
  dot_S1024x300_S300x300_S1024x300_1_0_0_1_n_n.rhsIdx_val_of_single rfl i q
theorem rhs_mmA_1 (i : S1024x300.Idx) (q : dot_S1024x300_S300x300_S1024x300_1_0_0_1_n_n.contr.Idx) :
    (dot_S1024x300_S300x300_S1024x300_1_0_0_1_n_n.rhsIdx i q 1).val = (i 1).val := by
  unfold DotDims.rhsIdx
  rw [dif_neg (show ¬(1 : Fin S300x300.rank) ∈ dot_S1024x300_S300x300_S1024x300_1_0_0_1_n_n.rhsBatch by decide), dif_pos (show (1 : Fin S300x300.rank) ∈ dot_S1024x300_S300x300_S1024x300_1_0_0_1_n_n.rhsNonContracting by decide)]
  rfl

/-- A [1024,300] by [300,300] product into a zero accumulator, at `(p, j)`: the sum over the shared axis. -/
theorem mmA_apply (a : FVec Ideal S1024x300 .bf16) (b : FVec Ideal S300x300 .bf16) (p : Fin 1024) (j : Fin 300) :
    matmul dot_S1024x300_S300x300_S1024x300_1_0_0_1_n_n none a b (constant (F := Ideal) S1024x300 .f32 0x00000000#32) (ix2 p j)
      = ∑ k : Fin 300, a (ix2 p k) * b (ix2 k j) := by
  refine (Ideal.matmul_constant_zero_apply dot_S1024x300_S300x300_S1024x300_1_0_0_1_n_n none a b (ix2 p j)).trans ?_
  rw [← Equiv.sum_comp (contrEquiv1 dot_S1024x300_S300x300_S1024x300_1_0_0_1_n_n 300 rfl rfl).symm]
  refine Finset.sum_congr rfl fun k _ => ?_
  have hk := contrEquiv1_symm_val dot_S1024x300_S300x300_S1024x300_1_0_0_1_n_n 300 rfl rfl k
  have el : dot_S1024x300_S300x300_S1024x300_1_0_0_1_n_n.lhsIdx (ix2 p j) ((contrEquiv1 dot_S1024x300_S300x300_S1024x300_1_0_0_1_n_n 300 rfl rfl).symm k) = ix2 p k := funext fun a => Fin.ext (by
    match a with
    | ⟨0, _⟩ => exact lhs_mmA_0 _ _
    | ⟨1, _⟩ => exact (lhs_mmA_1 _ _).trans hk)
  have er : dot_S1024x300_S300x300_S1024x300_1_0_0_1_n_n.rhsIdx (ix2 p j) ((contrEquiv1 dot_S1024x300_S300x300_S1024x300_1_0_0_1_n_n 300 rfl rfl).symm k) = ix2 k j := funext fun a => Fin.ext (by
    match a with
    | ⟨0, _⟩ => exact (rhs_mmA_0 _ _).trans hk
    | ⟨1, _⟩ => exact rhs_mmA_1 _ _)
  rw [el, er]

theorem lhs_mmB_0 (i : S1024x1.Idx) (q : dot_S1024x300_S300x1_S1024x1_1_0_0_1_n_n.contr.Idx) :
    (dot_S1024x300_S300x1_S1024x1_1_0_0_1_n_n.lhsIdx i q 0).val = (i 0).val := by
  unfold DotDims.lhsIdx
  rw [dif_neg (show ¬(0 : Fin S1024x300.rank) ∈ dot_S1024x300_S300x1_S1024x1_1_0_0_1_n_n.lhsBatch by decide), dif_pos (show (0 : Fin S1024x300.rank) ∈ dot_S1024x300_S300x1_S1024x1_1_0_0_1_n_n.lhsNonContracting by decide)]
  rfl
theorem lhs_mmB_1 (i : S1024x1.Idx) (q : dot_S1024x300_S300x1_S1024x1_1_0_0_1_n_n.contr.Idx) :
    (dot_S1024x300_S300x1_S1024x1_1_0_0_1_n_n.lhsIdx i q 1).val = (q ⟨0, by decide⟩).val :=
  dot_S1024x300_S300x1_S1024x1_1_0_0_1_n_n.lhsIdx_val_of_single rfl i q
theorem rhs_mmB_0 (i : S1024x1.Idx) (q : dot_S1024x300_S300x1_S1024x1_1_0_0_1_n_n.contr.Idx) :
    (dot_S1024x300_S300x1_S1024x1_1_0_0_1_n_n.rhsIdx i q 0).val = (q ⟨0, by decide⟩).val :=
  dot_S1024x300_S300x1_S1024x1_1_0_0_1_n_n.rhsIdx_val_of_single rfl i q
theorem rhs_mmB_1 (i : S1024x1.Idx) (q : dot_S1024x300_S300x1_S1024x1_1_0_0_1_n_n.contr.Idx) :
    (dot_S1024x300_S300x1_S1024x1_1_0_0_1_n_n.rhsIdx i q 1).val = (i 1).val := by
  unfold DotDims.rhsIdx
  rw [dif_neg (show ¬(1 : Fin S300x1.rank) ∈ dot_S1024x300_S300x1_S1024x1_1_0_0_1_n_n.rhsBatch by decide), dif_pos (show (1 : Fin S300x1.rank) ∈ dot_S1024x300_S300x1_S1024x1_1_0_0_1_n_n.rhsNonContracting by decide)]
  rfl

/-- A [1024,300] by [300,1] product into a zero accumulator, at `(p, 0)`. -/
theorem mmB_apply (a : FVec Ideal S1024x300 .bf16) (b : FVec Ideal S300x1 .bf16) (p : Fin 1024) :
    matmul dot_S1024x300_S300x1_S1024x1_1_0_0_1_n_n none a b (constant (F := Ideal) S1024x1 .f32 0x00000000#32) (ix2 p 0)
      = ∑ k : Fin 300, a (ix2 p k) * b (ix2 k 0) := by
  refine (Ideal.matmul_constant_zero_apply dot_S1024x300_S300x1_S1024x1_1_0_0_1_n_n none a b (ix2 p 0)).trans ?_
  rw [← Equiv.sum_comp (contrEquiv1 dot_S1024x300_S300x1_S1024x1_1_0_0_1_n_n 300 rfl rfl).symm]
  refine Finset.sum_congr rfl fun k _ => ?_
  have hk := contrEquiv1_symm_val dot_S1024x300_S300x1_S1024x1_1_0_0_1_n_n 300 rfl rfl k
  have el : dot_S1024x300_S300x1_S1024x1_1_0_0_1_n_n.lhsIdx (ix2 p 0) ((contrEquiv1 dot_S1024x300_S300x1_S1024x1_1_0_0_1_n_n 300 rfl rfl).symm k) = ix2 p k := funext fun a => Fin.ext (by
    match a with
    | ⟨0, _⟩ => exact lhs_mmB_0 _ _
    | ⟨1, _⟩ => exact (lhs_mmB_1 _ _).trans hk)
  have er : dot_S1024x300_S300x1_S1024x1_1_0_0_1_n_n.rhsIdx (ix2 p 0) ((contrEquiv1 dot_S1024x300_S300x1_S1024x1_1_0_0_1_n_n 300 rfl rfl).symm k) = ix2 k 0 := funext fun a => Fin.ext (by
    match a with
    | ⟨0, _⟩ => exact (rhs_mmB_0 _ _).trans hk
    | ⟨1, _⟩ => exact rhs_mmB_1 _ _)
  rw [el, er]

end Score

open Score

/-! ## The two columns at a row -/

theorem boxCol_apply (p : Fin 1024) : boxCol x2 x7 x8 (ix2 p 0) = Cert.Rela.box (fun k => x2 (ix2 p k)) (fun k => x7 (ix2 k 0)) (x8 (ix2 0 0)) := by
  unfold boxCol k0_pay36 k0_pay31 k0_pay32 k0_pay33 k0_pay34 k0_pay35 Cert.Rela.box
  simp only [addf_apply, mulf_apply, broadcast_apply]
  rw [f0, f1, f2, f3, f4, f5, f6, f7, one_read x8,
    wt_read x7 _ _ 0 rfl rfl, wt_read x7 _ _ 1 rfl rfl, wt_read x7 _ _ 2 rfl rfl, wt_read x7 _ _ 3 rfl rfl,
    wt_read x7 _ _ 4 rfl rfl, wt_read x7 _ _ 5 rfl rfl, wt_read x7 _ _ 6 rfl rfl, wt_read x7 _ _ 7 rfl rfl]

theorem scoreCol_apply (p : Fin 1024) : scoreCol x0 x1 x2 x3 x4 x5 x6 x7 x8 (ix2 p 0) = Cert.Rela.score (fun k => x0 (ix2 p k)) (fun k => x1 (ix2 p k)) (fun k => x2 (ix2 p k)) (fun k => x7 (ix2 k 0)) (x8 (ix2 0 0)) (fun k j => x3 (ix2 k j)) (fun j => x4 (ix2 0 j)) (fun j => x5 (ix2 j 0)) (x6 (ix2 0 0)) := by
  unfold scoreCol k0_pay40 Cert.Rela.score Cert.Rela.lan
  dsimp only
  refine congrArg Ideal.logistic ?_
  refine congrArg₂ (· + ·) (congrArg₂ (· + ·) ?_ ?_) (boxCol_apply x2 x7 x8 p)
  · refine (mmB_apply _ _ p).trans ?_
    refine Finset.sum_congr rfl fun j _ => ?_
    refine congrArg₂ (· * ·) ?_ ?_
    · unfold Cert.Rela.hidden
      refine congrArg (fun t => max t Cert.Rela.z0) ?_
      refine congrArg₂ (· + ·) (congrArg₂ (· + ·) ?_ ?_) ?_
      · refine (mmA_apply _ _ p j).trans ?_
        refine Finset.sum_congr rfl fun k _ => ?_
        refine congrArg₂ (· * ·) rfl ?_
        rw [shapeCast_self]
        exact slice2_axis0_apply 0 x3 _ k j (Fin.castAdd 300 k) (by simp)
      · refine (mmA_apply _ _ p j).trans ?_
        refine Finset.sum_congr rfl fun k _ => ?_
        refine congrArg₂ (· * ·) rfl ?_
        rw [shapeCast_self]
        exact slice2_axis0_apply 300 x3 _ k j (Fin.natAdd 300 k) (Fin.coe_natAdd 300 k)
      · rw [shapeCast_self]
        exact broadcastTo_1b_ab_apply x4 _ p j
    · rw [shapeCast_self]
  · rw [shapeCast_self]
    exact broadcastTo_1b_ab_apply x6 _ p 0

end Cert.KernelIdeal.KV
end
-- ==== Proof.KPayAcc.lean ====
/-
  The kernel's accumulator updates and final quotients, read at their one index over the extended reals.

  Each of the five accumulators holds one number. A grid point adds to it the sum, over the block's 1024 rows, of a
  per-row quantity: the sign-changed cross-entropy term for the loss, and for the four counts a one-bit test of the row
  (label not zero; label zero; label zero and score at least one half; label not zero and score below one half) read as
  0 or 1. The row's label is itself such a bit: box number 4 compared with zero. Here each update is shown to be
  "what was held before, plus the sum over the rows of the specification's per-row function", with the row's score kept
  as the unopened score column; the first point's reset words are shown to be 0, and the last point's four results to be
  the quotients of the accumulators.
-/
import proofs.«166331_j32547262169374_1_alg».proof.Proof.KPoint
import proofs.«166331_j32547262169374_1_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.KV
open Idealize.ShloMosaic Idealize.ShloMosaic.ValueIdx Idealize.SL.Sem Cert.KernelIdeal Cert.KernelIdeal.Gen
variable (x0 x1 : Vec Ideal S1024x300 .f32) (x2 : Vec Ideal S1024x15 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32)

/-! ## A one-bit word as a number -/

/-- A one-bit word is 0 or 1. -/
theorem acc_bit_cases (v : BitVec 1) : v = 0#1 ∨ v = 1#1 := by
  have := v.isLt
  rcases Nat.lt_or_ge v.toNat 1 with h | h
  · left; apply BitVec.eq_of_toNat_eq; simp; omega
  · right; apply BitVec.eq_of_toNat_eq; simp; omega

/-- A one-bit word extended by zeros to 32 bits and read as a signed integer is the bit's own value: the extension
    is 0 or 1, whose sign bit is clear. -/
theorem acc_sitofp_bit (c : BitVec 1) : (((c.setWidth 32).toInt : ℝ) : EReal) = Cert.Rela.cnt c := by
  unfold Cert.Rela.cnt
  have h : (c.setWidth 32).toInt = (c.toNat : ℤ) := by
    rcases acc_bit_cases c with rfl | rfl <;> decide
  rw [h, Int.cast_natCast]

/-! ## The label column -/

/-- Column 4 of the box block, at row `p`. -/
theorem acc_slice4 (p : Fin 1024) :
    extractStridedSlice S1024x1 ![0, 4] x2 slices_S1024x15_o0_4_S1024x1 (ix2 p 0) = x2 (ix2 p 4) :=
  extractStridedSlice_apply ![0, 4] x2 slices_S1024x15_o0_4_S1024x1 (ix2 p 0) (ix2 p 4) (fun a => match a with
    | ⟨0, _⟩ => by show p.val = 0 + p.val; omega
    | ⟨1, _⟩ => by show 4 = 4 + 0; rfl)

/-- Row `p`'s label: the bit "box number 4 is greater than zero", as 0 or 1. -/
theorem labCol_apply (p : Fin 1024) : labCol x2 (ix2 p 0) = Cert.Rela.lab (fun k => x2 (ix2 p k)) := by
  unfold labCol k0_pay37 Cert.Rela.lab
  refine Eq.trans ?_ (acc_sitofp_bit _)
  show (((((Ideal.cmp .ogt (extractStridedSlice S1024x1 ![0, 4] x2 slices_S1024x15_o0_4_S1024x1 (ix2 p 0))
    (Ideal.ofBits .f32 0x00000000#32)).setWidth 32).toInt : ℝ) : EReal)) = _
  rw [acc_slice4]

/-! ## A column's sum added to one held number -/

/-- The index of a [1024, 1] column that drops to the one index of [1] with row `k` put back is `(k, 0)`. -/
theorem acc_lift_ix (k : Fin 1024) : reduces_S1024x1_S1.lift (ix1 (0 : Fin 1)) k = ix2 k 0 := by
  funext c
  match c with
  | ⟨0, _⟩ => exact Fin.ext rfl
  | ⟨1, _⟩ => exact Fin.ext rfl

/-- The sum over the rows of a [1024, 1] column: the reduction starts from the neutral word, so nothing else is added. -/
theorem acc_colsum (col : FVec Ideal S1024x1 .f32) :
    multiReduction (F := Ideal) .add [0] S1 col 0x00000000#32 reduces_S1024x1_S1 (.inl rfl) rfl (ix1 0)
      = ∑ p : Fin 1024, col (ix2 p 0) := by
  refine (Ideal.multiReduction_add_single col _ reduces_S1024x1_S1 _ _ (ix1 0)).trans ?_
  exact Finset.sum_congr rfl (fun k _ => congrArg col (acc_lift_ix k))

/-- The common shape of the five updates: the column's sum, as a [1] vector recast to [1, 1], added to the held word
    and recast to its own shape, is the held number plus the sum over the rows. -/
theorem acc_read (xs : Vec Ideal S1x1 .f32) (col : FVec Ideal S1024x1 .f32) :
    shapeCast S1x1 (addf xs (shapeCast S1x1
        (multiReduction (F := Ideal) .add [0] S1 col 0x00000000#32 reduces_S1024x1_S1 (.inl rfl) rfl) shapeCasts_S1_S1x1))
      shapeCasts_S1x1_S1x1 (ix2 0 0)
      = xs (ix2 0 0) + ∑ p : Fin 1024, col (ix2 p 0) := by
  rw [shapeCast_self]
  show xs (ix2 0 0) + shapeCast S1x1 _ shapeCasts_S1_S1x1 (ix2 0 0) = _
  rw [shapeCast_a_1a_apply, acc_colsum]

/-! ## The two clamped logarithms of the score -/

/-- max(log(min(1, max(tiny, s))), -100) at row `p`, `s` the row's score. -/
theorem acc_pay41 (p : Fin 1024) :
    k0_pay41 (boxCol x2 x7 x8) (k0_pay38 x0) (k0_pay39 x1) x3 x4 x5 x6 (ix2 p 0)
      = Cert.Rela.clog (scoreCol x0 x1 x2 x3 x4 x5 x6 x7 x8 (ix2 p 0)) := by
  unfold k0_pay41 scoreCol Cert.Rela.clog
  rfl

/-- log(min(1, max(tiny, 1 - s))) at row `p`, with the maximum against -100 the loss update applies to it. -/
theorem acc_pay42 (p : Fin 1024) :
    max (k0_pay42 (boxCol x2 x7 x8) (k0_pay38 x0) (k0_pay39 x1) x3 x4 x5 x6 (ix2 p 0)) Cert.Rela.floor
      = Cert.Rela.clog (Cert.Rela.one - scoreCol x0 x1 x2 x3 x4 x5 x6 x7 x8 (ix2 p 0)) := by
  unfold k0_pay42 scoreCol Cert.Rela.clog
  rfl

/-! ## The five updates -/

/-- The loss: each row adds 0 - (label * L(s) + (1 - label) * L(1 - s)). -/
theorem lossAcc_apply (xs0 : Vec Ideal S1x1 .f32) : lossAcc x0 x1 x2 x3 x4 x5 x6 x7 x8 xs0 (ix2 0 0) = xs0 (ix2 0 0) + ∑ p : Fin 1024, (Cert.Rela.z0 - Cert.Rela.term (fun k => x2 (ix2 p k)) (scoreCol x0 x1 x2 x3 x4 x5 x6 x7 x8 (ix2 p 0))) := by
  unfold lossAcc k0_pay47
  refine (acc_read xs0 _).trans ?_
  congr 1
  refine Finset.sum_congr rfl (fun p _ => ?_)
  show Cert.Rela.z0 - (labCol x2 (ix2 p 0) * k0_pay41 (boxCol x2 x7 x8) (k0_pay38 x0) (k0_pay39 x1) x3 x4 x5 x6 (ix2 p 0)
      + (Cert.Rela.one - labCol x2 (ix2 p 0))
        * max (k0_pay42 (boxCol x2 x7 x8) (k0_pay38 x0) (k0_pay39 x1) x3 x4 x5 x6 (ix2 p 0)) Cert.Rela.floor) = _
  rw [labCol_apply, acc_pay41, acc_pay42]
  rfl

/-- The rows of nonzero label: the bit "label equals zero" flipped. -/
theorem posAcc_apply (xs1 : Vec Ideal S1x1 .f32) : posAcc x2 xs1 (ix2 0 0) = xs1 (ix2 0 0) + ∑ p : Fin 1024, Cert.Rela.cnt (Cert.Rela.isPos (fun k => x2 (ix2 p k))) := by
  unfold posAcc k0_pay48
  refine (acc_read xs1 _).trans ?_
  congr 1
  refine Finset.sum_congr rfl (fun p _ => ?_)
  refine Eq.trans ?_ (acc_sitofp_bit _)
  show ((((IntOp.xori (Ideal.cmp .oeq (labCol x2 (ix2 p 0)) Cert.Rela.z0) 1#1).setWidth 32).toInt : ℝ) : EReal) = _
  rw [labCol_apply]
  rfl

/-- The rows of label zero. -/
theorem negAcc_apply (xs2 : Vec Ideal S1x1 .f32) : negAcc x2 xs2 (ix2 0 0) = xs2 (ix2 0 0) + ∑ p : Fin 1024, Cert.Rela.cnt (Cert.Rela.isNeg (fun k => x2 (ix2 p k))) := by
  unfold negAcc k0_pay1 k0_pay49
  refine (acc_read xs2 _).trans ?_
  congr 1
  refine Finset.sum_congr rfl (fun p _ => ?_)
  refine Eq.trans ?_ (acc_sitofp_bit _)
  show (((((Ideal.cmp .oeq (labCol x2 (ix2 p 0)) Cert.Rela.z0)).setWidth 32).toInt : ℝ) : EReal) = _
  rw [labCol_apply]
  rfl

/-- The rows of label zero whose score is at least one half. -/
theorem negHitAcc_apply (xs3 : Vec Ideal S1x1 .f32) : negHitAcc x0 x1 x2 x3 x4 x5 x6 x7 x8 xs3 (ix2 0 0) = xs3 (ix2 0 0) + ∑ p : Fin 1024, Cert.Rela.cnt (Cert.Rela.negHit (fun k => x2 (ix2 p k)) (scoreCol x0 x1 x2 x3 x4 x5 x6 x7 x8 (ix2 p 0))) := by
  unfold negHitAcc k0_pay2
  refine (acc_read xs3 _).trans ?_
  congr 1
  refine Finset.sum_congr rfl (fun p _ => ?_)
  refine Eq.trans ?_ (acc_sitofp_bit _)
  show ((((IntOp.andi (Ideal.cmp .oeq (labCol x2 (ix2 p 0)) Cert.Rela.z0)
      (Ideal.cmp .oge (scoreCol x0 x1 x2 x3 x4 x5 x6 x7 x8 (ix2 p 0)) Cert.Rela.half)).setWidth 32).toInt : ℝ) : EReal) = _
  rw [labCol_apply]
  rfl

/-- The rows of nonzero label whose score is below one half. -/
theorem posHitAcc_apply (xs4 : Vec Ideal S1x1 .f32) : posHitAcc x0 x1 x2 x3 x4 x5 x6 x7 x8 xs4 (ix2 0 0) = xs4 (ix2 0 0) + ∑ p : Fin 1024, Cert.Rela.cnt (Cert.Rela.posHit (fun k => x2 (ix2 p k)) (scoreCol x0 x1 x2 x3 x4 x5 x6 x7 x8 (ix2 p 0))) := by
  unfold posHitAcc k0_pay3
  refine (acc_read xs4 _).trans ?_
  congr 1
  refine Finset.sum_congr rfl (fun p _ => ?_)
  refine Eq.trans ?_ (acc_sitofp_bit _)
  show ((((IntOp.andi (IntOp.xori (Ideal.cmp .oeq (labCol x2 (ix2 p 0)) Cert.Rela.z0) 1#1)
      (Ideal.cmp .olt (scoreCol x0 x1 x2 x3 x4 x5 x6 x7 x8 (ix2 p 0)) Cert.Rela.half)).setWidth 32).toInt : ℝ) : EReal) = _
  rw [labCol_apply]
  rfl

/-! ## The first point's reset words: the zero word, which denotes 0 -/

theorem zero8 : (k0_pay8 (F := Ideal)) (ix2 0 0) = 0 := by
  unfold k0_pay8
  rw [shapeCast_self]
  exact Cert.Rela.Consts.zero_eq

theorem zero9 : (k0_pay9 (F := Ideal)) (ix2 0 0) = 0 := by
  unfold k0_pay9
  rw [shapeCast_self]
  exact Cert.Rela.Consts.zero_eq

theorem zero10 : (k0_pay10 (F := Ideal)) (ix2 0 0) = 0 := by
  unfold k0_pay10
  rw [shapeCast_self]
  exact Cert.Rela.Consts.zero_eq

theorem zero11 : (k0_pay11 (F := Ideal)) (ix2 0 0) = 0 := by
  unfold k0_pay11
  rw [shapeCast_self]
  exact Cert.Rela.Consts.zero_eq

theorem zero12 : (k0_pay12 (F := Ideal)) (ix2 0 0) = 0 := by
  unfold k0_pay12
  rw [shapeCast_self]
  exact Cert.Rela.Consts.zero_eq

/-! ## The last point's four results: quotients of the held numbers -/

/-- The loss sum over the row count. -/
theorem pay4_apply (v : Vec Ideal S1x1 .f32) : k0_pay4 v (ix2 0 0) = Ideal.div (v (ix2 0 0)) Cert.Rela.rows := rfl

theorem pay5_apply (a b : Vec Ideal S1x1 .f32) : k0_pay5 a b (ix2 0 0) = Ideal.div (a (ix2 0 0)) (b (ix2 0 0)) := rfl

theorem pay6_apply (a b : Vec Ideal S1x1 .f32) : k0_pay6 a b (ix2 0 0) = Ideal.div (a (ix2 0 0)) (b (ix2 0 0)) := rfl

theorem pay7_apply (a b c d : Vec Ideal S1x1 .f32) : k0_pay7 a b c d (ix2 0 0) = Ideal.div (a (ix2 0 0) + b (ix2 0 0)) (c (ix2 0 0) + d (ix2 0 0)) := rfl

end Cert.KernelIdeal.KV
end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.KRows.lean ====
/-
  The kernel's point-by-point recursion, summed. A block's row `p` at point `t` is row `1024 t + p` of the arrays, so the
  block's score column is the specification's score of that row, and each accumulator after point `n` is the sum of its
  per-row quantity over the rows of blocks `0 … n`; after the last point that is the sum over all 131072 rows.
-/
import proofs.«166331_j32547262169374_1_alg».proof.Proof.KArrays
import proofs.«166331_j32547262169374_1_alg».proof.Proof.KPayScore
import proofs.«166331_j32547262169374_1_alg».proof.Proof.KPayAcc
import proofs.«166331_j32547262169374_1_alg».proof.Proof.LibBlockSum

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen Cert.KernelIdeal.GenP

variable (m : (ℓ : Loc nD τ sig) → Buf (Elt Ideal) ℓ)

/-! ## The nine argument arrays on a core -/

abbrev A0 (c : Dev nD) : Cert.Rela.SRx300.Idx → EReal := m ((c : Thread nD τ).loc main_arg0)
abbrev A1 (c : Dev nD) : Cert.Rela.SRx300.Idx → EReal := m ((c : Thread nD τ).loc main_arg1)
abbrev A2 (c : Dev nD) : Cert.Rela.SRx15.Idx → EReal := m ((c : Thread nD τ).loc main_arg2)
abbrev A3 (c : Dev nD) : Cert.Rela.S8x1.Idx → EReal := m ((c : Thread nD τ).loc main_arg3)
abbrev A4 (c : Dev nD) : Cert.Rela.S1.Idx → EReal := m ((c : Thread nD τ).loc main_arg4)
abbrev A5 (c : Dev nD) : Cert.Rela.S600x300.Idx → EReal := m ((c : Thread nD τ).loc main_arg5)
abbrev A6 (c : Dev nD) : Cert.Rela.S300.Idx → EReal := m ((c : Thread nD τ).loc main_arg6)
abbrev A7 (c : Dev nD) : Cert.Rela.S300x1.Idx → EReal := m ((c : Thread nD τ).loc main_arg7)
abbrev A8 (c : Dev nD) : Cert.Rela.S1.Idx → EReal := m ((c : Thread nD τ).loc main_arg8)

/-! ## A block's row is a row of the arrays -/

section rows

variable (c : Dev nD) (t : Fin cfg0.N)

theorem row0 (p : Fin 1024) (r : Fin 131072) (hr : r.val = 1024 * t.val + p.val) : (fun k => b0 m c t (ix2 p k)) = fun k => A0 m c (ix2 r k) :=
  funext fun k => (blk0_apply m c t p k r hr).trans (congrFun (V_main_arg0 m c) _)
theorem row1 (p : Fin 1024) (r : Fin 131072) (hr : r.val = 1024 * t.val + p.val) : (fun k => b1 m c t (ix2 p k)) = fun k => A1 m c (ix2 r k) :=
  funext fun k => (blk1_apply m c t p k r hr).trans (congrFun (V_main_arg1 m c) _)
theorem row2 (p : Fin 1024) (r : Fin 131072) (hr : r.val = 1024 * t.val + p.val) : (fun k => b2 m c t (ix2 p k)) = Cert.Rela.boxRow (A2 m c) r :=
  funext fun k => (blk2_apply m c t p k r hr).trans (congrFun (V_main_arg2 m c) _)
theorem arr3_eq : (fun k j => b3 m c t (ix2 k j)) = fun k j => A5 m c (ix2 k j) :=
  funext fun k => funext fun j => (blk3_apply m c t k j).trans (by rw [V_v0]; rfl)
theorem arr4_eq : (fun j => b4 m c t (ix2 0 j)) = fun j => A6 m c (ix1 j) :=
  funext fun j => (blk4_apply m c t 0 j).trans (by rw [V_v2]; exact shapeCast_a_1a_apply _ _ 0 j)
theorem arr5_eq : (fun j => b5 m c t (ix2 j 0)) = fun j => A7 m c (ix2 j 0) :=
  funext fun j => (blk5_apply m c t j 0).trans (by rw [V_v1]; rfl)
theorem arr6_eq : b6 m c t (ix2 0 0) = A8 m c (ix1 0) :=
  (blk6_apply m c t 0 0).trans (by rw [V_v3]; exact shapeCast_a_1a_apply _ _ 0 0)
theorem arr7_eq : (fun k => b7 m c t (ix2 k 0)) = fun k => A3 m c (ix2 k 0) :=
  funext fun k => (blk7_apply m c t k 0).trans (congrFun (V_main_arg3 m c) _)
theorem arr8_eq : b8 m c t (ix2 0 0) = A4 m c (ix1 0) :=
  (blk8_apply m c t 0 0).trans (by rw [V_v4]; exact shapeCast_a_1a_apply _ _ 0 0)

/-- The block's score at row `p` is the specification's score of row `1024 t + p`. -/
theorem score_row (p : Fin 1024) (r : Fin 131072) (hr : r.val = 1024 * t.val + p.val) : scoreCol (b0 m c t) (b1 m c t) (b2 m c t) (b3 m c t) (b4 m c t) (b5 m c t) (b6 m c t) (b7 m c t) (b8 m c t) (ix2 p 0) = Cert.Rela.scoreAt (A0 m c) (A1 m c) (A2 m c) (A3 m c) (A4 m c) (A5 m c) (A6 m c) (A7 m c) (A8 m c) r := by
  rw [scoreCol_apply]
  unfold Cert.Rela.scoreAt
  rw [row0 m c t p r hr, row1 m c t p r hr, row2 m c t p r hr, arr3_eq m c t, arr4_eq m c t, arr5_eq m c t, arr6_eq m c t, arr7_eq m c t, arr8_eq m c t]

end rows

/-! ## Sums over blocks of rows -/

/-- A function of the rows, continued by zero past the last row, so that it can be summed block by block. -/
def extN (f : Fin 131072 → EReal) : ℕ → EReal := fun n => if h : n < 131072 then f ⟨n, h⟩ else 0

theorem extN_of_lt (f : Fin 131072 → EReal) (r : Fin 131072) (n : ℕ) (hn : r.val = n) : extN f n = f r := by
  subst hn; unfold extN; rw [dif_pos r.isLt]

/-- The 128 blocks of 1024 rows are all the rows. -/
theorem blocks_sum (f : Fin 131072 → EReal) :
    ∑ s ∈ Finset.range 128, ∑ p : Fin 1024, extN f (1024 * s + p.val) = ∑ r : Fin 131072, f r := by
  rw [BlockSum.sum_blocks 1024 128 (extN f)]
  show ∑ k : Fin 131072, extN f k.val = _
  exact Finset.sum_congr rfl fun k _ => extN_of_lt f k k.val rfl

/-- A quantity that starts as the first block's sum and grows by each next block's sum is the sum over the blocks so far. -/
theorem grows (g : (n : ℕ) → n < cfg0.N → EReal) (f : ℕ → EReal)
    (h0 : ∀ h, g 0 h = ∑ p : Fin 1024, f (1024 * 0 + p.val))
    (hs : ∀ n h, g (n + 1) h = g n (Nat.lt_of_succ_lt h) + ∑ p : Fin 1024, f (1024 * (n + 1) + p.val)) :
    ∀ n h, g n h = ∑ s ∈ Finset.range (n + 1), ∑ p : Fin 1024, f (1024 * s + p.val)
  | 0, h => by rw [h0 h, Finset.sum_range_one]
  | n + 1, h => by rw [hs n h, grows g f h0 hs n (Nat.lt_of_succ_lt h), Finset.sum_range_succ _ (n + 1)]

/-! ## The five accumulators after each point -/

section sums

variable (c : Dev nD)

/-- Row `r`'s sign-changed cross-entropy term. -/
abbrev lossF : Fin 131072 → EReal := fun r => Cert.Rela.z0 - Cert.Rela.termAt (A0 m c) (A1 m c) (A2 m c) (A3 m c) (A4 m c) (A5 m c) (A6 m c) (A7 m c) (A8 m c) r
abbrev posF : Fin 131072 → EReal := fun r => Cert.Rela.cnt (Cert.Rela.isPos (Cert.Rela.boxRow (A2 m c) r))
abbrev negF : Fin 131072 → EReal := fun r => Cert.Rela.cnt (Cert.Rela.isNeg (Cert.Rela.boxRow (A2 m c) r))
abbrev negHitF : Fin 131072 → EReal := fun r =>
  Cert.Rela.cnt (Cert.Rela.negHit (Cert.Rela.boxRow (A2 m c) r) (Cert.Rela.scoreAt (A0 m c) (A1 m c) (A2 m c) (A3 m c) (A4 m c) (A5 m c) (A6 m c) (A7 m c) (A8 m c) r))
abbrev posHitF : Fin 131072 → EReal := fun r =>
  Cert.Rela.cnt (Cert.Rela.posHit (Cert.Rela.boxRow (A2 m c) r) (Cert.Rela.scoreAt (A0 m c) (A1 m c) (A2 m c) (A3 m c) (A4 m c) (A5 m c) (A6 m c) (A7 m c) (A8 m c) r))

/-- The row of block `t` at position `p`, as a row of the arrays. -/
theorem row_lt (t : Fin cfg0.N) (p : Fin 1024) : 1024 * t.val + p.val < 131072 := by
  have := lt_of_lt_of_eq t.isLt (show cfg0.N = 128 from N_0); have := p.isLt; omega

theorem loss_term (t : Fin cfg0.N) (p : Fin 1024) :
    Cert.Rela.z0 - Cert.Rela.term (fun k => b2 m c t (ix2 p k)) (scoreCol (b0 m c t) (b1 m c t) (b2 m c t) (b3 m c t) (b4 m c t) (b5 m c t) (b6 m c t) (b7 m c t) (b8 m c t) (ix2 p 0))
      = extN (lossF m c) (1024 * t.val + p.val) := by
  rw [extN_of_lt _ ⟨1024 * t.val + p.val, row_lt t p⟩ _ rfl, row2 m c t p ⟨_, row_lt t p⟩ rfl, score_row m c t p ⟨_, row_lt t p⟩ rfl]
  rfl

theorem pos_term (t : Fin cfg0.N) (p : Fin 1024) :
    Cert.Rela.cnt (Cert.Rela.isPos (fun k => b2 m c t (ix2 p k))) = extN (posF m c) (1024 * t.val + p.val) := by
  rw [extN_of_lt _ ⟨1024 * t.val + p.val, row_lt t p⟩ _ rfl, row2 m c t p ⟨_, row_lt t p⟩ rfl]

theorem neg_term (t : Fin cfg0.N) (p : Fin 1024) :
    Cert.Rela.cnt (Cert.Rela.isNeg (fun k => b2 m c t (ix2 p k))) = extN (negF m c) (1024 * t.val + p.val) := by
  rw [extN_of_lt _ ⟨1024 * t.val + p.val, row_lt t p⟩ _ rfl, row2 m c t p ⟨_, row_lt t p⟩ rfl]

theorem negHit_term (t : Fin cfg0.N) (p : Fin 1024) :
    Cert.Rela.cnt (Cert.Rela.negHit (fun k => b2 m c t (ix2 p k)) (scoreCol (b0 m c t) (b1 m c t) (b2 m c t) (b3 m c t) (b4 m c t) (b5 m c t) (b6 m c t) (b7 m c t) (b8 m c t) (ix2 p 0)))
      = extN (negHitF m c) (1024 * t.val + p.val) := by
  rw [extN_of_lt _ ⟨1024 * t.val + p.val, row_lt t p⟩ _ rfl, row2 m c t p ⟨_, row_lt t p⟩ rfl, score_row m c t p ⟨_, row_lt t p⟩ rfl]

theorem posHit_term (t : Fin cfg0.N) (p : Fin 1024) :
    Cert.Rela.cnt (Cert.Rela.posHit (fun k => b2 m c t (ix2 p k)) (scoreCol (b0 m c t) (b1 m c t) (b2 m c t) (b3 m c t) (b4 m c t) (b5 m c t) (b6 m c t) (b7 m c t) (b8 m c t) (ix2 p 0)))
      = extN (posHitF m c) (1024 * t.val + p.val) := by
  rw [extN_of_lt _ ⟨1024 * t.val + p.val, row_lt t p⟩ _ rfl, row2 m c t p ⟨_, row_lt t p⟩ rfl, score_row m c t p ⟨_, row_lt t p⟩ rfl]

/-- After point `n` each accumulator is its per-row quantity summed over the rows of blocks `0 … n`. -/
theorem accs_sums (n : ℕ) (h : n < cfg0.N) :
    (accs m c n h).1 (ix2 0 0) = ∑ s ∈ Finset.range (n + 1), ∑ p : Fin 1024, extN (lossF m c) (1024 * s + p.val)
    ∧ (accs m c n h).2.1 (ix2 0 0) = ∑ s ∈ Finset.range (n + 1), ∑ p : Fin 1024, extN (posF m c) (1024 * s + p.val)
    ∧ (accs m c n h).2.2.1 (ix2 0 0) = ∑ s ∈ Finset.range (n + 1), ∑ p : Fin 1024, extN (negF m c) (1024 * s + p.val)
    ∧ (accs m c n h).2.2.2.1 (ix2 0 0) = ∑ s ∈ Finset.range (n + 1), ∑ p : Fin 1024, extN (negHitF m c) (1024 * s + p.val)
    ∧ (accs m c n h).2.2.2.2 (ix2 0 0) = ∑ s ∈ Finset.range (n + 1), ∑ p : Fin 1024, extN (posHitF m c) (1024 * s + p.val) := by
  refine ⟨grows (fun n h => (accs m c n h).1 (ix2 0 0)) _ ?_ ?_ n h, grows (fun n h => (accs m c n h).2.1 (ix2 0 0)) _ ?_ ?_ n h,
    grows (fun n h => (accs m c n h).2.2.1 (ix2 0 0)) _ ?_ ?_ n h, grows (fun n h => (accs m c n h).2.2.2.1 (ix2 0 0)) _ ?_ ?_ n h,
    grows (fun n h => (accs m c n h).2.2.2.2 (ix2 0 0)) _ ?_ ?_ n h⟩
  · intro h; show lossAcc _ _ _ _ _ _ _ _ _ _ (ix2 0 0) = _
    rw [lossAcc_apply, zero8, zero_add]; exact Finset.sum_congr rfl fun p _ => loss_term m c ⟨0, h⟩ p
  · intro n h; show lossAcc _ _ _ _ _ _ _ _ _ _ (ix2 0 0) = _
    rw [lossAcc_apply]; exact congrArg _ (Finset.sum_congr rfl fun p _ => loss_term m c ⟨n + 1, h⟩ p)
  · intro h; show posAcc _ _ (ix2 0 0) = _
    rw [posAcc_apply, zero9, zero_add]; exact Finset.sum_congr rfl fun p _ => pos_term m c ⟨0, h⟩ p
  · intro n h; show posAcc _ _ (ix2 0 0) = _
    rw [posAcc_apply]; exact congrArg _ (Finset.sum_congr rfl fun p _ => pos_term m c ⟨n + 1, h⟩ p)
  · intro h; show negAcc _ _ (ix2 0 0) = _
    rw [negAcc_apply, zero10, zero_add]; exact Finset.sum_congr rfl fun p _ => neg_term m c ⟨0, h⟩ p
  · intro n h; show negAcc _ _ (ix2 0 0) = _
    rw [negAcc_apply]; exact congrArg _ (Finset.sum_congr rfl fun p _ => neg_term m c ⟨n + 1, h⟩ p)
  · intro h; show negHitAcc _ _ _ _ _ _ _ _ _ _ (ix2 0 0) = _
    rw [negHitAcc_apply, zero11, zero_add]; exact Finset.sum_congr rfl fun p _ => negHit_term m c ⟨0, h⟩ p
  · intro n h; show negHitAcc _ _ _ _ _ _ _ _ _ _ (ix2 0 0) = _
    rw [negHitAcc_apply]; exact congrArg _ (Finset.sum_congr rfl fun p _ => negHit_term m c ⟨n + 1, h⟩ p)
  · intro h; show posHitAcc _ _ _ _ _ _ _ _ _ _ (ix2 0 0) = _
    rw [posHitAcc_apply, zero12, zero_add]; exact Finset.sum_congr rfl fun p _ => posHit_term m c ⟨0, h⟩ p
  · intro n h; show posHitAcc _ _ _ _ _ _ _ _ _ _ (ix2 0 0) = _
    rw [posHitAcc_apply]; exact congrArg _ (Finset.sum_congr rfl fun p _ => posHit_term m c ⟨n + 1, h⟩ p)

end sums

end Cert.KernelIdeal.KV

end
-- ==== Proof.KFinal.lean ====
/-
  The kernel's five result arrays after the run. The score array is tiled by the 128 output blocks, and block `t` is the
  specification's scores of rows `1024 t … 1024 t + 1023`, so the array ends at the specification's score column. Each
  of the four one-word results is written back once, after the last point, with the quotient of the accumulators, which
  by then are the sums over all 131072 rows; the host then recasts each one-by-one matrix to a scalar.
-/
import proofs.«166331_j32547262169374_1_alg».proof.Proof.KRows

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen Cert.KernelIdeal.GenP

variable (m : (ℓ : Loc nD τ sig) → Buf (Elt Ideal) ℓ)

/-! ## The score array -/

/-- What point `t` writes back of the score window is block `t` of the specification's score column. -/
theorem flushed9 (c : Dev nD) (t : Fin cfg0.N) :
    (dats m 0 c).flushed 9 t = ((cfg0.win 9).blk t).view.read (Elt Ideal) (Cert.Rela.scoresG (A0 m c) (A1 m c) (A2 m c) (A3 m c) (A4 m c) (A5 m c) (A6 m c) (A7 m c) (A8 m c)) := by
  show (cfg0.win 9).cut (grid0.coords t) ((dats m 0 c).after 9 t) = _
  rw [after0_9, head9]
  funext j
  show scoreCol (b0 m c t) (b1 m c t) (b2 m c t) (b3 m c t) (b4 m c t) (b5 m c t) (b6 m c t) (b7 m c t) (b8 m c t) j = Cert.Rela.scoresG (A0 m c) (A1 m c) (A2 m c) (A3 m c) (A4 m c) (A5 m c) (A6 m c) (A7 m c) (A8 m c) (((cfg0.win 9).blk t).view.emb j)
  obtain ⟨p, q, rfl⟩ : ∃ (p : Fin 1024) (q : Fin 1), j = ix2 p q := ⟨j 0, j 1, eq_ix2 j⟩
  obtain rfl : q = 0 := Subsingleton.elim _ _
  rw [score_row m c t p ⟨1024 * t.val + p.val, row_lt t p⟩ rfl]
  show Cert.Rela.scoreAt (A0 m c) (A1 m c) (A2 m c) (A3 m c) (A4 m c) (A5 m c) (A6 m c) (A7 m c) (A8 m c) _ = Cert.Rela.scoreAt (A0 m c) (A1 m c) (A2 m c) (A3 m c) (A4 m c) (A5 m c) (A6 m c) (A7 m c) (A8 m c) ((((cfg0.win 9).blk t).view.emb (ix2 p 0)) 0)
  congr 1
  apply Fin.ext
  show 1024 * t.val + p.val = win0_9.index t 0 * 1024 + 1 * p.val
  rw [(idx_facts t).2.2.2.2.2.2.2.2.2.2.2.2.2.2.2.2.2.2.1]; omega

/-- An index of the score array is in point `t`'s block iff its row is among the block's 1024 rows. -/
theorem mem_blk9 (t : Fin cfg0.N) (i : S131072x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v5_0).slice (win0_9.rect t)).set ↔ _
  rw [View.set_slice_whole, Rect.mem_set_unit]
  exact Iff.rfl

/-- Every row is in some block: row `r` in block `r / 1024`. -/
theorem cover9 (i : S131072x1.Idx) : ∃ t : Fin cfg0.N, (cfg0.win 9).flush t = true ∧ i ∈ ((cfg0.win 9).blk t).view.set := by
  have hi0 : (i 0).val < 131072 := (i 0).isLt
  have hi1 : (i 1).val < 1 := (i 1).isLt
  have hN : cfg0.N = 128 := N_0
  let t : Fin cfg0.N := ⟨(i 0).val / 1024, by rw [hN]; omega⟩
  refine ⟨t, flush0_9 t, ?_⟩
  rw [mem_blk9]
  intro a
  match a with
  | ⟨0, _⟩ =>
    show win0_9.index t 0 * 1024 ≤ (i 0).val ∧ (i 0).val < win0_9.index t 0 * 1024 + 1024
    rw [(idx_facts t).2.2.2.2.2.2.2.2.2.2.2.2.2.2.2.2.2.2.1]; show (i 0).val / 1024 * 1024 ≤ (i 0).val ∧ (i 0).val < (i 0).val / 1024 * 1024 + 1024; omega
  | ⟨1, _⟩ =>
    show win0_9.index t 1 * 1 ≤ (i 1).val ∧ (i 1).val < win0_9.index t 1 * 1 + 1
    rw [(idx_facts t).2.2.2.2.2.2.2.2.2.2.2.2.2.2.2.2.2.2.2]; omega

/-- The score array after the run. -/
theorem final9 (c : Dev nD) : (dats m 0 c).arrAt 9 cfg0.N = Cert.Rela.scoresG (A0 m c) (A1 m c) (A2 m c) (A3 m c) (A4 m c) (A5 m c) (A6 m c) (A7 m c) (A8 m c) :=
  (dats m 0 c).arrAt_eq_of_cover 9 _ (fun t _ => flushed9 m c t) (cover9)

/-! ## The four one-word results -/

/-- After the last point the five accumulators hold the sums over all rows. -/
theorem last_sums (c : Dev nD) (t : Fin cfg0.N) (ht : t.val = 127) :
    (outsAt0 m c t.val t.isLt).2.2.2.2.2.1 (ix2 0 0) = ∑ r : Fin 131072, lossF m c r
    ∧ (outsAt0 m c t.val t.isLt).2.2.2.2.2.2.1 (ix2 0 0) = ∑ r : Fin 131072, posF m c r
    ∧ (outsAt0 m c t.val t.isLt).2.2.2.2.2.2.2.1 (ix2 0 0) = ∑ r : Fin 131072, negF m c r
    ∧ (outsAt0 m c t.val t.isLt).2.2.2.2.2.2.2.2.1 (ix2 0 0) = ∑ r : Fin 131072, negHitF m c r
    ∧ (outsAt0 m c t.val t.isLt).2.2.2.2.2.2.2.2.2 (ix2 0 0) = ∑ r : Fin 131072, posHitF m c r := by
  have e := tail_eq m c t.val t.isLt
  obtain ⟨s0, s1, s2, s3, s4⟩ := accs_sums m c t.val t.isLt
  have hr : ∀ f : Fin 131072 → EReal,
      ∑ s ∈ Finset.range (t.val + 1), ∑ p : Fin 1024, extN f (1024 * s + p.val) = ∑ r : Fin 131072, f r := fun f => by
    rw [ht]; exact blocks_sum f
  refine ⟨?_, ?_, ?_, ?_, ?_⟩
  · rw [show (outsAt0 m c t.val t.isLt).2.2.2.2.2.1 = (accs m c t.val t.isLt).1 from congrArg (·.1) e, s0, hr]
  · rw [show (outsAt0 m c t.val t.isLt).2.2.2.2.2.2.1 = (accs m c t.val t.isLt).2.1 from congrArg (·.2.1) e, s1, hr]
  · rw [show (outsAt0 m c t.val t.isLt).2.2.2.2.2.2.2.1 = (accs m c t.val t.isLt).2.2.1 from congrArg (·.2.2.1) e, s2, hr]
  · rw [show (outsAt0 m c t.val t.isLt).2.2.2.2.2.2.2.2.1 = (accs m c t.val t.isLt).2.2.2.1 from congrArg (·.2.2.2.1) e, s3, hr]
  · rw [show (outsAt0 m c t.val t.isLt).2.2.2.2.2.2.2.2.2 = (accs m c t.val t.isLt).2.2.2.2 from congrArg (·.2.2.2.2) e, s4, hr]

/-- A one-word block of result window 10 whose word is `v` is the constant array `v`'s block. -/
theorem word10 (t : Fin cfg0.N) (X : Vec Ideal S1x1 .f32) (v : EReal) (h : X (ix2 0 0) = v) :
    (cfg0.win 10).cut (grid0.coords t) X = ((cfg0.win 10).blk t).view.read (Elt Ideal) (fun _ => v) := by
  funext j
  obtain rfl : j = ix2 0 0 := funext fun a => match a with
    | ⟨0, _⟩ => Fin.ext (by have h1 : (j 0).val < 1 := (j 0).isLt; show (j 0).val = 0; omega)
    | ⟨1, _⟩ => Fin.ext (by have h1 : (j 1).val < 1 := (j 1).isLt; show (j 1).val = 0; omega)
  exact h

/-- What the one write-back of result window 10 writes: the loss. -/
theorem flushed10 (c : Dev nD) (t : Fin cfg0.N) (hf : (cfg0.win 10).flush t = true) :
    (dats m 0 c).flushed 10 t = ((cfg0.win 10).blk t).view.read (Elt Ideal) (fun _ => Cert.Rela.lossG (A0 m c) (A1 m c) (A2 m c) (A3 m c) (A4 m c) (A5 m c) (A6 m c) (A7 m c) (A8 m c) ix0) := by
  have hN : t.val < 128 := lt_of_lt_of_eq t.isLt (show cfg0.N = 128 from N_0)
  have h127 : t.val % 128 = 127 := (flush0_10 t).mp hf
  have h0 : ¬t.val % 128 = 0 := by omega
  have ht : t.val = 127 := by omega
  obtain ⟨e0, e1, e2, e3, e4⟩ := last_sums m c t ht
  show (cfg0.win 10).cut (grid0.coords t) ((dats m 0 c).after 10 t) = _
  rw [after0_10, (finals m c t h0 h127).1]
  refine word10 t _ _ ?_
  rw [pay4_apply, e0]
  rfl

/-- An index of result window 10's one-word array is in a point's block iff it is the word. -/
theorem mem_blk10 (t : Fin cfg0.N) (i : S1x1.Idx) :
    i ∈ ((cfg0.win 10).blk t).view.set ↔ ∀ a : Fin 2, win0_10.index t a * S1x1.size a ≤ (i a).val ∧ (i a).val < win0_10.index t a * S1x1.size a + S1x1.size a := by
  show i ∈ ((View.whole main_v5_1).slice (win0_10.rect t)).set ↔ _
  rw [View.set_slice_whole, Rect.mem_set_unit]
  exact Iff.rfl

/-- The one-word array of result window 10 after the run. -/
theorem final10 (c : Dev nD) : (dats m 0 c).arrAt 10 cfg0.N = fun _ => Cert.Rela.lossG (A0 m c) (A1 m c) (A2 m c) (A3 m c) (A4 m c) (A5 m c) (A6 m c) (A7 m c) (A8 m c) ix0 :=
  (dats m 0 c).arrAt_eq_of_cover 10 _ (fun t hf => flushed10 m c t hf) fun i => by
    have hlt : 127 < cfg0.N := by show 127 < grid0.N; rw [N_0]; omega
    refine ⟨⟨127, hlt⟩, (flush0_10 _).mpr rfl, ?_⟩
    rw [mem_blk10]
    intro a
    have h0 : (i 0).val < 1 := (i 0).isLt
    have h1 : (i 1).val < 1 := (i 1).isLt
    match a with
    | ⟨0, _⟩ =>
      show win0_10.index ⟨127, hlt⟩ 0 * 1 ≤ (i 0).val ∧ (i 0).val < win0_10.index ⟨127, hlt⟩ 0 * 1 + 1
      rw [show win0_10.index (⟨127, hlt⟩ : Fin cfg0.N) 0 = 0 from rfl]; omega
    | ⟨1, _⟩ =>
      show win0_10.index ⟨127, hlt⟩ 1 * 1 ≤ (i 1).val ∧ (i 1).val < win0_10.index ⟨127, hlt⟩ 1 * 1 + 1
      rw [show win0_10.index (⟨127, hlt⟩ : Fin cfg0.N) 1 = 0 from rfl]; omega

/-- A one-word block of result window 11 whose word is `v` is the constant array `v`'s block. -/
theorem word11 (t : Fin cfg0.N) (X : Vec Ideal S1x1 .f32) (v : EReal) (h : X (ix2 0 0) = v) :
    (cfg0.win 11).cut (grid0.coords t) X = ((cfg0.win 11).blk t).view.read (Elt Ideal) (fun _ => v) := by
  funext j
  obtain rfl : j = ix2 0 0 := funext fun a => match a with
    | ⟨0, _⟩ => Fin.ext (by have h1 : (j 0).val < 1 := (j 0).isLt; show (j 0).val = 0; omega)
    | ⟨1, _⟩ => Fin.ext (by have h1 : (j 1).val < 1 := (j 1).isLt; show (j 1).val = 0; omega)
  exact h

/-- What the one write-back of result window 11 writes: hits among label-zero rows over rows of nonzero label. -/
theorem flushed11 (c : Dev nD) (t : Fin cfg0.N) (hf : (cfg0.win 11).flush t = true) :
    (dats m 0 c).flushed 11 t = ((cfg0.win 11).blk t).view.read (Elt Ideal) (fun _ => Cert.Rela.rposG (A0 m c) (A1 m c) (A2 m c) (A3 m c) (A4 m c) (A5 m c) (A6 m c) (A7 m c) (A8 m c) ix0) := by
  have hN : t.val < 128 := lt_of_lt_of_eq t.isLt (show cfg0.N = 128 from N_0)
  have h127 : t.val % 128 = 127 := (flush0_11 t).mp hf
  have h0 : ¬t.val % 128 = 0 := by omega
  have ht : t.val = 127 := by omega
  obtain ⟨e0, e1, e2, e3, e4⟩ := last_sums m c t ht
  show (cfg0.win 11).cut (grid0.coords t) ((dats m 0 c).after 11 t) = _
  rw [after0_11, (finals m c t h0 h127).2.1]
  refine word11 t _ _ ?_
  rw [pay5_apply, e3, e1]
  rfl

/-- An index of result window 11's one-word array is in a point's block iff it is the word. -/
theorem mem_blk11 (t : Fin cfg0.N) (i : S1x1.Idx) :
    i ∈ ((cfg0.win 11).blk t).view.set ↔ ∀ a : Fin 2, win0_11.index t a * S1x1.size a ≤ (i a).val ∧ (i a).val < win0_11.index t a * S1x1.size a + S1x1.size a := by
  show i ∈ ((View.whole main_v5_2).slice (win0_11.rect t)).set ↔ _
  rw [View.set_slice_whole, Rect.mem_set_unit]
  exact Iff.rfl

/-- The one-word array of result window 11 after the run. -/
theorem final11 (c : Dev nD) : (dats m 0 c).arrAt 11 cfg0.N = fun _ => Cert.Rela.rposG (A0 m c) (A1 m c) (A2 m c) (A3 m c) (A4 m c) (A5 m c) (A6 m c) (A7 m c) (A8 m c) ix0 :=
  (dats m 0 c).arrAt_eq_of_cover 11 _ (fun t hf => flushed11 m c t hf) fun i => by
    have hlt : 127 < cfg0.N := by show 127 < grid0.N; rw [N_0]; omega
    refine ⟨⟨127, hlt⟩, (flush0_11 _).mpr rfl, ?_⟩
    rw [mem_blk11]
    intro a
    have h0 : (i 0).val < 1 := (i 0).isLt
    have h1 : (i 1).val < 1 := (i 1).isLt
    match a with
    | ⟨0, _⟩ =>
      show win0_11.index ⟨127, hlt⟩ 0 * 1 ≤ (i 0).val ∧ (i 0).val < win0_11.index ⟨127, hlt⟩ 0 * 1 + 1
      rw [show win0_11.index (⟨127, hlt⟩ : Fin cfg0.N) 0 = 0 from rfl]; omega
    | ⟨1, _⟩ =>
      show win0_11.index ⟨127, hlt⟩ 1 * 1 ≤ (i 1).val ∧ (i 1).val < win0_11.index ⟨127, hlt⟩ 1 * 1 + 1
      rw [show win0_11.index (⟨127, hlt⟩ : Fin cfg0.N) 1 = 0 from rfl]; omega

/-- A one-word block of result window 12 whose word is `v` is the constant array `v`'s block. -/
theorem word12 (t : Fin cfg0.N) (X : Vec Ideal S1x1 .f32) (v : EReal) (h : X (ix2 0 0) = v) :
    (cfg0.win 12).cut (grid0.coords t) X = ((cfg0.win 12).blk t).view.read (Elt Ideal) (fun _ => v) := by
  funext j
  obtain rfl : j = ix2 0 0 := funext fun a => match a with
    | ⟨0, _⟩ => Fin.ext (by have h1 : (j 0).val < 1 := (j 0).isLt; show (j 0).val = 0; omega)
    | ⟨1, _⟩ => Fin.ext (by have h1 : (j 1).val < 1 := (j 1).isLt; show (j 1).val = 0; omega)
  exact h

/-- What the one write-back of result window 12 writes: hits among rows of nonzero label over label-zero rows. -/
theorem flushed12 (c : Dev nD) (t : Fin cfg0.N) (hf : (cfg0.win 12).flush t = true) :
    (dats m 0 c).flushed 12 t = ((cfg0.win 12).blk t).view.read (Elt Ideal) (fun _ => Cert.Rela.rnegG (A0 m c) (A1 m c) (A2 m c) (A3 m c) (A4 m c) (A5 m c) (A6 m c) (A7 m c) (A8 m c) ix0) := by
  have hN : t.val < 128 := lt_of_lt_of_eq t.isLt (show cfg0.N = 128 from N_0)
  have h127 : t.val % 128 = 127 := (flush0_12 t).mp hf
  have h0 : ¬t.val % 128 = 0 := by omega
  have ht : t.val = 127 := by omega
  obtain ⟨e0, e1, e2, e3, e4⟩ := last_sums m c t ht
  show (cfg0.win 12).cut (grid0.coords t) ((dats m 0 c).after 12 t) = _
  rw [after0_12, (finals m c t h0 h127).2.2.1]
  refine word12 t _ _ ?_
  rw [pay6_apply, e4, e2]
  rfl

/-- An index of result window 12's one-word array is in a point's block iff it is the word. -/
theorem mem_blk12 (t : Fin cfg0.N) (i : S1x1.Idx) :
    i ∈ ((cfg0.win 12).blk t).view.set ↔ ∀ a : Fin 2, win0_12.index t a * S1x1.size a ≤ (i a).val ∧ (i a).val < win0_12.index t a * S1x1.size a + S1x1.size a := by
  show i ∈ ((View.whole main_v5_3).slice (win0_12.rect t)).set ↔ _
  rw [View.set_slice_whole, Rect.mem_set_unit]
  exact Iff.rfl

/-- The one-word array of result window 12 after the run. -/
theorem final12 (c : Dev nD) : (dats m 0 c).arrAt 12 cfg0.N = fun _ => Cert.Rela.rnegG (A0 m c) (A1 m c) (A2 m c) (A3 m c) (A4 m c) (A5 m c) (A6 m c) (A7 m c) (A8 m c) ix0 :=
  (dats m 0 c).arrAt_eq_of_cover 12 _ (fun t hf => flushed12 m c t hf) fun i => by
    have hlt : 127 < cfg0.N := by show 127 < grid0.N; rw [N_0]; omega
    refine ⟨⟨127, hlt⟩, (flush0_12 _).mpr rfl, ?_⟩
    rw [mem_blk12]
    intro a
    have h0 : (i 0).val < 1 := (i 0).isLt
    have h1 : (i 1).val < 1 := (i 1).isLt
    match a with
    | ⟨0, _⟩ =>
      show win0_12.index ⟨127, hlt⟩ 0 * 1 ≤ (i 0).val ∧ (i 0).val < win0_12.index ⟨127, hlt⟩ 0 * 1 + 1
      rw [show win0_12.index (⟨127, hlt⟩ : Fin cfg0.N) 0 = 0 from rfl]; omega
    | ⟨1, _⟩ =>
      show win0_12.index ⟨127, hlt⟩ 1 * 1 ≤ (i 1).val ∧ (i 1).val < win0_12.index ⟨127, hlt⟩ 1 * 1 + 1
      rw [show win0_12.index (⟨127, hlt⟩ : Fin cfg0.N) 1 = 0 from rfl]; omega

/-- A one-word block of result window 13 whose word is `v` is the constant array `v`'s block. -/
theorem word13 (t : Fin cfg0.N) (X : Vec Ideal S1x1 .f32) (v : EReal) (h : X (ix2 0 0) = v) :
    (cfg0.win 13).cut (grid0.coords t) X = ((cfg0.win 13).blk t).view.read (Elt Ideal) (fun _ => v) := by
  funext j
  obtain rfl : j = ix2 0 0 := funext fun a => match a with
    | ⟨0, _⟩ => Fin.ext (by have h1 : (j 0).val < 1 := (j 0).isLt; show (j 0).val = 0; omega)
    | ⟨1, _⟩ => Fin.ext (by have h1 : (j 1).val < 1 := (j 1).isLt; show (j 1).val = 0; omega)
  exact h

/-- What the one write-back of result window 13 writes: all hits over all rows. -/
theorem flushed13 (c : Dev nD) (t : Fin cfg0.N) (hf : (cfg0.win 13).flush t = true) :
    (dats m 0 c).flushed 13 t = ((cfg0.win 13).blk t).view.read (Elt Ideal) (fun _ => Cert.Rela.rallG (A0 m c) (A1 m c) (A2 m c) (A3 m c) (A4 m c) (A5 m c) (A6 m c) (A7 m c) (A8 m c) ix0) := by
  have hN : t.val < 128 := lt_of_lt_of_eq t.isLt (show cfg0.N = 128 from N_0)
  have h127 : t.val % 128 = 127 := (flush0_13 t).mp hf
  have h0 : ¬t.val % 128 = 0 := by omega
  have ht : t.val = 127 := by omega
  obtain ⟨e0, e1, e2, e3, e4⟩ := last_sums m c t ht
  show (cfg0.win 13).cut (grid0.coords t) ((dats m 0 c).after 13 t) = _
  rw [after0_13, (finals m c t h0 h127).2.2.2]
  refine word13 t _ _ ?_
  rw [pay7_apply, e3, e4, e1, e2]
  rfl

/-- An index of result window 13's one-word array is in a point's block iff it is the word. -/
theorem mem_blk13 (t : Fin cfg0.N) (i : S1x1.Idx) :
    i ∈ ((cfg0.win 13).blk t).view.set ↔ ∀ a : Fin 2, win0_13.index t a * S1x1.size a ≤ (i a).val ∧ (i a).val < win0_13.index t a * S1x1.size a + S1x1.size a := by
  show i ∈ ((View.whole main_v5_4).slice (win0_13.rect t)).set ↔ _
  rw [View.set_slice_whole, Rect.mem_set_unit]
  exact Iff.rfl

/-- The one-word array of result window 13 after the run. -/
theorem final13 (c : Dev nD) : (dats m 0 c).arrAt 13 cfg0.N = fun _ => Cert.Rela.rallG (A0 m c) (A1 m c) (A2 m c) (A3 m c) (A4 m c) (A5 m c) (A6 m c) (A7 m c) (A8 m c) ix0 :=
  (dats m 0 c).arrAt_eq_of_cover 13 _ (fun t hf => flushed13 m c t hf) fun i => by
    have hlt : 127 < cfg0.N := by show 127 < grid0.N; rw [N_0]; omega
    refine ⟨⟨127, hlt⟩, (flush0_13 _).mpr rfl, ?_⟩
    rw [mem_blk13]
    intro a
    have h0 : (i 0).val < 1 := (i 0).isLt
    have h1 : (i 1).val < 1 := (i 1).isLt
    match a with
    | ⟨0, _⟩ =>
      show win0_13.index ⟨127, hlt⟩ 0 * 1 ≤ (i 0).val ∧ (i 0).val < win0_13.index ⟨127, hlt⟩ 0 * 1 + 1
      rw [show win0_13.index (⟨127, hlt⟩ : Fin cfg0.N) 0 = 0 from rfl]; omega
    | ⟨1, _⟩ =>
      show win0_13.index ⟨127, hlt⟩ 1 * 1 ≤ (i 1).val ∧ (i 1).val < win0_13.index ⟨127, hlt⟩ 1 * 1 + 1
      rw [show win0_13.index (⟨127, hlt⟩ : Fin cfg0.N) 1 = 0 from rfl]; omega

end Cert.KernelIdeal.KV

end
-- ==== Proof.KRun.lean ====
/-
  The idealized kernel's run, read: every weakly fair execution ends with the score array at the specification's score
  column, the four scalars at the specification's loss and three quotients, and the nine arguments unchanged. The run
  itself is the generated frame run; what its post names (each window's array after the write-backs, each other buffer
  as the host's lines after the region leave it) is opened by the lemmas of the module before.
-/
import proofs.«166331_j32547262169374_1_alg».proof.Proof.KFinal
import proofs.«166331_j32547262169374_1_alg».proof.Proof.KernelIdealFrameRun
import Idealize.ShloMosaic.Lib.Pipeline.FrameSuffix

set_option maxRecDepth 16384
noncomputable section
open Idealize.ShloMosaic Idealize.ShloMosaic.TcCoe Idealize.SL.Sem Idealize.ShloMosaic.ValueIdx
open Idealize.ShloMosaic.Pipeline (Dat)
namespace Cert.KernelIdeal.KV
open Cert.KernelIdeal Cert.KernelIdeal.Gen Cert.KernelIdeal.GenP
variable (m : (ℓ : Loc nD τ sig) → Buf (Elt Ideal) ℓ)

/-! ## The host's lines after the region: each one-by-one result recast to a scalar -/

theorem tail6 (c : Dev nD) : Pipeline.afterTail₀ cfgs (dats m) 0 (V0 m) [hostOps1] c main_v6 = Cert.Rela.lossG (A0 m c) (A1 m c) (A2 m c) (A3 m c) (A4 m c) (A5 m c) (A6 m c) (A7 m c) (A8 m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v5_1)
      = fun _ => Cert.Rela.lossG (A0 m c) (A1 m c) (A2 m c) (A3 m c) (A4 m c) (A5 m c) (A6 m c) (A7 m c) (A8 m c) ix0 :=
    (Pipeline.withArrays_arr spec0 launch0.win.arr_inj c _ _ 10).trans (final10 m c)
  rw [hw]
  rfl

theorem tail7 (c : Dev nD) : Pipeline.afterTail₀ cfgs (dats m) 0 (V0 m) [hostOps1] c main_v7 = Cert.Rela.rposG (A0 m c) (A1 m c) (A2 m c) (A3 m c) (A4 m c) (A5 m c) (A6 m c) (A7 m c) (A8 m c) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v5_2)
      = fun _ => Cert.Rela.rposG (A0 m c) (A1 m c) (A2 m c) (A3 m c) (A4 m c) (A5 m c) (A6 m c) (A7 m c) (A8 m c) ix0 :=
    (Pipeline.withArrays_arr spec0 launch0.win.arr_inj c _ _ 11).trans (final11 m c)
  rw [hw]
  rfl

theorem tail8 (c : Dev nD) : Pipeline.afterTail₀ cfgs (dats m) 0 (V0 m) [hostOps1] c main_v8 = Cert.Rela.rnegG (A0 m c) (A1 m c) (A2 m c) (A3 m c) (A4 m c) (A5 m c) (A6 m c) (A7 m c) (A8 m c) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.tc.devRef main_v5_3)
      = fun _ => Cert.Rela.rnegG (A0 m c) (A1 m c) (A2 m c) (A3 m c) (A4 m c) (A5 m c) (A6 m c) (A7 m c) (A8 m c) ix0 :=
    (Pipeline.withArrays_arr spec0 launch0.win.arr_inj c _ _ 12).trans (final12 m c)
  rw [hw]
  rfl

theorem tail9 (c : Dev nD) : Pipeline.afterTail₀ cfgs (dats m) 0 (V0 m) [hostOps1] c main_v9 = Cert.Rela.rallG (A0 m c) (A1 m c) (A2 m c) (A3 m c) (A4 m c) (A5 m c) (A6 m c) (A7 m c) (A8 m c) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.tc.devRef main_v5_4)
      = fun _ => Cert.Rela.rallG (A0 m c) (A1 m c) (A2 m c) (A3 m c) (A4 m c) (A5 m c) (A6 m c) (A7 m c) (A8 m c) ix0 :=
    (Pipeline.withArrays_arr spec0 launch0.win.arr_inj c _ _ 13).trans (final13 m c)
  rw [hw]
  rfl

/-! ## The run -/

theorem krun (ρ : Dev nD → PrngReg) :
    θ_run defs (onTc (τ := τ) (main (F := Ideal))) ⟨m, fun _ => 0, ρ⟩ (fun r => ∀ c : Dev nD,
      r.2.mem ((c.tc : Thread nD τ).loc main_v5_0) = Cert.Rela.scoresG (A0 m c) (A1 m c) (A2 m c) (A3 m c) (A4 m c) (A5 m c) (A6 m c) (A7 m c) (A8 m c)
      ∧ r.2.mem ((c.tc : Thread nD τ).loc main_v6) = Cert.Rela.lossG (A0 m c) (A1 m c) (A2 m c) (A3 m c) (A4 m c) (A5 m c) (A6 m c) (A7 m c) (A8 m c)
      ∧ r.2.mem ((c.tc : Thread nD τ).loc main_v7) = Cert.Rela.rposG (A0 m c) (A1 m c) (A2 m c) (A3 m c) (A4 m c) (A5 m c) (A6 m c) (A7 m c) (A8 m c)
      ∧ r.2.mem ((c.tc : Thread nD τ).loc main_v8) = Cert.Rela.rnegG (A0 m c) (A1 m c) (A2 m c) (A3 m c) (A4 m c) (A5 m c) (A6 m c) (A7 m c) (A8 m c)
      ∧ r.2.mem ((c.tc : Thread nD τ).loc main_v9) = Cert.Rela.rallG (A0 m c) (A1 m c) (A2 m c) (A3 m c) (A4 m c) (A5 m c) (A6 m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 9).trans (final9 m c),
      ((h c).2 main_v6 (Pipeline.mem_restRefs_of main_v6 (by decide) (by decide))).trans (tail6 m c),
      ((h c).2 main_v7 (Pipeline.mem_restRefs_of main_v7 (by decide) (by decide))).trans (tail7 m c),
      ((h c).2 main_v8 (Pipeline.mem_restRefs_of main_v8 (by decide) (by decide))).trans (tail8 m c),
      ((h c).2 main_v9 (Pipeline.mem_restRefs_of main_v9 (by decide) (by decide))).trans (tail9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 7).trans (((dats m 0 c).arrAt_in 7 rfl _).trans ((A_eq m c 7).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KV

end
-- ==== Proof.RefScores.lean ====
/-
  The reference program's scores are the specification's scores.

  Row by row: the eight box features are read out of the slices of the box array (four side lengths, four quotients,
  four logarithms of quotients), joined four and four into eight columns and multiplied into the eight weights; the two
  language vectors are joined into one of 600, rectified, multiplied into the first weight matrix (the 600-term sum is
  the two 300-term sums of the specification), biased, rectified and multiplied into the second weights; the sum of the
  two scores goes through 1 / (1 + exp(-x)), which is the logistic.
-/
import proofs.«166331_j32547262169374_1_alg».proof.Proof.RefRead
import proofs.«166331_j32547262169374_1_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.ReferenceIdeal.RefValue
open Idealize.ShloMosaic Idealize.ShloMosaic.ValueIdx Idealize.SL.Sem Cert.ReferenceIdeal Cert.ReferenceIdeal.Read
variable (X0 X1 : (⟨S131072x300, .f32⟩ : BufTy).Contents (Elt Ideal)) (X2 : (⟨S131072x15, .f32⟩ : BufTy).Contents (Elt Ideal)) (W3 : (⟨S8x1, .f32⟩ : BufTy).Contents (Elt Ideal)) (B4 : (⟨S1, .f32⟩ : BufTy).Contents (Elt Ideal)) (W5 : (⟨S600x300, .f32⟩ : BufTy).Contents (Elt Ideal)) (B6 : (⟨S300, .f32⟩ : BufTy).Contents (Elt Ideal)) (W7 : (⟨S300x1, .f32⟩ : BufTy).Contents (Elt Ideal)) (B8 : (⟨S1, .f32⟩ : BufTy).Contents (Elt Ideal))

/-- Two indices of a two-axis shape with the same coordinates are equal. -/
theorem idx2_ext {n0 n1 : Nat} (f g : (⟨2, ![n0, n1]⟩ : Shape).Idx) (h0 : (f 0).val = (g 0).val)
    (h1 : (f 1).val = (g 1).val) : f = g :=
  funext fun a => Fin.ext (by match a with | ⟨0, _⟩ => exact h0 | ⟨1, _⟩ => exact h1)

/-- Two indices of a one-axis shape with the same coordinate are equal. -/
theorem idx1_ext {n : Nat} (f g : (⟨1, ![n]⟩ : Shape).Idx) (h0 : (f 0).val = (g 0).val) : f = g :=
  funext fun a => Fin.ext (by match a with | ⟨0, _⟩ => exact h0)

/-- The word of 1.0 denotes 1. -/
theorem one_eq : Ideal.ofBits .f32 0x3F800000#32 = (1 : EReal) := by
  simp [Ideal.ofBits, Ideal.ieee, -EReal.coe_mul]; norm_num

/-! ## The box numbers a row's slices read

Each reshaped one-column slice of the two four-column slices (columns 5..8 and 10..13 of the box array) is one box
number of the row. -/

theorem rd3 (r : Fin 131072) : val_main_v3 (F := Ideal) X2 (ix1 r) = X2 (ix2 r 7) := by
  rw [val_main_v3_apply, val_main_v2_apply, val_main_v0_apply]
  refine congrArg X2 (idx2_ext _ _ ?_ ?_)
  · exact Nat.div_one _
  · rfl

theorem rd5 (r : Fin 131072) : val_main_v5 (F := Ideal) X2 (ix1 r) = X2 (ix2 r 5) := by
  rw [val_main_v5_apply, val_main_v4_apply, val_main_v0_apply]
  refine congrArg X2 (idx2_ext _ _ ?_ ?_)
  · exact Nat.div_one _
  · rfl

theorem rd8 (r : Fin 131072) : val_main_v8 (F := Ideal) X2 (ix1 r) = X2 (ix2 r 8) := by
  rw [val_main_v8_apply, val_main_v7_apply, val_main_v0_apply]
  refine congrArg X2 (idx2_ext _ _ ?_ ?_)
  · exact Nat.div_one _
  · rfl

theorem rd10 (r : Fin 131072) : val_main_v10 (F := Ideal) X2 (ix1 r) = X2 (ix2 r 6) := by
  rw [val_main_v10_apply, val_main_v9_apply, val_main_v0_apply]
  refine congrArg X2 (idx2_ext _ _ ?_ ?_)
  · exact Nat.div_one _
  · rfl

theorem rd13 (r : Fin 131072) : val_main_v13 (F := Ideal) X2 (ix1 r) = X2 (ix2 r 12) := by
  rw [val_main_v13_apply, val_main_v12_apply, val_main_v1_apply]
  refine congrArg X2 (idx2_ext _ _ ?_ ?_)
  · exact Nat.div_one _
  · rfl

theorem rd15 (r : Fin 131072) : val_main_v15 (F := Ideal) X2 (ix1 r) = X2 (ix2 r 10) := by
  rw [val_main_v15_apply, val_main_v14_apply, val_main_v1_apply]
  refine congrArg X2 (idx2_ext _ _ ?_ ?_)
  · exact Nat.div_one _
  · rfl

theorem rd18 (r : Fin 131072) : val_main_v18 (F := Ideal) X2 (ix1 r) = X2 (ix2 r 13) := by
  rw [val_main_v18_apply, val_main_v17_apply, val_main_v1_apply]
  refine congrArg X2 (idx2_ext _ _ ?_ ?_)
  · exact Nat.div_one _
  · rfl

theorem rd20 (r : Fin 131072) : val_main_v20 (F := Ideal) X2 (ix1 r) = X2 (ix2 r 11) := by
  rw [val_main_v20_apply, val_main_v19_apply, val_main_v1_apply]
  refine congrArg X2 (idx2_ext _ _ ?_ ?_)
  · exact Nat.div_one _
  · rfl

theorem rd23 (r : Fin 131072) : val_main_v23 (F := Ideal) X2 (ix1 r) = X2 (ix2 r 5) := by
  rw [val_main_v23_apply, val_main_v22_apply, val_main_v0_apply]
  refine congrArg X2 (idx2_ext _ _ ?_ ?_)
  · exact Nat.div_one _
  · rfl

theorem rd25 (r : Fin 131072) : val_main_v25 (F := Ideal) X2 (ix1 r) = X2 (ix2 r 10) := by
  rw [val_main_v25_apply, val_main_v24_apply, val_main_v1_apply]
  refine congrArg X2 (idx2_ext _ _ ?_ ?_)
  · exact Nat.div_one _
  · rfl

theorem rd29 (r : Fin 131072) : val_main_v29 (F := Ideal) X2 (ix1 r) = X2 (ix2 r 6) := by
  rw [val_main_v29_apply, val_main_v28_apply, val_main_v0_apply]
  refine congrArg X2 (idx2_ext _ _ ?_ ?_)
  · exact Nat.div_one _
  · rfl

theorem rd31 (r : Fin 131072) : val_main_v31 (F := Ideal) X2 (ix1 r) = X2 (ix2 r 11) := by
  rw [val_main_v31_apply, val_main_v30_apply, val_main_v1_apply]
  refine congrArg X2 (idx2_ext _ _ ?_ ?_)
  · exact Nat.div_one _
  · rfl

theorem rd44 (r : Fin 131072) : val_main_v44 (F := Ideal) X2 (ix1 r) = X2 (ix2 r 10) := by
  rw [val_main_v44_apply, val_main_v43_apply, val_main_v1_apply]
  refine congrArg X2 (idx2_ext _ _ ?_ ?_)
  · exact Nat.div_one _
  · rfl

theorem rd46 (r : Fin 131072) : val_main_v46 (F := Ideal) X2 (ix1 r) = X2 (ix2 r 5) := by
  rw [val_main_v46_apply, val_main_v45_apply, val_main_v0_apply]
  refine congrArg X2 (idx2_ext _ _ ?_ ?_)
  · exact Nat.div_one _
  · rfl

theorem rd50 (r : Fin 131072) : val_main_v50 (F := Ideal) X2 (ix1 r) = X2 (ix2 r 11) := by
  rw [val_main_v50_apply, val_main_v49_apply, val_main_v1_apply]
  refine congrArg X2 (idx2_ext _ _ ?_ ?_)
  · exact Nat.div_one _
  · rfl

theorem rd52 (r : Fin 131072) : val_main_v52 (F := Ideal) X2 (ix1 r) = X2 (ix2 r 6) := by
  rw [val_main_v52_apply, val_main_v51_apply, val_main_v0_apply]
  refine congrArg X2 (idx2_ext _ _ ?_ ?_)
  · exact Nat.div_one _
  · rfl

/-! ## The four side lengths -/

theorem side6 (r : Fin 131072) : val_main_v6 (F := Ideal) X2 (ix1 r) = X2 (ix2 r 7) - X2 (ix2 r 5) := by
  rw [val_main_v6_apply, rd3, rd5]; rfl

theorem side11 (r : Fin 131072) : val_main_v11 (F := Ideal) X2 (ix1 r) = X2 (ix2 r 8) - X2 (ix2 r 6) := by
  rw [val_main_v11_apply, rd8, rd10]; rfl

theorem side16 (r : Fin 131072) : val_main_v16 (F := Ideal) X2 (ix1 r) = X2 (ix2 r 12) - X2 (ix2 r 10) := by
  rw [val_main_v16_apply, rd13, rd15]; rfl

theorem side21 (r : Fin 131072) : val_main_v21 (F := Ideal) X2 (ix1 r) = X2 (ix2 r 13) - X2 (ix2 r 11) := by
  rw [val_main_v21_apply, rd18, rd20]; rfl

/-! ## The eight features, as vectors over the rows and as one-column arrays -/

theorem f27 (r : Fin 131072) : val_main_v27 (F := Ideal) X2 (ix1 r) = Ideal.div (X2 (ix2 r 5) - X2 (ix2 r 10)) (X2 (ix2 r 7) - X2 (ix2 r 5)) := by
  rw [val_main_v27_apply, val_main_v26_apply, rd23, rd25, side6]; rfl

theorem col38 (r : Fin 131072) : val_main_v38 (F := Ideal) X2 (ix2 r 0) = Ideal.div (X2 (ix2 r 5) - X2 (ix2 r 10)) (X2 (ix2 r 7) - X2 (ix2 r 5)) := by
  rw [val_main_v38_apply, show idx_main_v38 (ix2 r 0) = ix1 r from idx1_ext _ _ rfl, f27]

theorem f33 (r : Fin 131072) : val_main_v33 (F := Ideal) X2 (ix1 r) = Ideal.div (X2 (ix2 r 6) - X2 (ix2 r 11)) (X2 (ix2 r 8) - X2 (ix2 r 6)) := by
  rw [val_main_v33_apply, val_main_v32_apply, rd29, rd31, side11]; rfl

theorem col39 (r : Fin 131072) : val_main_v39 (F := Ideal) X2 (ix2 r 0) = Ideal.div (X2 (ix2 r 6) - X2 (ix2 r 11)) (X2 (ix2 r 8) - X2 (ix2 r 6)) := by
  rw [val_main_v39_apply, show idx_main_v39 (ix2 r 0) = ix1 r from idx1_ext _ _ rfl, f33]

theorem f35 (r : Fin 131072) : val_main_v35 (F := Ideal) X2 (ix1 r) = Ideal.log (Ideal.div (X2 (ix2 r 7) - X2 (ix2 r 5)) (X2 (ix2 r 12) - X2 (ix2 r 10))) := by
  rw [val_main_v35_apply, val_main_v34_apply, side6, side16]; rfl

theorem col40 (r : Fin 131072) : val_main_v40 (F := Ideal) X2 (ix2 r 0) = Ideal.log (Ideal.div (X2 (ix2 r 7) - X2 (ix2 r 5)) (X2 (ix2 r 12) - X2 (ix2 r 10))) := by
  rw [val_main_v40_apply, show idx_main_v40 (ix2 r 0) = ix1 r from idx1_ext _ _ rfl, f35]

theorem f37 (r : Fin 131072) : val_main_v37 (F := Ideal) X2 (ix1 r) = Ideal.log (Ideal.div (X2 (ix2 r 8) - X2 (ix2 r 6)) (X2 (ix2 r 13) - X2 (ix2 r 11))) := by
  rw [val_main_v37_apply, val_main_v36_apply, side11, side21]; rfl

theorem col41 (r : Fin 131072) : val_main_v41 (F := Ideal) X2 (ix2 r 0) = Ideal.log (Ideal.div (X2 (ix2 r 8) - X2 (ix2 r 6)) (X2 (ix2 r 13) - X2 (ix2 r 11))) := by
  rw [val_main_v41_apply, show idx_main_v41 (ix2 r 0) = ix1 r from idx1_ext _ _ rfl, f37]

theorem f48 (r : Fin 131072) : val_main_v48 (F := Ideal) X2 (ix1 r) = Ideal.div (X2 (ix2 r 10) - X2 (ix2 r 5)) (X2 (ix2 r 12) - X2 (ix2 r 10)) := by
  rw [val_main_v48_apply, val_main_v47_apply, rd44, rd46, side16]; rfl

theorem col59 (r : Fin 131072) : val_main_v59 (F := Ideal) X2 (ix2 r 0) = Ideal.div (X2 (ix2 r 10) - X2 (ix2 r 5)) (X2 (ix2 r 12) - X2 (ix2 r 10)) := by
  rw [val_main_v59_apply, show idx_main_v59 (ix2 r 0) = ix1 r from idx1_ext _ _ rfl, f48]

theorem f54 (r : Fin 131072) : val_main_v54 (F := Ideal) X2 (ix1 r) = Ideal.div (X2 (ix2 r 11) - X2 (ix2 r 6)) (X2 (ix2 r 13) - X2 (ix2 r 11)) := by
  rw [val_main_v54_apply, val_main_v53_apply, rd50, rd52, side21]; rfl

theorem col60 (r : Fin 131072) : val_main_v60 (F := Ideal) X2 (ix2 r 0) = Ideal.div (X2 (ix2 r 11) - X2 (ix2 r 6)) (X2 (ix2 r 13) - X2 (ix2 r 11)) := by
  rw [val_main_v60_apply, show idx_main_v60 (ix2 r 0) = ix1 r from idx1_ext _ _ rfl, f54]

theorem f56 (r : Fin 131072) : val_main_v56 (F := Ideal) X2 (ix1 r) = Ideal.log (Ideal.div (X2 (ix2 r 12) - X2 (ix2 r 10)) (X2 (ix2 r 7) - X2 (ix2 r 5))) := by
  rw [val_main_v56_apply, val_main_v55_apply, side16, side6]; rfl

theorem col61 (r : Fin 131072) : val_main_v61 (F := Ideal) X2 (ix2 r 0) = Ideal.log (Ideal.div (X2 (ix2 r 12) - X2 (ix2 r 10)) (X2 (ix2 r 7) - X2 (ix2 r 5))) := by
  rw [val_main_v61_apply, show idx_main_v61 (ix2 r 0) = ix1 r from idx1_ext _ _ rfl, f56]

theorem f58 (r : Fin 131072) : val_main_v58 (F := Ideal) X2 (ix1 r) = Ideal.log (Ideal.div (X2 (ix2 r 13) - X2 (ix2 r 11)) (X2 (ix2 r 8) - X2 (ix2 r 6))) := by
  rw [val_main_v58_apply, val_main_v57_apply, side21, side11]; rfl

theorem col62 (r : Fin 131072) : val_main_v62 (F := Ideal) X2 (ix2 r 0) = Ideal.log (Ideal.div (X2 (ix2 r 13) - X2 (ix2 r 11)) (X2 (ix2 r 8) - X2 (ix2 r 6))) := by
  rw [val_main_v62_apply, show idx_main_v62 (ix2 r 0) = ix1 r from idx1_ext _ _ rfl, f58]

/-! ## The two four-column joins and the eight-column join, column by column -/

theorem cat42_0 (r : Fin 131072) : val_main_v42 (F := Ideal) X2 (ix2 r 0) = val_main_v38 (F := Ideal) X2 (ix2 r 0) := by
  unfold val_main_v42
  refine concatenate_apply_piece _ _ _ (ix2 r 0) 0 (by show 0 < 4; omega) S131072x1 (val_main_v38 (F := Ideal) X2) (by rfl) (by rfl) 0 (by rfl) (ix2 r 0) ?_ (by rfl)
  intro b hb
  match b with
  | ⟨0, _⟩ => rfl
  | ⟨1, _⟩ => exact absurd (by rfl) hb

theorem cat42_1 (r : Fin 131072) : val_main_v42 (F := Ideal) X2 (ix2 r 1) = val_main_v39 (F := Ideal) X2 (ix2 r 0) := by
  unfold val_main_v42
  refine concatenate_apply_piece _ _ _ (ix2 r 1) 1 (by show 1 < 4; omega) S131072x1 (val_main_v39 (F := Ideal) X2) (by rfl) (by rfl) 1 (by rfl) (ix2 r 0) ?_ (by rfl)
  intro b hb
  match b with
  | ⟨0, _⟩ => rfl
  | ⟨1, _⟩ => exact absurd (by rfl) hb

theorem cat42_2 (r : Fin 131072) : val_main_v42 (F := Ideal) X2 (ix2 r 2) = val_main_v40 (F := Ideal) X2 (ix2 r 0) := by
  unfold val_main_v42
  refine concatenate_apply_piece _ _ _ (ix2 r 2) 2 (by show 2 < 4; omega) S131072x1 (val_main_v40 (F := Ideal) X2) (by rfl) (by rfl) 2 (by rfl) (ix2 r 0) ?_ (by rfl)
  intro b hb
  match b with
  | ⟨0, _⟩ => rfl
  | ⟨1, _⟩ => exact absurd (by rfl) hb

theorem cat42_3 (r : Fin 131072) : val_main_v42 (F := Ideal) X2 (ix2 r 3) = val_main_v41 (F := Ideal) X2 (ix2 r 0) := by
  unfold val_main_v42
  refine concatenate_apply_piece _ _ _ (ix2 r 3) 3 (by show 3 < 4; omega) S131072x1 (val_main_v41 (F := Ideal) X2) (by rfl) (by rfl) 3 (by rfl) (ix2 r 0) ?_ (by rfl)
  intro b hb
  match b with
  | ⟨0, _⟩ => rfl
  | ⟨1, _⟩ => exact absurd (by rfl) hb

theorem cat63_0 (r : Fin 131072) : val_main_v63 (F := Ideal) X2 (ix2 r 0) = val_main_v59 (F := Ideal) X2 (ix2 r 0) := by
  unfold val_main_v63
  refine concatenate_apply_piece _ _ _ (ix2 r 0) 0 (by show 0 < 4; omega) S131072x1 (val_main_v59 (F := Ideal) X2) (by rfl) (by rfl) 0 (by rfl) (ix2 r 0) ?_ (by rfl)
  intro b hb
  match b with
  | ⟨0, _⟩ => rfl
  | ⟨1, _⟩ => exact absurd (by rfl) hb

theorem cat63_1 (r : Fin 131072) : val_main_v63 (F := Ideal) X2 (ix2 r 1) = val_main_v60 (F := Ideal) X2 (ix2 r 0) := by
  unfold val_main_v63
  refine concatenate_apply_piece _ _ _ (ix2 r 1) 1 (by show 1 < 4; omega) S131072x1 (val_main_v60 (F := Ideal) X2) (by rfl) (by rfl) 1 (by rfl) (ix2 r 0) ?_ (by rfl)
  intro b hb
  match b with
  | ⟨0, _⟩ => rfl
  | ⟨1, _⟩ => exact absurd (by rfl) hb

theorem cat63_2 (r : Fin 131072) : val_main_v63 (F := Ideal) X2 (ix2 r 2) = val_main_v61 (F := Ideal) X2 (ix2 r 0) := by
  unfold val_main_v63
  refine concatenate_apply_piece _ _ _ (ix2 r 2) 2 (by show 2 < 4; omega) S131072x1 (val_main_v61 (F := Ideal) X2) (by rfl) (by rfl) 2 (by rfl) (ix2 r 0) ?_ (by rfl)
  intro b hb
  match b with
  | ⟨0, _⟩ => rfl
  | ⟨1, _⟩ => exact absurd (by rfl) hb

theorem cat63_3 (r : Fin 131072) : val_main_v63 (F := Ideal) X2 (ix2 r 3) = val_main_v62 (F := Ideal) X2 (ix2 r 0) := by
  unfold val_main_v63
  refine concatenate_apply_piece _ _ _ (ix2 r 3) 3 (by show 3 < 4; omega) S131072x1 (val_main_v62 (F := Ideal) X2) (by rfl) (by rfl) 3 (by rfl) (ix2 r 0) ?_ (by rfl)
  intro b hb
  match b with
  | ⟨0, _⟩ => rfl
  | ⟨1, _⟩ => exact absurd (by rfl) hb

theorem feat65_0 (r : Fin 131072) : val_main_v65 (F := Ideal) X2 (ix2 r 0) = Ideal.div (X2 (ix2 r 5) - X2 (ix2 r 10)) (X2 (ix2 r 7) - X2 (ix2 r 5)) := by
  rw [← col38 X2 r, ← cat42_0 X2 r]
  unfold val_main_v65
  refine concatenate_pair_apply_left _ (val_main_v42 (F := Ideal) X2) (val_main_v63 (F := Ideal) X2) _ (ix2 r 0) (by rfl) (ix2 r 0) ?_
  intro b
  match b with
  | ⟨0, _⟩ => rfl
  | ⟨1, _⟩ => rfl

theorem feat65_1 (r : Fin 131072) : val_main_v65 (F := Ideal) X2 (ix2 r 1) = Ideal.div (X2 (ix2 r 6) - X2 (ix2 r 11)) (X2 (ix2 r 8) - X2 (ix2 r 6)) := by
  rw [← col39 X2 r, ← cat42_1 X2 r]
  unfold val_main_v65
  refine concatenate_pair_apply_left _ (val_main_v42 (F := Ideal) X2) (val_main_v63 (F := Ideal) X2) _ (ix2 r 1) (by rfl) (ix2 r 1) ?_
  intro b
  match b with
  | ⟨0, _⟩ => rfl
  | ⟨1, _⟩ => rfl

theorem feat65_2 (r : Fin 131072) : val_main_v65 (F := Ideal) X2 (ix2 r 2) = Ideal.log (Ideal.div (X2 (ix2 r 7) - X2 (ix2 r 5)) (X2 (ix2 r 12) - X2 (ix2 r 10))) := by
  rw [← col40 X2 r, ← cat42_2 X2 r]
  unfold val_main_v65
  refine concatenate_pair_apply_left _ (val_main_v42 (F := Ideal) X2) (val_main_v63 (F := Ideal) X2) _ (ix2 r 2) (by rfl) (ix2 r 2) ?_
  intro b
  match b with
  | ⟨0, _⟩ => rfl
  | ⟨1, _⟩ => rfl

theorem feat65_3 (r : Fin 131072) : val_main_v65 (F := Ideal) X2 (ix2 r 3) = Ideal.log (Ideal.div (X2 (ix2 r 8) - X2 (ix2 r 6)) (X2 (ix2 r 13) - X2 (ix2 r 11))) := by
  rw [← col41 X2 r, ← cat42_3 X2 r]
  unfold val_main_v65
  refine concatenate_pair_apply_left _ (val_main_v42 (F := Ideal) X2) (val_main_v63 (F := Ideal) X2) _ (ix2 r 3) (by rfl) (ix2 r 3) ?_
  intro b
  match b with
  | ⟨0, _⟩ => rfl
  | ⟨1, _⟩ => rfl

theorem feat65_4 (r : Fin 131072) : val_main_v65 (F := Ideal) X2 (ix2 r 4) = Ideal.div (X2 (ix2 r 10) - X2 (ix2 r 5)) (X2 (ix2 r 12) - X2 (ix2 r 10)) := by
  rw [← col59 X2 r, ← cat63_0 X2 r]
  unfold val_main_v65
  refine concatenate_pair_apply_right _ (val_main_v42 (F := Ideal) X2) (val_main_v63 (F := Ideal) X2) _ (ix2 r 4) (by rfl) (by rfl) (ix2 r 0) ?_ (by rfl)
  intro b hb
  match b with
  | ⟨0, _⟩ => rfl
  | ⟨1, _⟩ => exact absurd (by rfl) hb

theorem feat65_5 (r : Fin 131072) : val_main_v65 (F := Ideal) X2 (ix2 r 5) = Ideal.div (X2 (ix2 r 11) - X2 (ix2 r 6)) (X2 (ix2 r 13) - X2 (ix2 r 11)) := by
  rw [← col60 X2 r, ← cat63_1 X2 r]
  unfold val_main_v65
  refine concatenate_pair_apply_right _ (val_main_v42 (F := Ideal) X2) (val_main_v63 (F := Ideal) X2) _ (ix2 r 5) (by rfl) (by rfl) (ix2 r 1) ?_ (by rfl)
  intro b hb
  match b with
  | ⟨0, _⟩ => rfl
  | ⟨1, _⟩ => exact absurd (by rfl) hb

theorem feat65_6 (r : Fin 131072) : val_main_v65 (F := Ideal) X2 (ix2 r 6) = Ideal.log (Ideal.div (X2 (ix2 r 12) - X2 (ix2 r 10)) (X2 (ix2 r 7) - X2 (ix2 r 5))) := by
  rw [← col61 X2 r, ← cat63_2 X2 r]
  unfold val_main_v65
  refine concatenate_pair_apply_right _ (val_main_v42 (F := Ideal) X2) (val_main_v63 (F := Ideal) X2) _ (ix2 r 6) (by rfl) (by rfl) (ix2 r 2) ?_ (by rfl)
  intro b hb
  match b with
  | ⟨0, _⟩ => rfl
  | ⟨1, _⟩ => exact absurd (by rfl) hb

theorem feat65_7 (r : Fin 131072) : val_main_v65 (F := Ideal) X2 (ix2 r 7) = Ideal.log (Ideal.div (X2 (ix2 r 13) - X2 (ix2 r 11)) (X2 (ix2 r 8) - X2 (ix2 r 6))) := by
  rw [← col62 X2 r, ← cat63_3 X2 r]
  unfold val_main_v65
  refine concatenate_pair_apply_right _ (val_main_v42 (F := Ideal) X2) (val_main_v63 (F := Ideal) X2) _ (ix2 r 7) (by rfl) (by rfl) (ix2 r 3) ?_ (by rfl)
  intro b hb
  match b with
  | ⟨0, _⟩ => rfl
  | ⟨1, _⟩ => exact absurd (by rfl) hb

/-- Column `k` of the eight-column join is the row's feature `k`. -/
theorem feat65 (r : Fin 131072) (k : Fin 8) :
    val_main_v65 (F := Ideal) X2 (ix2 r k) = Cert.Rela.feat (Cert.Rela.boxRow X2 r) k := by
  match k with
  | ⟨0, _⟩ => exact feat65_0 X2 r
  | ⟨1, _⟩ => exact feat65_1 X2 r
  | ⟨2, _⟩ => exact feat65_2 X2 r
  | ⟨3, _⟩ => exact feat65_3 X2 r
  | ⟨4, _⟩ => exact feat65_4 X2 r
  | ⟨5, _⟩ => exact feat65_5 X2 r
  | ⟨6, _⟩ => exact feat65_6 X2 r
  | ⟨7, _⟩ => exact feat65_7 X2 r

/-! ## The box score -/

theorem box_apply (r : Fin 131072) :
    val_main_v79 (F := Ideal) X2 W3 B4 (ix2 r 0) =
      Cert.Rela.box (Cert.Rela.boxRow X2 r) (fun k => W3 (ix2 k 0)) (B4 (ix1 0)) := by
  rw [Cert.Rela.box_eq_sum, val_main_v79_apply, val_main_v76_apply, val_main_v78_apply, val_main_v77_apply]
  have hl : ∀ k : Fin 8, lidx_main_v76 (ix2 r 0) k = ix2 r k := fun k => idx2_ext _ _ rfl rfl
  have hr : ∀ k : Fin 8, ridx_main_v76 (ix2 r 0) k = ix2 k 0 := fun k => idx2_ext _ _ rfl rfl
  have hb : idx_main_v77 (idx_main_v78 (ix2 r 0)) = ix1 0 := idx1_ext _ _ rfl
  simp only [hl, hr, hb, feat65]
  rfl

/-! ## The joined language row, the hidden layer and the language score -/

theorem join_left (r : Fin 131072) (k : Fin 300) :
    val_main_v64 (F := Ideal) X0 X1 (ix2 r (Fin.castAdd 300 k)) = X0 (ix2 r k) := by
  unfold val_main_v64
  refine concatenate_pair_apply_left _ X0 X1 _ (ix2 r (Fin.castAdd 300 k)) (by rfl) (ix2 r k) ?_
  intro b
  match b with
  | ⟨0, _⟩ => rfl
  | ⟨1, _⟩ => rfl

theorem join_right (r : Fin 131072) (k : Fin 300) :
    val_main_v64 (F := Ideal) X0 X1 (ix2 r (Fin.natAdd 300 k)) = X1 (ix2 r k) := by
  unfold val_main_v64
  refine concatenate_pair_apply_right _ X0 X1 _ (ix2 r (Fin.natAdd 300 k)) (by rfl) (by rfl) (ix2 r k) ?_ ?_
  · intro b hb
    match b with
    | ⟨0, _⟩ => rfl
    | ⟨1, _⟩ => exact absurd (by rfl) hb
  · show k.val + 300 = 300 + k.val
    exact Nat.add_comm _ _

theorem hidden_apply (r : Fin 131072) (j : Fin 300) :
    val_main_v71 (F := Ideal) X0 X1 W5 B6 (ix2 r j) =
      Cert.Rela.hidden (fun k => X0 (ix2 r k)) (fun k => X1 (ix2 r k)) (fun k j => W5 (ix2 k j))
        (fun j => B6 (ix1 j)) j := by
  rw [Cert.Rela.hidden_eq_joined _ _ _ _ j (fun k => val_main_v64 (F := Ideal) X0 X1 (ix2 r k))
    (join_left X0 X1 r) (join_right X0 X1 r)]
  rw [val_main_v71_apply, val_main_v70_apply, val_main_v67_apply, val_main_v69_apply, val_main_v68_apply,
    val_main_call1_v0_apply, val_main_call1_cst_apply]
  have hl : ∀ k : Fin 600, lidx_main_v67 (ix2 r j) k = ix2 r k := fun k => idx2_ext _ _ rfl rfl
  have hr : ∀ k : Fin 600, ridx_main_v67 (ix2 r j) k = ix2 k j := fun k => idx2_ext _ _ rfl rfl
  have hb : idx_main_v68 (idx_main_v69 (ix2 r j)) = ix1 j := idx1_ext _ _ rfl
  simp only [val_main_v66_apply, val_main_call0_v0_apply, val_main_call0_cst_apply, hl, hr, hb]
  rfl

theorem lan_apply (r : Fin 131072) :
    val_main_v75 (F := Ideal) X0 X1 W5 B6 W7 B8 (ix2 r 0) =
      Cert.Rela.lan (fun k => X0 (ix2 r k)) (fun k => X1 (ix2 r k)) (fun k j => W5 (ix2 k j))
        (fun j => B6 (ix1 j)) (fun j => W7 (ix2 j 0)) (B8 (ix1 0)) := by
  rw [val_main_v75_apply, val_main_v72_apply, val_main_v74_apply, val_main_v73_apply]
  have hl : ∀ k : Fin 300, lidx_main_v72 (ix2 r 0) k = ix2 r k := fun k => idx2_ext _ _ rfl rfl
  have hr : ∀ k : Fin 300, ridx_main_v72 (ix2 r 0) k = ix2 k 0 := fun k => idx2_ext _ _ rfl rfl
  have hb : idx_main_v73 (idx_main_v74 (ix2 r 0)) = ix1 0 := idx1_ext _ _ rfl
  simp only [hl, hr, hb, hidden_apply]
  rfl

/-! ## The scores -/

/-- The reference's scores are the specification's: the logistic, written out as 1 / (1 + exp(-x)), of the
    language score plus the box score. -/
theorem ref_scores : Read.val_main_v86 (F := Ideal) X0 X1 X2 W3 B4 W5 B6 W7 B8 = Cert.Rela.scoresG X0 X1 X2 W3 B4 W5 B6 W7 B8 := by
  funext i
  obtain ⟨p, q, rfl⟩ : ∃ (p : Fin 131072) (q : Fin 1), i = ix2 p q := ⟨i 0, i 1, eq_ix2 i⟩
  obtain rfl : q = 0 := Subsingleton.elim _ _
  rw [val_main_v86_apply, val_main_v85_apply, val_main_cst_0_apply, val_main_v84_apply, val_main_v83_apply,
    val_main_cst_apply, val_main_v82_apply, val_main_v81_apply, val_main_v80_apply, lan_apply, box_apply]
  simp only [Ideal.hostDivf_def, Ideal.addf_def, Ideal.ofBits_def, Ideal.hostUnary_exp_def, Ideal.hostNegf_def,
    Ideal.negf_def, one_eq]
  rfl

end Cert.ReferenceIdeal.RefValue
end
-- ==== Proof.RefStats.lean ====
/-
  The reference program's four statistics, from its scores.

  Given that the score column is the specification's, every later stage of the reference is read at a row: the label
  (box number 4 compared with zero, counted as 0 or 1), the two clamped logarithms (of the score and of one minus the
  score), the row's cross-entropy term, and the four one-bit conditions that are counted. The loss is the sum of the
  terms over the rows, divided by the row count, with its sign changed; since no term is -∞ this is the sum of the
  sign-changed terms divided by the row count. The three quotients are quotients of the counts.
-/
import proofs.«166331_j32547262169374_1_alg».proof.Proof.RefRead
import proofs.«166331_j32547262169374_1_alg».proof.Proof.Spec
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Idealize.SL.Sem Cert.ReferenceIdeal Cert.ReferenceIdeal.Read

variable (X0 X1 : (⟨S131072x300, .f32⟩ : BufTy).Contents (Elt Ideal)) (X2 : (⟨S131072x15, .f32⟩ : BufTy).Contents (Elt Ideal)) (W3 : (⟨S8x1, .f32⟩ : BufTy).Contents (Elt Ideal)) (B4 : (⟨S1, .f32⟩ : BufTy).Contents (Elt Ideal)) (W5 : (⟨S600x300, .f32⟩ : BufTy).Contents (Elt Ideal)) (B6 : (⟨S300, .f32⟩ : BufTy).Contents (Elt Ideal)) (W7 : (⟨S300x1, .f32⟩ : BufTy).Contents (Elt Ideal)) (B8 : (⟨S1, .f32⟩ : BufTy).Contents (Elt Ideal))

/-! ## Sums over a one-axis array, and a one-bit fact -/

/-- A sum over the indices of a one-axis array is the sum over its coordinate. -/
theorem sum_rows {M : Type*} [AddCommMonoid M] (f : S131072.Idx → M) :
    ∑ j : S131072.Idx, f j = ∑ r : Fin 131072, f (ix1 r) :=
  (Equiv.sum_comp (idxEquiv1 (n := 131072)).symm f).symm

/-- On one bit, the complement is the exclusive or with 1. -/
theorem not_one_bit (v : BitVec 1) : ~~~v = v ^^^ 1#1 := by
  rw [BitVec.not_def, BitVec.xor_comm]; rfl

/-! ## One row -/

/-- The label column at row r: box number 4 compared with zero, counted. -/
theorem lab_at (r : Fin 131072) :
    val_main_v91 (F := Ideal) X2 (ix1 r) = Cert.Rela.lab (Cert.Rela.boxRow X2 r) := by
  have hi : idx_main_v87 (idx_main_v88 (ix1 r)) = ix2 r (4 : Fin 15) :=
    funext fun a => Fin.ext (by match a with | ⟨0, _⟩ => exact Nat.div_one r.val | ⟨1, _⟩ => rfl)
  rw [val_main_v91_apply, val_main_v90_apply, val_main_v88_apply, val_main_v87_apply, val_main_v89_apply,
    val_main_cst_1_apply, hi]
  rfl

/-- The score column, flattened, at row r. -/
theorem score_at (hS : Read.val_main_v86 (F := Ideal) X0 X1 X2 W3 B4 W5 B6 W7 B8 = Cert.Rela.scoresG X0 X1 X2 W3 B4 W5 B6 W7 B8)
    (r : Fin 131072) :
    val_main_v92 (F := Ideal) X0 X1 X2 W3 B4 W5 B6 W7 B8 (ix1 r) = Cert.Rela.scoreAt X0 X1 X2 W3 B4 W5 B6 W7 B8 r := by
  rw [val_main_v92_apply, hS]
  show Cert.Rela.scoreAt X0 X1 X2 W3 B4 W5 B6 W7 B8 _ = _
  congr 1
  exact Fin.ext (Nat.div_one r.val)

/-- The clamped logarithm of the score at row r. The program takes each maximum with the constant on the left and the
    minimum with the constant on the left; only the last maximum differs from the specification's order. -/
theorem clog_pos_at (hS : Read.val_main_v86 (F := Ideal) X0 X1 X2 W3 B4 W5 B6 W7 B8 = Cert.Rela.scoresG X0 X1 X2 W3 B4 W5 B6 W7 B8)
    (r : Fin 131072) :
    val_main_v95 (F := Ideal) X0 X1 X2 W3 B4 W5 B6 W7 B8 (ix1 r) = Cert.Rela.clog (Cert.Rela.scoreAt X0 X1 X2 W3 B4 W5 B6 W7 B8 r) := by
  rw [val_main_v95_apply, val_main_call3_v1_apply, val_main_call3_v0_apply, val_main_cst_4_apply,
    val_main_v94_apply, val_main_v93_apply, val_main_call2_v4_apply, val_main_call2_v3_apply, val_main_cst_3_apply,
    val_main_call2_v2_apply, val_main_call2_v1_apply, val_main_call2_v0_apply, val_main_cst_2_apply,
    score_at X0 X1 X2 W3 B4 W5 B6 W7 B8 hS r]
  simp only [Ideal.maximumf_def, Ideal.minimumf_def, Ideal.hostUnary_log_def, Ideal.ofBits_def]
  exact max_comm _ _

/-- The clamped logarithm of one minus the score at row r. -/
theorem clog_neg_at (hS : Read.val_main_v86 (F := Ideal) X0 X1 X2 W3 B4 W5 B6 W7 B8 = Cert.Rela.scoresG X0 X1 X2 W3 B4 W5 B6 W7 B8)
    (r : Fin 131072) :
    val_main_v100 (F := Ideal) X0 X1 X2 W3 B4 W5 B6 W7 B8 (ix1 r)
      = Cert.Rela.clog (Cert.Rela.one - Cert.Rela.scoreAt X0 X1 X2 W3 B4 W5 B6 W7 B8 r) := by
  rw [val_main_v100_apply, val_main_call5_v1_apply, val_main_call5_v0_apply, val_main_cst_8_apply,
    val_main_v99_apply, val_main_v98_apply, val_main_call4_v4_apply, val_main_call4_v3_apply, val_main_cst_7_apply,
    val_main_call4_v2_apply, val_main_call4_v1_apply, val_main_call4_v0_apply, val_main_cst_6_apply,
    val_main_v97_apply, val_main_v96_apply, val_main_cst_5_apply, score_at X0 X1 X2 W3 B4 W5 B6 W7 B8 hS r]
  simp only [Ideal.maximumf_def, Ideal.minimumf_def, Ideal.hostUnary_log_def, Ideal.subf_def, Ideal.ofBits_def]
  exact max_comm _ _

/-- The row's cross-entropy term at row r. -/
theorem term_at (hS : Read.val_main_v86 (F := Ideal) X0 X1 X2 W3 B4 W5 B6 W7 B8 = Cert.Rela.scoresG X0 X1 X2 W3 B4 W5 B6 W7 B8)
    (r : Fin 131072) :
    val_main_v105 (F := Ideal) X0 X1 X2 W3 B4 W5 B6 W7 B8 (ix1 r) = Cert.Rela.termAt X0 X1 X2 W3 B4 W5 B6 W7 B8 r := by
  rw [val_main_v105_apply, val_main_v101_apply, val_main_v104_apply, val_main_v103_apply, val_main_v102_apply,
    val_main_cst_9_apply, lab_at X2 r, clog_pos_at X0 X1 X2 W3 B4 W5 B6 W7 B8 hS r, clog_neg_at X0 X1 X2 W3 B4 W5 B6 W7 B8 hS r]
  rfl

/-- "The label is zero" at row r. -/
theorem isNeg_at (r : Fin 131072) :
    val_main_v110 (F := Ideal) X2 (ix1 r) = Cert.Rela.isNeg (Cert.Rela.boxRow X2 r) := by
  rw [val_main_v110_apply, val_main_v109_apply, val_main_cst_12_apply, lab_at X2 r]
  rfl

/-- "The label is not zero" at row r: the complement of the one-bit word above. -/
theorem isPos_at (r : Fin 131072) :
    val_main_v111 (F := Ideal) X2 (ix1 r) = Cert.Rela.isPos (Cert.Rela.boxRow X2 r) := by
  rw [val_main_v111_apply, isNeg_at X2 r]
  exact not_one_bit _

/-- "The label is zero and the score is at least one half" at row r. -/
theorem negHit_at (hS : Read.val_main_v86 (F := Ideal) X0 X1 X2 W3 B4 W5 B6 W7 B8 = Cert.Rela.scoresG X0 X1 X2 W3 B4 W5 B6 W7 B8)
    (r : Fin 131072) :
    val_main_v118 (F := Ideal) X0 X1 X2 W3 B4 W5 B6 W7 B8 (ix1 r)
      = Cert.Rela.negHit (Cert.Rela.boxRow X2 r) (Cert.Rela.scoreAt X0 X1 X2 W3 B4 W5 B6 W7 B8 r) := by
  rw [val_main_v118_apply, val_main_v117_apply, val_main_v116_apply, val_main_cst_15_apply, isNeg_at X2 r,
    score_at X0 X1 X2 W3 B4 W5 B6 W7 B8 hS r]
  rfl

/-- "The label is not zero and the score is below one half" at row r. -/
theorem posHit_at (hS : Read.val_main_v86 (F := Ideal) X0 X1 X2 W3 B4 W5 B6 W7 B8 = Cert.Rela.scoresG X0 X1 X2 W3 B4 W5 B6 W7 B8)
    (r : Fin 131072) :
    val_main_v123 (F := Ideal) X0 X1 X2 W3 B4 W5 B6 W7 B8 (ix1 r)
      = Cert.Rela.posHit (Cert.Rela.boxRow X2 r) (Cert.Rela.scoreAt X0 X1 X2 W3 B4 W5 B6 W7 B8 r) := by
  rw [val_main_v123_apply, val_main_v122_apply, val_main_v121_apply, val_main_cst_17_apply, isPos_at X2 r,
    score_at X0 X1 X2 W3 B4 W5 B6 W7 B8 hS r]
  rfl

/-! ## The sums over the rows -/

/-- The count of rows of nonzero label: zero plus the sum of the counted bits. -/
theorem nPos_eq (i : S_.Idx) : val_main_v113 (F := Ideal) X2 i = Cert.Rela.nPos X2 := by
  rw [val_main_v113_apply, val_main_cst_13_apply, sum_rows]
  simp only [val_main_v112_apply, isPos_at X2]
  rw [Ideal.ofBits_def, Cert.Rela.Consts.zero_eq, zero_add]
  rfl

/-- The count of rows of label zero. -/
theorem nNeg_eq (i : S_.Idx) : val_main_v115 (F := Ideal) X2 i = Cert.Rela.nNeg X2 := by
  rw [val_main_v115_apply, val_main_cst_14_apply, sum_rows]
  simp only [val_main_v114_apply, isNeg_at X2]
  rw [Ideal.ofBits_def, Cert.Rela.Consts.zero_eq, zero_add]
  rfl

/-- The count of rows of label zero with score at least one half. -/
theorem nNegHit_eq (hS : Read.val_main_v86 (F := Ideal) X0 X1 X2 W3 B4 W5 B6 W7 B8 = Cert.Rela.scoresG X0 X1 X2 W3 B4 W5 B6 W7 B8)
    (i : S_.Idx) :
    val_main_v120 (F := Ideal) X0 X1 X2 W3 B4 W5 B6 W7 B8 i = Cert.Rela.nNegHit X0 X1 X2 W3 B4 W5 B6 W7 B8 := by
  rw [val_main_v120_apply, val_main_cst_16_apply, sum_rows]
  simp only [val_main_v119_apply, negHit_at X0 X1 X2 W3 B4 W5 B6 W7 B8 hS]
  rw [Ideal.ofBits_def, Cert.Rela.Consts.zero_eq, zero_add]
  rfl

/-- The count of rows of nonzero label with score below one half. -/
theorem nPosHit_eq (hS : Read.val_main_v86 (F := Ideal) X0 X1 X2 W3 B4 W5 B6 W7 B8 = Cert.Rela.scoresG X0 X1 X2 W3 B4 W5 B6 W7 B8)
    (i : S_.Idx) :
    val_main_v125 (F := Ideal) X0 X1 X2 W3 B4 W5 B6 W7 B8 i = Cert.Rela.nPosHit X0 X1 X2 W3 B4 W5 B6 W7 B8 := by
  rw [val_main_v125_apply, val_main_cst_18_apply, sum_rows]
  simp only [val_main_v124_apply, posHit_at X0 X1 X2 W3 B4 W5 B6 W7 B8 hS]
  rw [Ideal.ofBits_def, Cert.Rela.Consts.zero_eq, zero_add]
  rfl

/-! ## The four results -/

/-- The loss. The program sums the terms, divides by the row count and changes the sign; no term being -∞, that is the
    sum of the sign-changed terms over the row count. -/
theorem ref_loss (hS : Read.val_main_v86 (F := Ideal) X0 X1 X2 W3 B4 W5 B6 W7 B8 = Cert.Rela.scoresG X0 X1 X2 W3 B4 W5 B6 W7 B8) :
    Read.val_main_v108 (F := Ideal) X0 X1 X2 W3 B4 W5 B6 W7 B8 = Cert.Rela.lossG X0 X1 X2 W3 B4 W5 B6 W7 B8 := by
  funext i
  rw [val_main_v108_apply, val_main_v107_apply, val_main_v106_apply, val_main_cst_10_apply, val_main_cst_11_apply,
    sum_rows]
  simp only [term_at X0 X1 X2 W3 B4 W5 B6 W7 B8 hS]
  simp only [Ideal.hostNegf_def, Ideal.negf_def, Ideal.hostDivf_def, Ideal.ofBits_def]
  rw [Cert.Rela.Consts.zero_eq, zero_add]
  exact (Cert.Rela.loss_joined (Cert.Rela.termAt X0 X1 X2 W3 B4 W5 B6 W7 B8)
    (fun r => Cert.Rela.term_ne_bot _ _)).symm

/-- Rows of label zero with score at least one half, over rows of nonzero label. -/
theorem ref_rpos (hS : Read.val_main_v86 (F := Ideal) X0 X1 X2 W3 B4 W5 B6 W7 B8 = Cert.Rela.scoresG X0 X1 X2 W3 B4 W5 B6 W7 B8) :
    Read.val_main_v126 (F := Ideal) X0 X1 X2 W3 B4 W5 B6 W7 B8 = Cert.Rela.rposG X0 X1 X2 W3 B4 W5 B6 W7 B8 := by
  funext i
  rw [val_main_v126_apply, nNegHit_eq X0 X1 X2 W3 B4 W5 B6 W7 B8 hS i, nPos_eq X2 i]
  rfl

/-- Rows of nonzero label with score below one half, over rows of label zero. -/
theorem ref_rneg (hS : Read.val_main_v86 (F := Ideal) X0 X1 X2 W3 B4 W5 B6 W7 B8 = Cert.Rela.scoresG X0 X1 X2 W3 B4 W5 B6 W7 B8) :
    Read.val_main_v127 (F := Ideal) X0 X1 X2 W3 B4 W5 B6 W7 B8 = Cert.Rela.rnegG X0 X1 X2 W3 B4 W5 B6 W7 B8 := by
  funext i
  rw [val_main_v127_apply, nPosHit_eq X0 X1 X2 W3 B4 W5 B6 W7 B8 hS i, nNeg_eq X2 i]
  rfl

/-- Both kinds of such rows, over all rows. -/
theorem ref_rall (hS : Read.val_main_v86 (F := Ideal) X0 X1 X2 W3 B4 W5 B6 W7 B8 = Cert.Rela.scoresG X0 X1 X2 W3 B4 W5 B6 W7 B8) :
    Read.val_main_v130 (F := Ideal) X0 X1 X2 W3 B4 W5 B6 W7 B8 = Cert.Rela.rallG X0 X1 X2 W3 B4 W5 B6 W7 B8 := by
  funext i
  rw [val_main_v130_apply, val_main_v128_apply, val_main_v129_apply, nNegHit_eq X0 X1 X2 W3 B4 W5 B6 W7 B8 hS i,
    nPosHit_eq X0 X1 X2 W3 B4 W5 B6 W7 B8 hS i, nPos_eq X2 i, nNeg_eq X2 i]
  rfl

end Cert.ReferenceIdeal.RefValue

end
-- ==== Proof.lean ====
/-
  The certificate: a fused scoring kernel (a two-layer perceptron over two joined language vectors plus a weighted sum of
  eight box features, through a logistic, with a clamped cross-entropy loss and three recall quotients accumulated over
  the grid) against its plain reference, as equality of the five results over the extended reals.

  The three frames: the two kernels' are the generated frame runs (their last module in repaired copies), the reference's
  is its generated run with the results dropped. The idealization rewrote nothing. For the value claim both runs are read
  at ONE family of functions of the argument arrays (Proof/Spec.lean): the kernel's score array is tiled by its 128 output
  blocks, each the specification's scores of its 1024 rows; its five one-word accumulators are, after the last grid point,
  sums over all 131072 rows, because a sum over blocks of rows is the sum over the rows; the reference's stages are read
  index by index into the same functions, its 600-term products split at the join of the two language vectors, its
  eight-term product written out, and its loss (mean of the terms, then the sign) joined to the kernel's (signs first, then
  the sum, then the division by the row count) because no term is -∞: each is a maximum against -100.
-/
import proofs.«166331_j32547262169374_1_alg».proof.Defs
import proofs.«166331_j32547262169374_1_alg».proof.Proof.Gen.Kernel
import proofs.«166331_j32547262169374_1_alg».proof.Proof.Gen.KernelIdeal
import proofs.«166331_j32547262169374_1_alg».proof.Proof.Gen.ReferenceIdeal
import proofs.«166331_j32547262169374_1_alg».proof.Proof.Gen.Pre_finite_inputs
import proofs.«166331_j32547262169374_1_alg».proof.Proof.KernelFrameRun
import proofs.«166331_j32547262169374_1_alg».proof.Proof.KRun
import proofs.«166331_j32547262169374_1_alg».proof.Proof.RefScores
import proofs.«166331_j32547262169374_1_alg».proof.Proof.RefStats
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.GenP.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference runs and keeps its arguments: its run, the five results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2) (Cert.ReferenceIdeal.Value.run (F := Ideal) m ρ)

/-- Both idealized programs end with the specification's five functions of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, _, Cert.KernelIdeal.KV.krun m ρ, ?_⟩
  refine (θ_run Cert.ReferenceIdeal.defs _ _).mono (fun _ h c => ?_) (Cert.ReferenceIdeal.Value.run (F := Ideal) m' ρ')
  obtain ⟨h0, h1, h2, h3, h4, hrest⟩ := h c
  obtain ⟨a0, a1, a2, a3, a4, a5, a6, a7, a8⟩ := hagree c
  have hS := Cert.ReferenceIdeal.RefValue.ref_scores (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
  refine ⟨?_, ?_, ?_, ?_, ?_, hrest⟩
  · rw [h0, Cert.ReferenceIdeal.Read.val_main_v86_eq, hS, a0, a1, a2, a3, a4, a5, a6, a7, a8]
  · rw [h1, Cert.ReferenceIdeal.Read.val_main_v108_eq, Cert.ReferenceIdeal.RefValue.ref_loss _ _ _ _ _ _ _ _ _ hS, a0, a1, a2, a3, a4, a5, a6, a7, a8]
  · rw [h2, Cert.ReferenceIdeal.Read.val_main_v126_eq, Cert.ReferenceIdeal.RefValue.ref_rpos _ _ _ _ _ _ _ _ _ hS, a0, a1, a2, a3, a4, a5, a6, a7, a8]
  · rw [h3, Cert.ReferenceIdeal.Read.val_main_v127_eq, Cert.ReferenceIdeal.RefValue.ref_rneg _ _ _ _ _ _ _ _ _ hS, a0, a1, a2, a3, a4, a5, a6, a7, a8]
  · rw [h4, Cert.ReferenceIdeal.Read.val_main_v130_eq, Cert.ReferenceIdeal.RefValue.ref_rall _ _ _ _ _ _ _ _ _ hS, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
